-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x32000 : Shape := ⟨3, ![4, 1024, 32000]⟩
abbrev S4x1024 : Shape := ⟨2, ![4, 1024]⟩
abbrev S_ : Shape := ⟨0, ![]⟩

class Facts : Prop where
  bcast_S_S4x1024x32000 : S_.BroadcastsInDim S4x1024x32000 (![] : Fin 0 → Fin S4x1024x32000.rank)
  reducesTo_S4x1024x32000_S_d0_1_2 : S4x1024x32000.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S4x1024x32000 .f32) (main_arg1 : IVec S4x1024 32) : IVec S_ 1 :=
  let main_v0 : FVec F S4x1024x32000 .f32 := Host.absf main_arg0
  let main_cst : FVec F S_ .f32 := constant S_ .f32 0x7F800000#32
  let main_v1 : FVec F S4x1024x32000 .f32 := broadcastInDim S4x1024x32000 ![] bcast_S_S4x1024x32000 main_cst
  let main_v2 : IVec S4x1024x32000 1 := cmpf .olt main_v0 main_v1
  let main_c : IVec S_ 1 := constantI S_ 1 1#1
  let main_v3 : IVec S_ 1 := (fun x v => Host.reduce IntOp.andi x v reducesTo_S4x1024x32000_S_d0_1_2 h_S_) main_v2 main_c
  let main_c_0 : IVec S_ 32 := constantI S_ 32 0#32
  let main_v4 : IVec S4x1024 32 := broadcastInDim S4x1024 ![] bcast_S_S4x1024 main_c_0
  let main_v5 : IVec S4x1024 1 := cmpi .sge main_arg1 main_v4
  let main_c_1 : IVec S_ 1 := constantI S_ 1 1#1
  let main_v6 : IVec S_ 1 := (fun x v => Host.reduce IntOp.andi x v reducesTo_S4x1024_S_d0_1 h_S_) main_v5 main_c_1
  let main_v7 : IVec S_ 1 := andi main_v3 main_v6
  let main_c_2 : IVec S_ 32 := constantI S_ 32 32000#32
  let main_v8 : IVec S4x1024 32 := broadcastInDim S4x1024 ![] bcast_S_S4x1024 main_c_2
  let main_v9 : IVec S4x1024 1 := cmpi .slt main_arg1 main_v8
  let main_c_3 : IVec S_ 1 := constantI S_ 1 1#1
  let main_v10 : IVec S_ 1 := (fun x v => Host.reduce IntOp.andi x v reducesTo_S4x1024_S_d0_1 h_S_) main_v9 main_c_3
  let main_v11 : IVec S_ 1 := andi main_v7 main_v10
  main_v11
-- ==== Kernel.lean ====
abbrev S4x1024x32000 : Shape := ⟨3, ![4, 1024, 32000]⟩
abbrev S4x1024 : Shape := ⟨2, ![4, 1024]⟩
abbrev S4x1x1024 : Shape := ⟨3, ![4, 1, 1024]⟩
abbrev S4x1024x1024 : Shape := ⟨3, ![4, 1024, 1024]⟩
abbrev S1x1024x640 : Shape := ⟨3, ![1, 1024, 640]⟩
abbrev S1x1x1024 : Shape := ⟨3, ![1, 1, 1024]⟩
abbrev S1x1024x1024 : Shape := ⟨3, ![1, 1024, 1024]⟩
abbrev S1024x1 : Shape := ⟨2, ![1024, 1]⟩
abbrev S1024x1024 : Shape := ⟨2, ![1024, 1024]⟩
abbrev S1024x640 : Shape := ⟨2, ![1024, 640]⟩
abbrev S1024 : Shape := ⟨1, ![1024]⟩
abbrev S640x1 : Shape := ⟨2, ![640, 1]⟩
abbrev S1x1024 : Shape := ⟨2, ![1, 1024]⟩
abbrev S640x1024 : Shape := ⟨2, ![640, 1024]⟩
abbrev S_ : Shape := ⟨0, ![]⟩
abbrev S1023 : Shape := ⟨1, ![1023]⟩
abbrev S1x1023x1 : Shape := ⟨3, ![1, 1023, 1]⟩
abbrev S4x1023x1 : Shape := ⟨3, ![4, 1023, 1]⟩
abbrev S4x1023x1024 : Shape := ⟨3, ![4, 1023, 1024]⟩
abbrev S4x1023x1x1 : Shape := ⟨4, ![4, 1023, 1, 1]⟩
abbrev S1 : Shape := ⟨1, ![1]⟩
abbrev S1x1x1x1 : Shape := ⟨4, ![1, 1, 1, 1]⟩
abbrev S4x1023 : Shape := ⟨2, ![4, 1023]⟩
abbrev S4x1022 : Shape := ⟨2, ![4, 1022]⟩
abbrev S4x1022x1 : Shape := ⟨3, ![4, 1022, 1]⟩
abbrev S4x1x1022 : Shape := ⟨3, ![4, 1, 1022]⟩
abbrev S4x1022x1022 : Shape := ⟨3, ![4, 1022, 1022]⟩
abbrev S1022 : Shape := ⟨1, ![1022]⟩
abbrev S1022x1 : Shape := ⟨2, ![1022, 1]⟩
abbrev S1x1022 : Shape := ⟨2, ![1, 1022]⟩
abbrev S1022x1022 : Shape := ⟨2, ![1022, 1022]⟩
abbrev S1x1022x1022 : Shape := ⟨3, ![1, 1022, 1022]⟩
abbrev S4 : Shape := ⟨1, ![4]⟩

abbrev nBuf : Space → Nat
  | .hbm => 150
  | .vmem => 9
  | .smem => 0
  | _ => 0

abbrev hbmTy0_0 (i : Nat) : BufTy := match i % 128 with
  | 0 => ⟨S4x1024x32000, .f32⟩
  | 1 => ⟨S4x1024, .i32⟩
  | 2 => ⟨S4x1x1024, .i32⟩
  | 3 => ⟨S4x1024x1024, .f32⟩
  | 4 => ⟨S_, .i32⟩
  | 5 => ⟨S4x1024, .i32⟩
  | 6 => ⟨S4x1024, .i1⟩
  | 7 => ⟨S4x1024, .f32⟩
  | 8 => ⟨S1024, .i32⟩
  | 9 => ⟨S1024x1, .i32⟩
  | 10 => ⟨S1024, .i32⟩
  | 11 => ⟨S1x1024, .i32⟩
  | 12 => ⟨S1024x1024, .i32⟩
  | 13 => ⟨S1024x1024, .i32⟩
  | 14 => ⟨S1024x1024, .i1⟩
  | 15 => ⟨S_, .i32⟩
  | 16 => ⟨S1024x1, .i32⟩
  | 17 => ⟨S1024x1, .i32⟩
  | 18 => ⟨S1024x1024, .i32⟩
  | 19 => ⟨S1024x1024, .i32⟩
  | 20 => ⟨S1024x1024, .i1⟩
  | 21 => ⟨S1024x1024, .i1⟩
  | 22 => ⟨S1024x1024, .i32⟩
  | 23 => ⟨S1024x1024, .i32⟩
  | 24 => ⟨S1024x1024, .i32⟩
  | 25 => ⟨S_, .i32⟩
  | 26 => ⟨S1024x1024, .i32⟩
  | 27 => ⟨S1024x1024, .i32⟩
  | 28 => ⟨S1024x1024, .f32⟩
  | 29 => ⟨S1024x1024, .f32⟩
  | 30 => ⟨S_, .f32⟩
  | 31 => ⟨S1024x1024, .f32⟩
  | 32 => ⟨S1024x1024, .f32⟩
  | 33 => ⟨S1024x1024, .f32⟩
  | 34 => ⟨S_, .f32⟩
  | 35 => ⟨S_, .f32⟩
  | 36 => ⟨S1024x1024, .f32⟩
  | 37 => ⟨S1024x1024, .f32⟩
  | 38 => ⟨S1x1024x1024, .f32⟩
  | 39 => ⟨S4x1024x1024, .f32⟩
  | 40 => ⟨S4x1024x1024, .f32⟩
  | 41 => ⟨S4x1x1024, .f32⟩
  | 42 => ⟨S4x1024x1024, .f32⟩
  | 43 => ⟨S4x1024x1024, .f32⟩
  | 44 => ⟨S_, .f32⟩
  | 45 => ⟨S_, .f32⟩
  | 46 => ⟨S_, .f32⟩
  | 47 => ⟨S_, .f32⟩
  | 48 => ⟨S1023, .i32⟩
  | 49 => ⟨S1x1023x1, .i32⟩
  | 50 => ⟨S4x1023x1, .i32⟩
  | 51 => ⟨S4x1023x1024, .f32⟩
  | 52 => ⟨S_, .i32⟩
  | 53 => ⟨S4x1023x1, .i32⟩
  | 54 => ⟨S4x1023x1, .i1⟩
  | 55 => ⟨S_, .i32⟩
  | 56 => ⟨S4x1023x1, .i32⟩
  | 57 => ⟨S4x1023x1, .i32⟩
  | 58 => ⟨S4x1023x1, .i32⟩
  | 59 => ⟨S4x1023x1x1, .i32⟩
  | 60 => ⟨S1, .i32⟩
  | 61 => ⟨S_, .i32⟩
  | 62 => ⟨S4x1023x1x1, .i32⟩
  | 63 => ⟨S4x1023x1x1, .i1⟩
  | 64 => ⟨S1x1x1x1, .i32⟩
  | 65 => ⟨S4x1023x1x1, .i32⟩
  | 66 => ⟨S4x1023x1x1, .i1⟩
  | 67 => ⟨S4x1023x1x1, .i1⟩
  | 68 => ⟨S_, .i1⟩
  | 69 => ⟨S4x1023x1, .i1⟩
  | 70 => ⟨S4x1023x1, .f32⟩
  | 71 => ⟨S_, .f32⟩
  | 72 => ⟨S4x1023x1, .f32⟩
  | 73 => ⟨S4x1023x1, .f32⟩
  | 74 => ⟨S4x1023, .f32⟩
  | 75 => ⟨S4x1023, .f32⟩
  | 76 => ⟨S4x1023, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S4x1022, .i32⟩
  | 85 => ⟨S4x1022, .i32⟩
  | 86 => ⟨S4x1022, .i32⟩
  | 87 => ⟨S4x1022x1, .i32⟩
  | 88 => ⟨S4x1x1022, .i32⟩
  | 89 => ⟨S4x1022x1022, .i32⟩
  | 90 => ⟨S4x1022x1022, .i32⟩
  | 91 => ⟨S4x1022x1022, .i1⟩
  | 92 => ⟨S4x1022x1, .i32⟩
  | 93 => ⟨S4x1x1022, .i32⟩
  | 94 => ⟨S4x1022x1022, .i32⟩
  | 95 => ⟨S4x1022x1022, .i32⟩
  | 96 => ⟨S4x1022x1022, .i1⟩
  | 97 => ⟨S4x1022x1022, .i1⟩
  | 98 => ⟨S1022, .i32⟩
  | 99 => ⟨S1022x1, .i32⟩
  | 100 => ⟨S1022, .i32⟩
  | 101 => ⟨S1x1022, .i32⟩
  | 102 => ⟨S1022x1022, .i32⟩
  | 103 => ⟨S1022x1022, .i32⟩
  | 104 => ⟨S1022x1022, .i1⟩
  | 105 => ⟨S4x1022x1, .i32⟩
  | 106 => ⟨S4x1x1022, .i32⟩
  | 107 => ⟨S4x1022x1022, .i32⟩
  | 108 => ⟨S4x1022x1022, .i32⟩
  | 109 => ⟨S4x1022x1022, .i1⟩
  | 110 => ⟨S1x1022x1022, .i1⟩
  | 111 => ⟨S4x1022x1022, .i1⟩
  | 112 => ⟨S4x1022x1022, .i1⟩
  | 113 => ⟨S4x1022x1022, .bf16⟩
  | 114 => ⟨S4x1022x1022, .bf16⟩
  | 115 => ⟨S4x1022x1022, .f32⟩
  | 116 => ⟨S_, .f32⟩
  | 117 => ⟨S4x1022x1022, .f32⟩
  | 118 => ⟨S4x1022x1022, .i1⟩
  | 119 => ⟨S4x1022x1022, .i1⟩
  | 120 => ⟨S4x1022x1022, .i1⟩
  | 121 => ⟨S_, .i32⟩
  | 122 => ⟨S4x1022, .i32⟩
  | 123 => ⟨S4x1022, .i1⟩
  | 124 => ⟨S4x1x1022, .i1⟩
  | 125 => ⟨S4x1022x1022, .i1⟩
  | 126 => ⟨S4x1022x1022, .i1⟩
  | 127 => ⟨S4x1022x1022, .f32⟩
  | _ => ⟨S4x1024x32000, .f32⟩

abbrev hbmTy0_1 (i : Nat) : BufTy := match i % 128 with
  | 0 => ⟨S4x1022x1022, .f32⟩
  | 1 => ⟨S_, .f32⟩
  | 2 => ⟨S_, .f32⟩
  | 3 => ⟨S4x1022x1022, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S1, .f32⟩
  | 18 => ⟨S1, .f32⟩
  | 19 => ⟨S1, .f32⟩
  | 20 => ⟨S1, .f32⟩
  | 21 => ⟨S4, .f32⟩
  | _ => ⟨S4x1024x32000, .f32⟩

abbrev hbmTy (i : Nat) : BufTy := match i / 128 with
  | 0 => hbmTy0_0 i
  | 1 => hbmTy0_1 i
  | _ => ⟨S4x1024x32000, .f32⟩

abbrev bufTy : (tb : Table) → Fin (tcTables nBuf tb) → BufTy
  | .hbm, ⟨i, _⟩ => hbmTy i
  | .local _ .vmem, ⟨0, _⟩ => ⟨S1x1024x640, .f32⟩
  | .local _ .vmem, ⟨1, _⟩ => ⟨S1x1024x640, .f32⟩
  | .local _ .vmem, ⟨2, _⟩ => ⟨S1x1x1024, .i32⟩
  | .local _ .vmem, ⟨3, _⟩ => ⟨S1x1x1024, .i32⟩
  | .local _ .vmem, ⟨4, _⟩ => ⟨S1x1024x1024, .f32⟩
  | .local _ .vmem, ⟨5, _⟩ => ⟨S1x1024x1024, .f32⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | _, _ => ⟨S4x1024x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_cst : Ref sig .tc := ⟨.hbm, 71, rfl⟩
abbrev main_call1_v14 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_5 : Ref sig .tc := ⟨.hbm, 77, rfl⟩
abbrev main_v45 : Ref sig .tc := ⟨.hbm, 78, rfl⟩
abbrev main_cst_6 : Ref sig .tc := ⟨.hbm, 79, rfl⟩
abbrev main_v46 : Ref sig .tc := ⟨.hbm, 80, rfl⟩
abbrev main_cst_7 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_8 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_9 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_10 : Ref sig .tc := ⟨.hbm, 129, rfl⟩
abbrev main_v92 : Ref sig .tc := ⟨.hbm, 130, rfl⟩
abbrev main_v93 : Ref sig .tc := ⟨.hbm, 131, rfl⟩
abbrev main_cst_11 : Ref sig .tc := ⟨.hbm, 132, rfl⟩
abbrev main_v94 : Ref sig .tc := ⟨.hbm, 133, rfl⟩
abbrev main_cst_12 : Ref sig .tc := ⟨.hbm, 134, rfl⟩
abbrev main_v95 : Ref sig .tc := ⟨.hbm, 135, rfl⟩
abbrev main_v96 : Ref sig .tc := ⟨.hbm, 136, rfl⟩
abbrev main_cst_13 : Ref sig .tc := ⟨.hbm, 137, rfl⟩
abbrev main_v97 : Ref sig .tc := ⟨.hbm, 138, rfl⟩
abbrev main_cst_14 : Ref sig .tc := ⟨.hbm, 139, rfl⟩
abbrev main_v98 : Ref sig .tc := ⟨.hbm, 140, rfl⟩
abbrev main_cst_15 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg1 : BitVec 32 := BitVec.ofNat 32 (i 1).val
  let c49_i32 : BitVec 32 := 49#32
  let v46 : BitVec 1 := Scalar.cmpi .eq arg1 c49_i32
  let v47 : BitVec 32 := Scalar.extui v46
  let c0_i32_20 : BitVec 32 := 0#32
  let v48 : BitVec 1 := Scalar.cmpi .ne v47 c0_i32_20
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x1024_S4x1x1024 : S4x1024.ShapeCasts S4x1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x640_S1x1024x640_0_0_0 : ∀ a, (![0, 0, 0] : Fin 3 → Nat) a + S1x1024x640.size a ≤ S1x1024x640.size a
  h_S1x1024x640 : 0 < S1x1024x640.numel
  shapeCasts_S1x1024x640_S1024x640 : S1x1024x640.ShapeCasts S1024x640
  reduces_S1024x640_S1024 : S1024x640.Reduces [1] S1024
  shapeCasts_S1024_S1024x1 : S1024.ShapeCasts S1024x1
  broadcasts_S1024x1_S1024x640 : S1024x1.Broadcasts S1024x640
  iota_S640x1_d0_w32 : S640x1.Iotas .tc 32 [0]
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S640x1_S640x1024 : S640x1.Broadcasts S640x1024
  broadcasts_S1x1024_S640x1024 : S1x1024.Broadcasts S640x1024
  natLt_1_32 : 1 < 32
  bitsLt_bf16_f32 : FTy.bits .bf16 < FTy.bits .f32
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  bcast_S_S4x1024 : S_.BroadcastsInDim S4x1024 (![] : Fin 0 → Fin S4x1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1 : S_.BroadcastsInDim S1024x1 (![] : Fin 0 → Fin S1024x1.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S4x1024x1024_0_1_2 : S1x1024x1024.BroadcastsInDim S4x1024x1024 (![0, 1, 2] : Fin 3 → Fin S4x1024x1024.rank)
  bcast_S4x1024_S4x1x1024_0_2 : S4x1024.BroadcastsInDim S4x1x1024 (![0, 2] : Fin 2 → Fin S4x1x1024.rank)
  bcast_S4x1x1024_S4x1024x1024_0_1_2 : S4x1x1024.BroadcastsInDim S4x1024x1024 (![0, 1, 2] : Fin 3 → Fin S4x1024x1024.rank)
  reducesTo_S4x1024x1024_S_d0_1_2 : S4x1024x1024.ReducesTo [0, 1, 2] S_
  h_S_ : 0 < S_.numel
  bcast_S1023_S1x1023x1_1 : S1023.BroadcastsInDim S1x1023x1 (![1] : Fin 1 → Fin S1x1023x1.rank)
  bcast_S1x1023x1_S4x1023x1_0_1_2 : S1x1023x1.BroadcastsInDim S4x1023x1 (![0, 1, 2] : Fin 3 → Fin S4x1023x1.rank)
  slices_S4x1024x1024_S4x1023x1024_0_1_0 : S4x1024x1024.Slices ![0, 1, 0] S4x1023x1024
  bcast_S_S4x1023x1 : S_.BroadcastsInDim S4x1023x1 (![] : Fin 0 → Fin S4x1023x1.rank)
  shapeCasts_S4x1023x1_S4x1023x1x1 : S4x1023x1.ShapeCasts S4x1023x1x1
  bcast_S_S4x1023x1x1 : S_.BroadcastsInDim S4x1023x1x1 (![] : Fin 0 → Fin S4x1023x1x1.rank)
  bcast_S1_S1x1x1x1_3 : S1.BroadcastsInDim S1x1x1x1 (![3] : Fin 1 → Fin S1x1x1x1.rank)
  bcast_S1x1x1x1_S4x1023x1x1_0_1_2_3 : S1x1x1x1.BroadcastsInDim S4x1023x1x1 (![0, 1, 2, 3] : Fin 4 → Fin S4x1023x1x1.rank)
  reducesTo_S4x1023x1x1_S4x1023x1_d3 : S4x1023x1x1.ReducesTo [3] S4x1023x1
  shapeCasts_S4x1023x1_S4x1023 : S4x1023x1.ShapeCasts S4x1023
  slices_S4x1024_S4x1023_0_0 : S4x1024.Slices ![0, 0] S4x1023
  reducesTo_S4x1023_S_d0_1 : S4x1023.ReducesTo [0, 1] S_
  slices_S4x1024_S4x1022_0_0 : S4x1024.Slices ![0, 0] S4x1022
  slices_S4x1024_S4x1022_0_1 : S4x1024.Slices ![0, 1] S4x1022
  slices_S4x1024_S4x1022_0_2 : S4x1024.Slices ![0, 2] S4x1022
  bcast_S4x1022_S4x1022x1_0_1 : S4x1022.BroadcastsInDim S4x1022x1 (![0, 1] : Fin 2 → Fin S4x1022x1.rank)
  bcast_S4x1022_S4x1x1022_0_2 : S4x1022.BroadcastsInDim S4x1x1022 (![0, 2] : Fin 2 → Fin S4x1x1022.rank)
  bcast_S4x1022x1_S4x1022x1022_0_1_2 : S4x1022x1.BroadcastsInDim S4x1022x1022 (![0, 1, 2] : Fin 3 → Fin S4x1022x1022.rank)
  bcast_S4x1x1022_S4x1022x1022_0_1_2 : S4x1x1022.BroadcastsInDim S4x1022x1022 (![0, 1, 2] : Fin 3 → Fin S4x1022x1022.rank)
  bcast_S1022_S1022x1_0 : S1022.BroadcastsInDim S1022x1 (![0] : Fin 1 → Fin S1022x1.rank)
  bcast_S1022_S1x1022_1 : S1022.BroadcastsInDim S1x1022 (![1] : Fin 1 → Fin S1x1022.rank)
  bcast_S1022x1_S1022x1022_0_1 : S1022x1.BroadcastsInDim S1022x1022 (![0, 1] : Fin 2 → Fin S1022x1022.rank)
  bcast_S1x1022_S1022x1022_0_1 : S1x1022.BroadcastsInDim S1022x1022 (![0, 1] : Fin 2 → Fin S1022x1022.rank)
  bcast_S1022x1022_S1x1022x1022_1_2 : S1022x1022.BroadcastsInDim S1x1022x1022 (![1, 2] : Fin 2 → Fin S1x1022x1022.rank)
  bcast_S1x1022x1022_S4x1022x1022_0_1_2 : S1x1022x1022.BroadcastsInDim S4x1022x1022 (![0, 1, 2] : Fin 3 → Fin S4x1022x1022.rank)
  bcast_S_S4x1022x1022 : S_.BroadcastsInDim S4x1022x1022 (![] : Fin 0 → Fin S4x1022x1022.rank)
  bcast_S_S4x1022 : S_.BroadcastsInDim S4x1022 (![] : Fin 0 → Fin S4x1022.rank)
  slices_S4x1024x1024_S4x1022x1022_0_2_2 : S4x1024x1024.Slices ![0, 2, 2] S4x1022x1022
  reducesTo_S4x1022x1022_S_d0_1_2 : S4x1022x1022.ReducesTo [0, 1, 2] S_
  bcast_S_S1 : S_.BroadcastsInDim S1 (![] : Fin 0 → Fin S1.rank)
  concatenates_S1_S1_S1_S1_S4_d0 : Shape.Concatenates [S1, S1, S1, S1] S4 0
  dot_S1024x640_S640x1024_S1024x1024_1_0_0_1_n_n_wf : DotDims.WF S1024x640 S640x1024 S1024x1024 [1] [0] [0] [1] [] []
  gather_S4x1023x1024_S4x1023x1x1_S4x1023x1_n_2_01_01_2_3_111_wf : GatherDims.WF S4x1023x1024 S4x1023x1x1 S4x1023x1 [] [2] [0, 1] [2] [0, 1] 3 ![1, 1, 1]
  dot_S4x1022x1022_S4x1022x1022_S4x1022x1022_2_1_1_2_0_0_wf : DotDims.WF S4x1022x1022 S4x1022x1022 S4x1022x1022 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x640.size a ≤ S4x1024x32000.size a
  hwx0_0 : ∀ i : grid0.Coords, EltTy.bits .f32 = 32 ∨ (Rect.block (s := S4x1024x32000) S1x1024x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S4x1x1024.size a
  hwx0_1 : ∀ i : grid0.Coords, EltTy.bits .i32 = 32 ∨ (Rect.block (s := S4x1x1024) S1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x1024x1024.size a
  hwx0_2 : ∀ i : grid0.Coords, EltTy.bits .f32 = 32 ∨ (Rect.block (s := S4x1024x1024) S1x1024x1024.size (cc0_transform_2 i) (hinb0_2 i)).WholeWords (EltTy.packing .f32)

variable [Facts₀]

def dot_S1024x640_S640x1024_S1024x1024_1_0_0_1_n_n : DotDims S1024x640 S640x1024 S1024x1024 where
  lhsContracting := [1]
  rhsContracting := [0]
  lhsNonContracting := [0]
  rhsNonContracting := [1]
  lhsBatch := []
  rhsBatch := []
  wf := dot_S1024x640_S640x1024_S1024x1024_1_0_0_1_n_n_wf
def gather_S4x1023x1024_S4x1023x1x1_S4x1023x1_n_2_01_01_2_3_111 : GatherDims S4x1023x1024 S4x1023x1x1 S4x1023x1 where
  offsetDims := []
  collapsedSliceDims := [2]
  operandBatchingDims := [0, 1]
  startIndicesBatchingDims := [0, 1]
  startIndexMap := [2]
  indexVectorDim := 3
  sliceSizes := ![1, 1, 1]
  wf := gather_S4x1023x1024_S4x1023x1x1_S4x1023x1_n_2_01_01_2_3_111_wf
def dot_S4x1022x1022_S4x1022x1022_S4x1022x1022_2_1_1_2_0_0 : DotDims S4x1022x1022 S4x1022x1022 S4x1022x1022 where
  lhsContracting := [2]
  rhsContracting := [1]
  lhsNonContracting := [1]
  rhsNonContracting := [2]
  lhsBatch := [0]
  rhsBatch := [0]
  wf := dot_S4x1022x1022_S4x1022x1022_S4x1022x1022_2_1_1_2_0_0_wf

abbrev win0_0 : Pipeline.Window sig grid0 :=
  Pipeline.Window.ofSpec (Memref.whole main_arg0) S1x1024x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x1024x32000 : Shape := ⟨3, ![4, 1024, 32000]⟩
abbrev S4x1024 : Shape := ⟨2, ![4, 1024]⟩
abbrev S_ : Shape := ⟨0, ![]⟩
abbrev S4x1024x1 : Shape := ⟨3, ![4, 1024, 1]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S4x1x1024 : Shape := ⟨3, ![4, 1, 1024]⟩
abbrev S4x1024x1024 : Shape := ⟨3, ![4, 1024, 1024]⟩
abbrev S4x1024x1024x1 : Shape := ⟨4, ![4, 1024, 1024, 1]⟩
abbrev S1 : Shape := ⟨1, ![1]⟩
abbrev S1x1x1x1 : Shape := ⟨4, ![1, 1, 1, 1]⟩
abbrev S1x1024x1024 : Shape := ⟨3, ![1, 1024, 1024]⟩
abbrev S4x1023 : Shape := ⟨2, ![4, 1023]⟩
abbrev S4x1023x32000 : Shape := ⟨3, ![4, 1023, 32000]⟩
abbrev S4x1023x1 : Shape := ⟨3, ![4, 1023, 1]⟩
abbrev S4x1023x1x1 : Shape := ⟨4, ![4, 1023, 1, 1]⟩
abbrev S4x1022 : Shape := ⟨2, ![4, 1022]⟩
abbrev S4x1022x1 : Shape := ⟨3, ![4, 1022, 1]⟩
abbrev S4x1x1022 : Shape := ⟨3, ![4, 1, 1022]⟩
abbrev S4x1022x1022 : Shape := ⟨3, ![4, 1022, 1022]⟩
abbrev S1022 : Shape := ⟨1, ![1022]⟩
abbrev S1022x1 : Shape := ⟨2, ![1022, 1]⟩
abbrev S1x1022 : Shape := ⟨2, ![1, 1022]⟩
abbrev S1022x1022 : Shape := ⟨2, ![1022, 1022]⟩
abbrev S1x1022x1022 : Shape := ⟨3, ![1, 1022, 1022]⟩
abbrev S4x1022x32000 : Shape := ⟨3, ![4, 1022, 32000]⟩
abbrev S4x1022x1022x1 : Shape := ⟨4, ![4, 1022, 1022, 1]⟩
abbrev S4 : Shape := ⟨1, ![4]⟩

abbrev nBuf : Space → Nat
  | .hbm => 209
  | .vmem => 0
  | .smem => 0
  | _ => 0

abbrev hbmTy0_0 (i : Nat) : BufTy := match i % 128 with
  | 0 => ⟨S4x1024x32000, .f32⟩
  | 1 => ⟨S4x1024, .i32⟩
  | 2 => ⟨S_, .f32⟩
  | 3 => ⟨S4x1024, .f32⟩
  | 4 => ⟨S_, .f32⟩
  | 5 => ⟨S4x1024, .f32⟩
  | 6 => ⟨S4x1024, .f32⟩
  | 7 => ⟨S4x1024x1, .f32⟩
  | 8 => ⟨S4x1024x32000, .f32⟩
  | 9 => ⟨S4x1024x32000, .f32⟩
  | 10 => ⟨S4x1024x32000, .f32⟩
  | 11 => ⟨S_, .f32⟩
  | 12 => ⟨S4x1024, .f32⟩
  | 13 => ⟨S4x1024x1, .f32⟩
  | 14 => ⟨S4x1024x32000, .f32⟩
  | 15 => ⟨S4x1024x32000, .f32⟩
  | 16 => ⟨S_, .i32⟩
  | 17 => ⟨S4x1024, .i32⟩
  | 18 => ⟨S4x1024, .i1⟩
  | 19 => ⟨S4x1024, .f32⟩
  | 20 => ⟨S1024, .i32⟩
  | 21 => ⟨S1024x1, .i32⟩
  | 22 => ⟨S1024, .i32⟩
  | 23 => ⟨S1x1024, .i32⟩
  | 24 => ⟨S1024x1024, .i32⟩
  | 25 => ⟨S1024x1024, .i32⟩
  | 26 => ⟨S1024x1024, .i1⟩
  | 27 => ⟨S_, .i32⟩
  | 28 => ⟨S1024x1, .i32⟩
  | 29 => ⟨S1024x1, .i32⟩
  | 30 => ⟨S1024x1024, .i32⟩
  | 31 => ⟨S1024x1024, .i32⟩
  | 32 => ⟨S1024x1024, .i1⟩
  | 33 => ⟨S1024x1024, .i1⟩
  | 34 => ⟨S1024x1024, .i32⟩
  | 35 => ⟨S1024x1024, .i32⟩
  | 36 => ⟨S1024x1024, .i32⟩
  | 37 => ⟨S_, .i32⟩
  | 38 => ⟨S1024x1024, .i32⟩
  | 39 => ⟨S1024x1024, .i32⟩
  | 40 => ⟨S1024x1024, .f32⟩
  | 41 => ⟨S1024x1024, .f32⟩
  | 42 => ⟨S_, .f32⟩
  | 43 => ⟨S1024x1024, .f32⟩
  | 44 => ⟨S1024x1024, .f32⟩
  | 45 => ⟨S1024x1024, .f32⟩
  | 46 => ⟨S_, .f32⟩
  | 47 => ⟨S_, .f32⟩
  | 48 => ⟨S1024x1024, .f32⟩
  | 49 => ⟨S1024x1024, .f32⟩
  | 50 => ⟨S4x1x1024, .i32⟩
  | 51 => ⟨S4x1024x1024, .i32⟩
  | 52 => ⟨S_, .i32⟩
  | 53 => ⟨S4x1024x1024, .i32⟩
  | 54 => ⟨S4x1024x1024, .i1⟩
  | 55 => ⟨S_, .i32⟩
  | 56 => ⟨S4x1024x1024, .i32⟩
  | 57 => ⟨S4x1024x1024, .i32⟩
  | 58 => ⟨S4x1024x1024, .i32⟩
  | 59 => ⟨S4x1024x1024x1, .i32⟩
  | 60 => ⟨S1, .i32⟩
  | 61 => ⟨S_, .i32⟩
  | 62 => ⟨S4x1024x1024x1, .i32⟩
  | 63 => ⟨S4x1024x1024x1, .i1⟩
  | 64 => ⟨S1x1x1x1, .i32⟩
  | 65 => ⟨S4x1024x1024x1, .i32⟩
  | 66 => ⟨S4x1024x1024x1, .i1⟩
  | 67 => ⟨S4x1024x1024x1, .i1⟩
  | 68 => ⟨S_, .i1⟩
  | 69 => ⟨S4x1024x1024, .i1⟩
  | 70 => ⟨S4x1024x1024, .f32⟩
  | 71 => ⟨S_, .f32⟩
  | 72 => ⟨S4x1024x1024, .f32⟩
  | 73 => ⟨S4x1024x1024, .f32⟩
  | 74 => ⟨S1x1024x1024, .f32⟩
  | 75 => ⟨S4x1024x1024, .f32⟩
  | 76 => ⟨S4x1024x1024, .f32⟩
  | 77 => ⟨S4x1x1024, .f32⟩
  | 78 => ⟨S4x1024x1024, .f32⟩
  | 79 => ⟨S4x1024x1024, .f32⟩
  | 80 => ⟨S_, .f32⟩
  | 81 => ⟨S_, .f32⟩
  | 82 => ⟨S_, .f32⟩
  | 83 => ⟨S_, .f32⟩
  | 84 => ⟨S4x1023, .i32⟩
  | 85 => ⟨S4x1023x32000, .f32⟩
  | 86 => ⟨S4x1023x1, .i32⟩
  | 87 => ⟨S_, .i32⟩
  | 88 => ⟨S4x1023x1, .i32⟩
  | 89 => ⟨S4x1023x1, .i1⟩
  | 90 => ⟨S_, .i32⟩
  | 91 => ⟨S4x1023x1, .i32⟩
  | 92 => ⟨S4x1023x1, .i32⟩
  | 93 => ⟨S4x1023x1, .i32⟩
  | 94 => ⟨S4x1023x1x1, .i32⟩
  | 95 => ⟨S1, .i32⟩
  | 96 => ⟨S_, .i32⟩
  | 97 => ⟨S4x1023x1x1, .i32⟩
  | 98 => ⟨S4x1023x1x1, .i1⟩
  | 99 => ⟨S1x1x1x1, .i32⟩
  | 100 => ⟨S4x1023x1x1, .i32⟩
  | 101 => ⟨S4x1023x1x1, .i1⟩
  | 102 => ⟨S4x1023x1x1, .i1⟩
  | 103 => ⟨S_, .i1⟩
  | 104 => ⟨S4x1023x1, .i1⟩
  | 105 => ⟨S4x1023x1, .f32⟩
  | 106 => ⟨S_, .f32⟩
  | 107 => ⟨S4x1023x1, .f32⟩
  | 108 => ⟨S4x1023x1, .f32⟩
  | 109 => ⟨S4x1023, .f32⟩
  | 110 => ⟨S4x1023, .f32⟩
  | 111 => ⟨S4x1023, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S4x1022, .i32⟩
  | 120 => ⟨S4x1022, .i32⟩
  | 121 => ⟨S4x1022, .i32⟩
  | 122 => ⟨S4x1022x1, .i32⟩
  | 123 => ⟨S4x1x1022, .i32⟩
  | 124 => ⟨S4x1022x1022, .i32⟩
  | 125 => ⟨S4x1022x1022, .i32⟩
  | 126 => ⟨S4x1022x1022, .i1⟩
  | 127 => ⟨S4x1022x1, .i32⟩
  | _ => ⟨S4x1024x32000, .f32⟩

abbrev hbmTy0_1 (i : Nat) : BufTy := match i % 128 with
  | 0 => ⟨S4x1x1022, .i32⟩
  | 1 => ⟨S4x1022x1022, .i32⟩
  | 2 => ⟨S4x1022x1022, .i32⟩
  | 3 => ⟨S4x1022x1022, .i1⟩
  | 4 => ⟨S4x1022x1022, .i1⟩
  | 5 => ⟨S1022, .i32⟩
  | 6 => ⟨S1022x1, .i32⟩
  | 7 => ⟨S1022, .i32⟩
  | 8 => ⟨S1x1022, .i32⟩
  | 9 => ⟨S1022x1022, .i32⟩
  | 10 => ⟨S1022x1022, .i32⟩
  | 11 => ⟨S1022x1022, .i1⟩
  | 12 => ⟨S4x1022x1, .i32⟩
  | 13 => ⟨S4x1x1022, .i32⟩
  | 14 => ⟨S4x1022x1022, .i32⟩
  | 15 => ⟨S4x1022x1022, .i32⟩
  | 16 => ⟨S4x1022x1022, .i1⟩
  | 17 => ⟨S1x1022x1022, .i1⟩
  | 18 => ⟨S4x1022x1022, .i1⟩
  | 19 => ⟨S4x1022x1022, .i1⟩
  | 20 => ⟨S4x1022x1022, .f32⟩
  | 21 => ⟨S4x1022x1022, .f32⟩
  | 22 => ⟨S4x1022x1022, .f32⟩
  | 23 => ⟨S_, .f32⟩
  | 24 => ⟨S4x1022x1022, .f32⟩
  | 25 => ⟨S4x1022x1022, .i1⟩
  | 26 => ⟨S4x1022x1022, .i1⟩
  | 27 => ⟨S4x1022x1022, .i1⟩
  | 28 => ⟨S_, .i32⟩
  | 29 => ⟨S4x1022, .i32⟩
  | 30 => ⟨S4x1022, .i1⟩
  | 31 => ⟨S4x1x1022, .i1⟩
  | 32 => ⟨S4x1022x1022, .i1⟩
  | 33 => ⟨S4x1022x1022, .i1⟩
  | 34 => ⟨S4x1022x1022, .f32⟩
  | 35 => ⟨S4x1022x32000, .f32⟩
  | 36 => ⟨S4x1x1022, .i32⟩
  | 37 => ⟨S4x1022x1022, .i32⟩
  | 38 => ⟨S_, .i32⟩
  | 39 => ⟨S4x1022x1022, .i32⟩
  | 40 => ⟨S4x1022x1022, .i1⟩
  | 41 => ⟨S_, .i32⟩
  | 42 => ⟨S4x1022x1022, .i32⟩
  | 43 => ⟨S4x1022x1022, .i32⟩
  | 44 => ⟨S4x1022x1022, .i32⟩
  | 45 => ⟨S4x1022x1022x1, .i32⟩
  | 46 => ⟨S1, .i32⟩
  | 47 => ⟨S_, .i32⟩
  | 48 => ⟨S4x1022x1022x1, .i32⟩
  | 49 => ⟨S4x1022x1022x1, .i1⟩
  | 50 => ⟨S1x1x1x1, .i32⟩
  | 51 => ⟨S4x1022x1022x1, .i32⟩
  | 52 => ⟨S4x1022x1022x1, .i1⟩
  | 53 => ⟨S4x1022x1022x1, .i1⟩
  | 54 => ⟨S_, .i1⟩
  | 55 => ⟨S4x1022x1022, .i1⟩
  | 56 => ⟨S4x1022x1022, .f32⟩
  | 57 => ⟨S_, .f32⟩
  | 58 => ⟨S4x1022x1022, .f32⟩
  | 59 => ⟨S4x1022x1022, .f32⟩
  | 60 => ⟨S_, .f32⟩
  | 61 => ⟨S_, .f32⟩
  | 62 => ⟨S4x1022x1022, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S1, .f32⟩
  | 77 => ⟨S1, .f32⟩
  | 78 => ⟨S1, .f32⟩
  | 79 => ⟨S1, .f32⟩
  | 80 => ⟨S4, .f32⟩
  | _ => ⟨S4x1024x32000, .f32⟩

abbrev hbmTy (i : Nat) : BufTy := match i / 128 with
  | 0 => hbmTy0_0 i
  | 1 => hbmTy0_1 i
  | _ => ⟨S4x1024x32000, .f32⟩

abbrev bufTy : (tb : Table) → Fin (tcTables nBuf tb) → BufTy
  | .hbm, ⟨i, _⟩ => hbmTy i
  | _, _ => ⟨S4x1024x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_cst : Ref sig .tc := ⟨.hbm, 71, rfl⟩
abbrev main_call1_v14 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_6 : Ref sig .tc := ⟨.hbm, 80, rfl⟩
abbrev main_v47 : Ref sig .tc := ⟨.hbm, 81, rfl⟩
abbrev main_cst_7 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_cst : Ref sig .tc := ⟨.hbm, 106, rfl⟩
abbrev main_call2_v14 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_8 : Ref sig .tc := ⟨.hbm, 112, rfl⟩
abbrev main_v56 : Ref sig .tc := ⟨.hbm, 113, rfl⟩
abbrev main_cst_9 : Ref sig .tc := ⟨.hbm, 114, rfl⟩
abbrev main_v57 : Ref sig .tc := ⟨.hbm, 115, rfl⟩
abbrev main_cst_10 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_cst_11 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_c_12 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_call3_c : Ref sig .tc := ⟨.hbm, 166, rfl⟩
abbrev main_call3_v0 : Ref sig .tc := ⟨.hbm, 167, rfl⟩
abbrev main_call3_v1 : Ref sig .tc := ⟨.hbm, 168, rfl⟩
abbrev main_call3_c_0 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_c_1 : Ref sig .tc := ⟨.hbm, 174, rfl⟩
abbrev main_call3_c_2 : Ref sig .tc := ⟨.hbm, 175, rfl⟩
abbrev main_call3_v6 : Ref sig .tc := ⟨.hbm, 176, rfl⟩
abbrev main_call3_v7 : Ref sig .tc := ⟨.hbm, 177, rfl⟩
abbrev main_call3_v8 : Ref sig .tc := ⟨.hbm, 178, rfl⟩
abbrev main_call3_v9 : Ref sig .tc := ⟨.hbm, 179, rfl⟩
abbrev main_call3_v10 : Ref sig .tc := ⟨.hbm, 180, rfl⟩
abbrev main_call3_v11 : Ref sig .tc := ⟨.hbm, 181, rfl⟩
abbrev main_call3_c_3 : Ref sig .tc := ⟨.hbm, 182, rfl⟩
abbrev main_call3_v12 : Ref sig .tc := ⟨.hbm, 183, rfl⟩
abbrev main_call3_v13 : Ref sig .tc := ⟨.hbm, 184, rfl⟩
abbrev main_call3_cst : Ref sig .tc := ⟨.hbm, 185, rfl⟩
abbrev main_call3_v14 : Ref sig .tc := ⟨.hbm, 186, rfl⟩
abbrev main_v105 : Ref sig .tc := ⟨.hbm, 187, rfl⟩
abbrev main_cst_13 : Ref sig .tc := ⟨.hbm, 188, rfl⟩
abbrev main_v106 : Ref sig .tc := ⟨.hbm, 189, rfl⟩
abbrev main_v107 : Ref sig .tc := ⟨.hbm, 190, rfl⟩
abbrev main_cst_14 : Ref sig .tc := ⟨.hbm, 191, rfl⟩
abbrev main_v108 : Ref sig .tc := ⟨.hbm, 192, rfl⟩
abbrev main_cst_15 : Ref sig .tc := ⟨.hbm, 193, rfl⟩
abbrev main_v109 : Ref sig .tc := ⟨.hbm, 194, rfl⟩
abbrev main_v110 : Ref sig .tc := ⟨.hbm, 195, rfl⟩
abbrev main_cst_16 : Ref sig .tc := ⟨.hbm, 196, rfl⟩
abbrev main_v111 : Ref sig .tc := ⟨.hbm, 197, rfl⟩
abbrev main_cst_17 : Ref sig .tc := ⟨.hbm, 198, rfl⟩
abbrev main_v112 : Ref sig .tc := ⟨.hbm, 199, rfl⟩
abbrev main_cst_18 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩

abbrev nD : Nat := 1
abbrev τ : Topo := Topo.v7x

variable {F : FTy → Type} [FloatOps F]

class Facts₀ : Prop where
  reducesTo_S4x1024x32000_S4x1024_d2 : S4x1024x32000.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x32000_0_1_2 : S4x1024x1.BroadcastsInDim S4x1024x32000 (![0, 1, 2] : Fin 3 → Fin S4x1024x32000.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1 : S_.BroadcastsInDim S1024x1 (![] : Fin 0 → Fin S1024x1.rank)
  bcast_S_S1024x1024 : S_.BroadcastsInDim S1024x1024 (![] : Fin 0 → Fin S1024x1024.rank)
  bcast_S4x1024_S4x1x1024_0_2 : S4x1024.BroadcastsInDim S4x1x1024 (![0, 2] : Fin 2 → Fin S4x1x1024.rank)
  bcast_S4x1x1024_S4x1024x1024_0_1_2 : S4x1x1024.BroadcastsInDim S4x1024x1024 (![0, 1, 2] : Fin 3 → Fin S4x1024x1024.rank)
  bcast_S_S4x1024x1024 : S_.BroadcastsInDim S4x1024x1024 (![] : Fin 0 → Fin S4x1024x1024.rank)
  shapeCasts_S4x1024x1024_S4x1024x1024x1 : S4x1024x1024.ShapeCasts S4x1024x1024x1
  bcast_S_S4x1024x1024x1 : S_.BroadcastsInDim S4x1024x1024x1 (![] : Fin 0 → Fin S4x1024x1024x1.rank)
  bcast_S1_S1x1x1x1_3 : S1.BroadcastsInDim S1x1x1x1 (![3] : Fin 1 → Fin S1x1x1x1.rank)
  bcast_S1x1x1x1_S4x1024x1024x1_0_1_2_3 : S1x1x1x1.BroadcastsInDim S4x1024x1024x1 (![0, 1, 2, 3] : Fin 4 → Fin S4x1024x1024x1.rank)
  reducesTo_S4x1024x1024x1_S4x1024x1024_d3 : S4x1024x1024x1.ReducesTo [3] S4x1024x1024
  bcast_S1024x1024_S1x1024x1024_1_2 : S1024x1024.BroadcastsInDim S1x1024x1024 (![1, 2] : Fin 2 → Fin S1x1024x1024.rank)
  bcast_S1x1024x1024_S4x1024x1024_0_1_2 : S1x1024x1024.BroadcastsInDim S4x1024x1024 (![0, 1, 2] : Fin 3 → Fin S4x1024x1024.rank)
  reducesTo_S4x1024x1024_S_d0_1_2 : S4x1024x1024.ReducesTo [0, 1, 2] S_
  slices_S4x1024_S4x1023_0_0 : S4x1024.Slices ![0, 0] S4x1023
  slices_S4x1024x32000_S4x1023x32000_0_1_0 : S4x1024x32000.Slices ![0, 1, 0] S4x1023x32000
  bcast_S4x1023_S4x1023x1_0_1 : S4x1023.BroadcastsInDim S4x1023x1 (![0, 1] : Fin 2 → Fin S4x1023x1.rank)
  bcast_S_S4x1023x1 : S_.BroadcastsInDim S4x1023x1 (![] : Fin 0 → Fin S4x1023x1.rank)
  shapeCasts_S4x1023x1_S4x1023x1x1 : S4x1023x1.ShapeCasts S4x1023x1x1
  bcast_S_S4x1023x1x1 : S_.BroadcastsInDim S4x1023x1x1 (![] : Fin 0 → Fin S4x1023x1x1.rank)
  bcast_S1x1x1x1_S4x1023x1x1_0_1_2_3 : S1x1x1x1.BroadcastsInDim S4x1023x1x1 (![0, 1, 2, 3] : Fin 4 → Fin S4x1023x1x1.rank)
  reducesTo_S4x1023x1x1_S4x1023x1_d3 : S4x1023x1x1.ReducesTo [3] S4x1023x1
  shapeCasts_S4x1023x1_S4x1023 : S4x1023x1.ShapeCasts S4x1023
  reducesTo_S4x1023_S_d0_1 : S4x1023.ReducesTo [0, 1] S_
  slices_S4x1024_S4x1022_0_0 : S4x1024.Slices ![0, 0] S4x1022
  slices_S4x1024_S4x1022_0_1 : S4x1024.Slices ![0, 1] S4x1022
  slices_S4x1024_S4x1022_0_2 : S4x1024.Slices ![0, 2] S4x1022
  bcast_S4x1022_S4x1022x1_0_1 : S4x1022.BroadcastsInDim S4x1022x1 (![0, 1] : Fin 2 → Fin S4x1022x1.rank)
  bcast_S4x1022_S4x1x1022_0_2 : S4x1022.BroadcastsInDim S4x1x1022 (![0, 2] : Fin 2 → Fin S4x1x1022.rank)
  bcast_S4x1022x1_S4x1022x1022_0_1_2 : S4x1022x1.BroadcastsInDim S4x1022x1022 (![0, 1, 2] : Fin 3 → Fin S4x1022x1022.rank)
  bcast_S4x1x1022_S4x1022x1022_0_1_2 : S4x1x1022.BroadcastsInDim S4x1022x1022 (![0, 1, 2] : Fin 3 → Fin S4x1022x1022.rank)
  bcast_S1022_S1022x1_0 : S1022.BroadcastsInDim S1022x1 (![0] : Fin 1 → Fin S1022x1.rank)
  bcast_S1022_S1x1022_1 : S1022.BroadcastsInDim S1x1022 (![1] : Fin 1 → Fin S1x1022.rank)
  bcast_S1022x1_S1022x1022_0_1 : S1022x1.BroadcastsInDim S1022x1022 (![0, 1] : Fin 2 → Fin S1022x1022.rank)
  bcast_S1x1022_S1022x1022_0_1 : S1x1022.BroadcastsInDim S1022x1022 (![0, 1] : Fin 2 → Fin S1022x1022.rank)
  bcast_S1022x1022_S1x1022x1022_1_2 : S1022x1022.BroadcastsInDim S1x1022x1022 (![1, 2] : Fin 2 → Fin S1x1022x1022.rank)
  bcast_S1x1022x1022_S4x1022x1022_0_1_2 : S1x1022x1022.BroadcastsInDim S4x1022x1022 (![0, 1, 2] : Fin 3 → Fin S4x1022x1022.rank)
  bcast_S_S4x1022x1022 : S_.BroadcastsInDim S4x1022x1022 (![] : Fin 0 → Fin S4x1022x1022.rank)
  bcast_S_S4x1022 : S_.BroadcastsInDim S4x1022 (![] : Fin 0 → Fin S4x1022.rank)
  slices_S4x1024x32000_S4x1022x32000_0_2_0 : S4x1024x32000.Slices ![0, 2, 0] S4x1022x32000
  shapeCasts_S4x1022x1022_S4x1022x1022x1 : S4x1022x1022.ShapeCasts S4x1022x1022x1
  bcast_S_S4x1022x1022x1 : S_.BroadcastsInDim S4x1022x1022x1 (![] : Fin 0 → Fin S4x1022x1022x1.rank)
  bcast_S1x1x1x1_S4x1022x1022x1_0_1_2_3 : S1x1x1x1.BroadcastsInDim S4x1022x1022x1 (![0, 1, 2, 3] : Fin 4 → Fin S4x1022x1022x1.rank)
  reducesTo_S4x1022x1022x1_S4x1022x1022_d3 : S4x1022x1022x1.ReducesTo [3] S4x1022x1022
  reducesTo_S4x1022x1022_S_d0_1_2 : S4x1022x1022.ReducesTo [0, 1, 2] S_
  bcast_S_S1 : S_.BroadcastsInDim S1 (![] : Fin 0 → Fin S1.rank)
  concatenates_S1_S1_S1_S1_S4_d0 : Shape.Concatenates [S1, S1, S1, S1] S4 0
  gather_S4x1024x32000_S4x1024x1024x1_S4x1024x1024_n_2_01_01_2_3_111_wf : GatherDims.WF S4x1024x32000 S4x1024x1024x1 S4x1024x1024 [] [2] [0, 1] [2] [0, 1] 3 ![1, 1, 1]
  gather_S4x1023x32000_S4x1023x1x1_S4x1023x1_n_2_01_01_2_3_111_wf : GatherDims.WF S4x1023x32000 S4x1023x1x1 S4x1023x1 [] [2] [0, 1] [2] [0, 1] 3 ![1, 1, 1]
  dot_S4x1022x1022_S4x1022x1022_S4x1022x1022_2_1_1_2_0_0_wf : DotDims.WF S4x1022x1022 S4x1022x1022 S4x1022x1022 [2] [1] [1] [2] [0] [0]
  gather_S4x1022x32000_S4x1022x1022x1_S4x1022x1022_n_2_01_01_2_3_111_wf : GatherDims.WF S4x1022x32000 S4x1022x1022x1 S4x1022x1022 [] [2] [0, 1] [2] [0, 1] 3 ![1, 1, 1]

variable [Facts₀]

def gather_S4x1024x32000_S4x1024x1024x1_S4x1024x1024_n_2_01_01_2_3_111 : GatherDims S4x1024x32000 S4x1024x1024x1 S4x1024x1024 where
  offsetDims := []
  collapsedSliceDims := [2]
  operandBatchingDims := [0, 1]
  startIndicesBatchingDims := [0, 1]
  startIndexMap := [2]
  indexVectorDim := 3
  sliceSizes := ![1, 1, 1]
  wf := gather_S4x1024x32000_S4x1024x1024x1_S4x1024x1024_n_2_01_01_2_3_111_wf
def gather_S4x1023x32000_S4x1023x1x1_S4x1023x1_n_2_01_01_2_3_111 : GatherDims S4x1023x32000 S4x1023x1x1 S4x1023x1 where
  offsetDims := []
  collapsedSliceDims := [2]
  operandBatchingDims := [0, 1]
  startIndicesBatchingDims := [0, 1]
  startIndexMap := [2]
  indexVectorDim := 3
  sliceSizes := ![1, 1, 1]
  wf := gather_S4x1023x32000_S4x1023x1x1_S4x1023x1_n_2_01_01_2_3_111_wf
def dot_S4x1022x1022_S4x1022x1022_S4x1022x1022_2_1_1_2_0_0 : DotDims S4x1022x1022 S4x1022x1022 S4x1022x1022 where
  lhsContracting := [2]
  rhsContracting := [1]
  lhsNonContracting := [1]
  rhsNonContracting := [2]
  lhsBatch := [0]
  rhsBatch := [0]
  wf := dot_S4x1022x1022_S4x1022x1022_S4x1022x1022_2_1_1_2_0_0_wf
def gather_S4x1022x32000_S4x1022x1022x1_S4x1022x1022_n_2_01_01_2_3_111 : GatherDims S4x1022x32000 S4x1022x1022x1 S4x1022x1022 where
  offsetDims := []
  collapsedSliceDims := [2]
  operandBatchingDims := [0, 1]
  startIndicesBatchingDims := [0, 1]
  startIndexMap := [2]
  indexVectorDim := 3
  sliceSizes := ![1, 1, 1]
  wf := gather_S4x1022x32000_S4x1022x1022x1_S4x1022x1022_n_2_01_01_2_3_111_wf

class Facts : Prop extends Facts₀ where

variable [Facts]
-- ==== Proof.K.Kit.lean ====
import proofs.«410189_j28759101014346_2_alg».proof.Proof.Gen.Kernel.Launch
import proofs.«410189_j28759101014346_2_alg».proof.Proof.Gen.Kernel.Skeleton
import proofs.«410189_j28759101014346_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- The five stretches of host operations that follow the region, in order. -/
abbrev tailOps : List (List (HloOp τ sig (Elt F))) := [hostOps1, hostOps1_1, hostOps1_2, hostOps1_3, hostOps1_4]

/-- A core's TensorCore buffer contents when the region is entered, as a valuation: the launch contents after the
    one host operation before the region (the reshape of the token ids). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
set_option maxHeartbeats 4000000 in
theorem hostOps1_4_fresh : (hostOps1_4 : List (HloOp τ sig (Elt F))).Forall fun op => op.fresh = ∅ := by
  simp only [List.Forall]; repeat' constructor

/-- An operation keeps the three windows' arrays and the token ids: it writes none of the four buffers. -/
abbrev Keeps (op : HloOp τ sig (Elt F)) : Prop :=
  Proc.devRef (τ := τ) .tc main_arg0 ∉ op.writes ∧ Proc.devRef (τ := τ) .tc main_v0 ∉ op.writes
    ∧ Proc.devRef (τ := τ) .tc main_v1 ∉ op.writes ∧ Proc.devRef (τ := τ) .tc main_arg1 ∉ op.writes

/-- Every operation after the region writes its own result buffer only, which is none of the four. -/
theorem hostOps1_keeps : (hostOps1 : List (HloOp τ sig (Elt F))).Forall Keeps := by
  simp only [List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' constructor
  all_goals exact StableHlo.devRef_ne_of_ne (by decide)
theorem hostOps1_1_keeps : (hostOps1_1 : List (HloOp τ sig (Elt F))).Forall Keeps := by
  simp only [List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' constructor
  all_goals exact StableHlo.devRef_ne_of_ne (by decide)
theorem hostOps1_2_keeps : (hostOps1_2 : List (HloOp τ sig (Elt F))).Forall Keeps := by
  simp only [List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' constructor
  all_goals exact StableHlo.devRef_ne_of_ne (by decide)
theorem hostOps1_3_keeps : (hostOps1_3 : List (HloOp τ sig (Elt F))).Forall Keeps := by
  simp only [List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' constructor
  all_goals exact StableHlo.devRef_ne_of_ne (by decide)
set_option maxHeartbeats 4000000 in
theorem hostOps1_4_keeps : (hostOps1_4 : List (HloOp τ sig (Elt F))).Forall Keeps := by
  simp only [List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' constructor
  all_goals exact StableHlo.devRef_ne_of_ne (by decide)

/-- The host program around the region: the operation before it, the region, the five stretches after it; it
    reduces to the region continued by the later stretches, at the contents after the earlier operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- Each keeps the three windows' arrays and the token ids. -/
theorem tail_keeps : ∀ ops ∈ (tailOps : List (List (HloOp τ sig (Elt F)))), ∀ op ∈ ops, Keeps op := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
/-- So they write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have hk := tail_keeps ops hops op hop
  fin_cases w
  · exact hk.1
  · exact hk.2.1
  · exact hk.2.2.1

/-- The operation before the region writes neither argument array. -/
theorem V_main_arg0 (c : Dev nD) : V m c main_arg0 = m ((c : Thread nD τ).loc main_arg0) :=
  StableHlo.after_of_forall_not_mem (b := Proc.devRef .tc main_arg0) (List.flatten [hostOps0]) (fun b => m (c, b)) (by
    intro op hop
    simp only [List.flatten_cons, List.flatten_nil, List.append_nil, hostOps0, List.mem_singleton] at hop
    subst hop
    simp only [StableHlo.reshape_writes, Finset.mem_singleton]
    exact StableHlo.devRef_ne_of_ne (by decide))
theorem V_main_arg1 (c : Dev nD) : V m c main_arg1 = m ((c : Thread nD τ).loc main_arg1) :=
  StableHlo.after_of_forall_not_mem (b := Proc.devRef .tc main_arg1) (List.flatten [hostOps0]) (fun b => m (c, b)) (by
    intro op hop
    simp only [List.flatten_cons, List.flatten_nil, List.append_nil, hostOps0, List.mem_singleton] at hop
    subst hop
    simp only [StableHlo.reshape_writes, Finset.mem_singleton]
    exact StableHlo.devRef_ne_of_ne (by decide))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's likewise: fetched at the first tile of a sequence only, its block index does not move between. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame post read at the two argument arrays: the logits are window 0's array, an input, so they end as they
    were at the region's entry; the token ids are no window's array and no later operation writes them. -/
theorem args_of_post (dats : (p : Fin 1) → (c : Dev nD) → Dat τ (Elt F) Unit ℕ (UR sig nD τ) ℕ (cfgs p) c)
    (hA : ∀ c w, (dats 0 c).A w = V m c (Pipeline.arrRef spec0 w)) {r : PUnit × MemSt nD τ sig (Elt F)}
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) := by
  refine ⟨((h c).1 0).trans (((dats 0 c).arrAt_in 0 rfl _).trans ((hA c 0).trans (V_main_arg0 m c))), ?_⟩
  refine ((h c).2 main_arg1 (Pipeline.mem_restRefs_of main_arg1 rfl (by decide))).trans ?_
  unfold Pipeline.afterTail₀
  rw [StableHlo.after_of_forall_not_mem _ _ fun op hop => ?_, Pipeline.withArrays_of_ne _ c _ _ main_arg1 (by decide)]
  · exact V_main_arg1 m c
  · obtain ⟨ops, hops, hop⟩ := List.mem_flatten.mp hop
    exact (tail_keeps ops hops op hop).2.2.2

/-- The frame post read at the result buffer, which is no window's array: what the later operations leave there. -/
theorem result_of_post (dats : (p : Fin 1) → (c : Dev nD) → Dat τ (Elt F) Unit ℕ (UR sig nD τ) ℕ (cfgs p) c)
    (hA : ∀ c w, (dats 0 c).A w = V m c (Pipeline.arrRef spec0 w)) {r : PUnit × MemSt nD τ sig (Elt F)}
    (h : Pipeline.FramePost cfgs dats 0 (Pipeline.afterTail₀ cfgs dats 0 (V0 m) tailOps) r) (c : Dev nD) :
    r.2.mem ((c.tc : Thread nD τ).loc main_v106) = Pipeline.afterTail₀ cfgs dats 0 (V0 m) tailOps c main_v106 :=
  (h c).2 main_v106 (Pipeline.mem_restRefs_of main_v106 rfl (by decide))

/-- For any proof data whose arrays are the region-entry contents, a run to the frame post read at the two argument
    arrays is the frame claim's post: the logits are window 0's array, an input; the token ids are no window's array
    and no later operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => args_of_post m dats hA h c) h

/-! ## The body's branch conditions -/

/-- The condition of the body's first branch (the first tile of a sequence), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 50). -/
theorem hcond0_0 : ∀ t : Fin cfg0.N, cond0_0 (grid0.coords t) ↔ t.val % 50 = 0 :=
  (by decide +kernel : ∀ t : Fin grid0.N, cond0_0 (grid0.coords t) ↔ t.val % 50 = 0)

/-- The condition of the body's second branch (the last tile of a sequence), from the grid coordinates. -/
abbrev cond0_1 (i : grid0.Coords) : Prop := k0_cond2 i = 1#1
/-- It holds at the points ≡ 49 (mod 50). -/
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

/-- Windows 0 and 1 are never idle (inputs). -/
theorem liveAt0_0 : ∀ t : Fin cfg0.N, cfg0.idle 0 (grid0.coords t) = false := by decide +kernel
theorem liveAt0_1 : ∀ t : Fin cfg0.N, cfg0.idle 1 (grid0.coords t) = false := by decide +kernel
/-- At a first tile the output window is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a middle tile likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a last tile the output window is live. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of the output window, through which its contents are stated. -/
abbrev VO0_2 : View sig .tc .vmem S1x1024x1024 .f32 := (Memref.whole cc0_stg2_0 : Memref sig .tc .vmem S1x1024x1024 .f32).view
/-- Each window's current staging memref at point t, and its wholeness. -/
abbrev ms0_0 (t : Fin cfg0.N) : Memref sig .tc .vmem S1x1024x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
/-- The scratch operands: the running maximum, the denominator, the numerators. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1024 .f32 := Memref.whole cc0_scratch2
/-- The scratch operands as views: what each holds is stated through its view. -/
abbrev VS0_0 : View sig .tc .vmem S1024x1 .f32 := scM0_0.view
abbrev VS0_1 : View sig .tc .vmem S1024x1 .f32 := scM0_1.view
abbrev VS0_2 : View sig .tc .vmem S1024x1024 .f32 := scM0_2.view

/-- The region invariant with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.K.RunA.lean ====
import proofs.«410189_j28759101014346_2_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each buffer (last first) AT A FIRST TILE (the first branch taken, the second
    not), with the proof that on whole memrefs — the two inputs' at their contents, the idle output's at contents handed
    back untouched, each scratch at any contents — the body runs to the continuation holding the inputs and the output
    as they were and each scratch with its pieces written. -/
noncomputable def kernelRun0_A (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) :
    Σ' (L2 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi2 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__gather_softmax_kernel i arg2 harg2 arg3 harg3 arg4 harg4 arg5 harg5 arg6 harg6 arg7 harg7) K } := by
  refine ⟨[], ?_, ?_, ?_, fun xi2 E K => ?run⟩
  case run =>
    simp only [cc0__gather_softmax_kernel_eq_skeleton]; unfold cc0__gather_softmax_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Hand

end
-- ==== Proof.K.RunB.lean ====
import proofs.«410189_j28759101014346_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each buffer (last first) AT A MIDDLE TILE (neither branch taken), with the
    proof that on whole memrefs — the two inputs' at their contents, the idle output's at contents handed back
    untouched, each scratch at the contents the point before left — the body runs to the continuation holding the
    inputs and the output as they were and each scratch with its pieces written. -/
noncomputable def kernelRun0_B (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) :
    Σ' (L2 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi2 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__gather_softmax_kernel i arg2 harg2 arg3 harg3 arg4 harg4 arg5 harg5 arg6 harg6 arg7 harg7) K } := by
  refine ⟨[], ?_, ?_, ?_, fun xi2 E K => ?run⟩
  case run =>
    simp only [cc0__gather_softmax_kernel_eq_skeleton]; unfold cc0__gather_softmax_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Hand

end
-- ==== Proof.K.RunC.lean ====
import proofs.«410189_j28759101014346_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each buffer (last first) AT A LAST TILE (the first branch not taken, the
    second taken), with the proof that on whole memrefs — the two inputs' at their contents, the output's at any
    contents, each scratch at the contents the point before left — the body runs to the continuation holding the inputs
    as they were and the output and each scratch with its pieces written. -/
noncomputable def kernelRun0_C (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) :
    Σ' (L2 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__gather_softmax_kernel i arg2 harg2 arg3 harg3 arg4 harg4 arg5 harg5 arg6 harg6 arg7 harg7) K } := by
  refine ⟨?_, ?_, ?_, ?_, fun E K => ?run⟩
  case run =>
    simp only [cc0__gather_softmax_kernel_eq_skeleton]; unfold cc0__gather_softmax_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.Kernel.Hand

end
-- ==== Proof.K.Frame.lean ====
import proofs.«410189_j28759101014346_2_alg».proof.Proof.K.RunC

set_option maxRecDepth 16384

/-! # The frame certificate of the gather-softmax kernel

Per control case what each buffer ends with (the output block at a last tile; the running maximum, the denominator and
the numerators at every tile), what they hold point by point (`outsAt0`), the region invariant carrying the three
scratch buffers between points (`PhiS`), the pipeline's proof data (`dats`), the body obligation by cases on the tile's
position in its sequence, the run of the host program around the region, and the frame: both argument arrays end as they
began. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A (first tile of a sequence) stores nothing into output 2 (the window is idle at its points and not written back there):
    no pieces — a placeholder (junk read back) that nothing consults. -/
def out0_A_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) : Vec F S1x1024x1024 .f32 :=
  VO0_2.read (Elt F) (VO0_2.writes (Elt F) VO0_2.junk (kernelRun0_A c i arg2 harg2 arg3 harg3 arg4 harg4 arg5 harg5 arg6 harg6 arg7 harg7 hc0 hc1 x0 x1).1)

/-- Case A's pieces for scratch 0 (the running maximum), carried between points, cover it (whole-buffer stores). -/
theorem scover0_A_0 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) (y : S1024x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1024x1.size (by sl_kernel_rfl) y

/-- What case A leaves in scratch 0 (the running maximum): its pieces read back over junk. -/
def sout0_A_0 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1).2.1)

/-- Case A's pieces for scratch 1 (the denominator), carried between points, cover it (whole-buffer stores). -/
theorem scover0_A_1 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) (y : S1024x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S1024x1.size (by sl_kernel_rfl) y

/-- What case A leaves in scratch 1 (the denominator): its pieces read back over junk. -/
def sout0_A_1 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1).2.2.1)

/-- Case A's pieces for scratch 2 (the numerators), carried between points, cover it (whole-buffer stores). -/
theorem scover0_A_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) (y : S1024x1024.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S1024x1024.size (by sl_kernel_rfl) y

/-- What case A leaves in scratch 2 (the numerators): its pieces read back over junk. -/
def sout0_A_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) : Vec F S1024x1024 .f32 :=
  VS0_2.read (Elt F) (VS0_2.writes (Elt F) VS0_2.junk (kernelRun0_A c i arg2 harg2 arg3 harg3 arg4 harg4 arg5 harg5 arg6 harg6 arg7 harg7 hc0 hc1 x0 x1).2.2.2.1)

/-- Case B (middle tile) stores nothing into output 2 (the window is idle at its points and not written back there):
    no pieces — a placeholder (junk read back) that nothing consults. -/
def out0_B_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) : Vec F S1x1024x1024 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1 xs2).1)

/-- Case B's pieces for scratch 0 (the running maximum), carried between points, cover it (whole-buffer stores). -/
theorem scover0_B_0 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) (y : S1024x1.Idx) :
    ∃ pc ∈ (kernelRun0_B c i arg2 harg2 arg3 harg3 arg4 harg4 arg5 harg5 arg6 harg6 arg7 harg7 hc0 hc1 x0 x1 xs0 xs1 xs2).2.1, y ∈ pc.1.set :=
  View.cover_of_tiledL (kernelRun0_B c i arg2 harg2 arg3 harg3 arg4 harg4 arg5 harg5 arg6 harg6 arg7 harg7 hc0 hc1 x0 x1 xs0 xs1 xs2).2.1 S1024x1.size (by sl_kernel_rfl) y

/-- What case B leaves in scratch 0 (the running maximum): its pieces read back over junk. -/
def sout0_B_0 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1 xs2).2.1)

/-- Case B's pieces for scratch 1 (the denominator), carried between points, cover it (whole-buffer stores). -/
theorem scover0_B_1 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) (y : S1024x1.Idx) :
    ∃ pc ∈ (kernelRun0_B c i arg2 harg2 arg3 harg3 arg4 harg4 arg5 harg5 arg6 harg6 arg7 harg7 hc0 hc1 x0 x1 xs0 xs1 xs2).2.2.1, y ∈ pc.1.set :=
  View.cover_of_tiledL (kernelRun0_B c i arg2 harg2 arg3 harg3 arg4 harg4 arg5 harg5 arg6 harg6 arg7 harg7 hc0 hc1 x0 x1 xs0 xs1 xs2).2.2.1 S1024x1.size (by sl_kernel_rfl) y

/-- What case B leaves in scratch 1 (the denominator): its pieces read back over junk. -/
def sout0_B_1 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1 xs2).2.2.1)

/-- Case B's pieces for scratch 2 (the numerators), carried between points, cover it (whole-buffer stores). -/
theorem scover0_B_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) (y : S1024x1024.Idx) :
    ∃ pc ∈ (kernelRun0_B c i arg2 harg2 arg3 harg3 arg4 harg4 arg5 harg5 arg6 harg6 arg7 harg7 hc0 hc1 x0 x1 xs0 xs1 xs2).2.2.2.1, y ∈ pc.1.set :=
  View.cover_of_tiledL (kernelRun0_B c i arg2 harg2 arg3 harg3 arg4 harg4 arg5 harg5 arg6 harg6 arg7 harg7 hc0 hc1 x0 x1 xs0 xs1 xs2).2.2.2.1 S1024x1024.size (by sl_kernel_rfl) y

/-- What case B leaves in scratch 2 (the numerators): its pieces read back over junk. -/
def sout0_B_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) : Vec F S1024x1024 .f32 :=
  VS0_2.read (Elt F) (VS0_2.writes (Elt F) VS0_2.junk (kernelRun0_B c i arg2 harg2 arg3 harg3 arg4 harg4 arg5 harg5 arg6 harg6 arg7 harg7 hc0 hc1 x0 x1 xs0 xs1 xs2).2.2.2.1)

/-- Case C's pieces for output 2 tile its block (one store of the whole block), so they cover it. -/
theorem cover0_C_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) (y : S1x1024x1024.Idx) :
    ∃ pc ∈ (kernelRun0_C c i arg2 harg2 arg3 harg3 arg4 harg4 arg5 harg5 arg6 harg6 arg7 harg7 hc0 hc1 x0 x1 xs0 xs1 xs2).1, y ∈ pc.1.set :=
  View.cover_of_tiledL (kernelRun0_C c i arg2 harg2 arg3 harg3 arg4 harg4 arg5 harg5 arg6 harg6 arg7 harg7 hc0 hc1 x0 x1 xs0 xs1 xs2).1 S1x1024x1024.size (by sl_kernel_rfl) y

/-- What case C leaves in output 2's staging buffer: its pieces read back over junk. -/
def out0_C_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) : Vec F S1x1024x1024 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1 xs2).1)

/-- Case C's pieces for scratch 0 (the running maximum), carried between points, cover it (whole-buffer stores). -/
theorem scover0_C_0 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) (y : S1024x1.Idx) :
    ∃ pc ∈ (kernelRun0_C c i arg2 harg2 arg3 harg3 arg4 harg4 arg5 harg5 arg6 harg6 arg7 harg7 hc0 hc1 x0 x1 xs0 xs1 xs2).2.1, y ∈ pc.1.set :=
  View.cover_of_tiledL (kernelRun0_C c i arg2 harg2 arg3 harg3 arg4 harg4 arg5 harg5 arg6 harg6 arg7 harg7 hc0 hc1 x0 x1 xs0 xs1 xs2).2.1 S1024x1.size (by sl_kernel_rfl) y

/-- What case C leaves in scratch 0 (the running maximum): its pieces read back over junk. -/
def sout0_C_0 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1 xs2).2.1)

/-- Case C's pieces for scratch 1 (the denominator), carried between points, cover it (whole-buffer stores). -/
theorem scover0_C_1 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) (y : S1024x1.Idx) :
    ∃ pc ∈ (kernelRun0_C c i arg2 harg2 arg3 harg3 arg4 harg4 arg5 harg5 arg6 harg6 arg7 harg7 hc0 hc1 x0 x1 xs0 xs1 xs2).2.2.1, y ∈ pc.1.set :=
  View.cover_of_tiledL (kernelRun0_C c i arg2 harg2 arg3 harg3 arg4 harg4 arg5 harg5 arg6 harg6 arg7 harg7 hc0 hc1 x0 x1 xs0 xs1 xs2).2.2.1 S1024x1.size (by sl_kernel_rfl) y

/-- What case C leaves in scratch 1 (the denominator): its pieces read back over junk. -/
def sout0_C_1 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1 xs2).2.2.1)

/-- Case C's pieces for scratch 2 (the numerators), carried between points, cover it (whole-buffer stores). -/
theorem scover0_C_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) (y : S1024x1024.Idx) :
    ∃ pc ∈ (kernelRun0_C c i arg2 harg2 arg3 harg3 arg4 harg4 arg5 harg5 arg6 harg6 arg7 harg7 hc0 hc1 x0 x1 xs0 xs1 xs2).2.2.2.1, y ∈ pc.1.set :=
  View.cover_of_tiledL (kernelRun0_C c i arg2 harg2 arg3 harg3 arg4 harg4 arg5 harg5 arg6 harg6 arg7 harg7 hc0 hc1 x0 x1 xs0 xs1 xs2).2.2.2.1 S1024x1024.size (by sl_kernel_rfl) y

/-- What case C leaves in scratch 2 (the numerators): its pieces read back over junk. -/
def sout0_C_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) : Vec F S1024x1024 .f32 :=
  VS0_2.read (Elt F) (VS0_2.writes (Elt F) VS0_2.junk (kernelRun0_C c i arg2 harg2 arg3 harg3 arg4 harg4 arg5 harg5 arg6 harg6 arg7 harg7 hc0 hc1 x0 x1 xs0 xs1 xs2).2.2.2.1)

/-! ## What the output and the scratch hold after each point -/

/-- THE ACCUMULATION. What output 2's staging buffer and the three scratch buffers the kernel carries between points hold
    after the body at position `n` (a tuple: the output, then scratch 0, 1, 2): the case the closed forms select at `n`,
    run at the point's memrefs and input blocks, each scratch at what this leaves at `n - 1`. The assignment of the
    conditions that no point meets is no case. -/
def outsAt0 (c : Dev nD) : (n : ℕ) → n < cfg0.N → Vec F S1x1024x1024 .f32 × Vec F S1024x1 .f32 × Vec F S1024x1 .f32 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 50 = 0 then
      if h1 : (n + 1) % 50 = 49 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 50 = 49 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 50 = 0) (h1 : ¬t.val % 50 = 49) :
    outsAt0 m c t.val t.isLt = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 50 = 0) (h1 : ¬t.val % 50 = 49) :
    outsAt0 m c t.val t.isLt = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 50 = 0) (h1 : t.val % 50 = 49) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards
    the three scratch buffers at what the point before left in them (`outsAt0`'s scratch components) and the generator
    register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outsAt0`'s first component; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: both inputs' memrefs hold their blocks; the closed forms say which case the point is in; the
    run of that case applies; the invariant hands the body the three scratch buffers at what the point before left (at
    anything at the first point) and takes them back at this point's contents (each covered by the case's stores); the output
    window is handed back untouched where it is idle and at the case's store at the last tile; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 200 := lt_of_lt_of_eq t.isLt (show cfg0.N = 200 from N_0)
  by_cases h0 : t.val % 50 = 0
  · by_cases h1 : t.val % 50 = 49
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0 sout0_A_1 sout0_A_2; (try dsimp only)
      by_cases hz : t.val = 0
      ·   rw [PhiS_castSucc m c t, PhiS_zero m c _ _ hz, PhiA0_eq]
          iintro ⟨⟨⟨HS0, HS1, HS2⟩, Hg⟩, Ho, ⟨%d0, H0⟩, ⟨%d1, H1⟩, ⟨%d2, H2⟩⟩
          iapply ((kernelRun0_A c (grid0.coords t) _ _ _ _ _ _ _ _ _ _ _ _ ((hcond0_0 t).mpr h0) (fun h => h1 ((hcond0_1 t).mp h)) (iblk m c 0 t) (iblk m c 1 t)).2.2.2.2 _ Set.univ _)
          isplitl [H0]; · iexact H0
          isplitl [H1]; · iexact H1
          isplitl [H2]; · iexact H2
          isplitl [HS0]; · iexact HS0
          isplitl [HS1]; · iexact HS1
          isplitl [HS2]; · iexact HS2
          iintro ⟨H0, H1, H2, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _)
            iexact Hg
          isplitl [Ho]; · iexact Ho
          isplitl [H0]; · iexact H0
          isplitl [H1]; · iexact H1
          iexists _; iexact H2
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk m c 0 t) (iblk m c 1 t)).2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _)
          iexact Hg
        isplitl [Ho]; · iexact Ho
        isplitl [H0]; · iexact H0
        isplitl [H1]; · iexact H1
        iexists _; iexact H2
  · by_cases h1 : t.val % 50 = 49
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2_C t (fun h => h0 ((hcond0_0 t).mp h)) ((hcond0_1 t).mpr h1)], after0_2]
      rw [outsAt0_C m c t h0 h1]
      unfold out0_C_2 sout0_C_0 sout0_C_1 sout0_C_2; (try dsimp only)
      by_cases hz : t.val = 0
      ·   exfalso; omega
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_C c (grid0.coords t) _ _ _ _ _ _ _ _ _ _ _ _ (fun h => h0 ((hcond0_0 t).mp h)) ((hcond0_1 t).mpr h1) (iblk m c 0 t) (iblk m c 1 t) _ _ _).2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        iintro ⟨H0, H1, ⟨%e2, H2⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0 sout0_B_1 sout0_B_2; (try dsimp only)
      by_cases hz : t.val = 0
      ·   exfalso; omega
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) _ _ _).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 200 := N_0; omega)

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: both argument arrays hold at the end what they held at the start. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Kit.lean ====
import proofs.«410189_j28759101014346_2_alg».proof.Proof.Gen.KernelIdeal.Launch
import proofs.«410189_j28759101014346_2_alg».proof.Proof.Gen.KernelIdeal.Skeleton
import proofs.«410189_j28759101014346_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- The five stretches of host operations that follow the region, in order. -/
abbrev tailOps : List (List (HloOp τ sig (Elt F))) := [hostOps1, hostOps1_1, hostOps1_2, hostOps1_3, hostOps1_4]

/-- A core's TensorCore buffer contents when the region is entered, as a valuation: the launch contents after the
    one host operation before the region (the reshape of the token ids). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
set_option maxHeartbeats 4000000 in
theorem hostOps1_4_fresh : (hostOps1_4 : List (HloOp τ sig (Elt F))).Forall fun op => op.fresh = ∅ := by
  simp only [List.Forall]; repeat' constructor

/-- An operation keeps the three windows' arrays and the token ids: it writes none of the four buffers. -/
abbrev Keeps (op : HloOp τ sig (Elt F)) : Prop :=
  Proc.devRef (τ := τ) .tc main_arg0 ∉ op.writes ∧ Proc.devRef (τ := τ) .tc main_v0 ∉ op.writes
    ∧ Proc.devRef (τ := τ) .tc main_v1 ∉ op.writes ∧ Proc.devRef (τ := τ) .tc main_arg1 ∉ op.writes

/-- Every operation after the region writes its own result buffer only, which is none of the four. -/
theorem hostOps1_keeps : (hostOps1 : List (HloOp τ sig (Elt F))).Forall Keeps := by
  simp only [List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' constructor
  all_goals exact StableHlo.devRef_ne_of_ne (by decide)
theorem hostOps1_1_keeps : (hostOps1_1 : List (HloOp τ sig (Elt F))).Forall Keeps := by
  simp only [List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' constructor
  all_goals exact StableHlo.devRef_ne_of_ne (by decide)
theorem hostOps1_2_keeps : (hostOps1_2 : List (HloOp τ sig (Elt F))).Forall Keeps := by
  simp only [List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' constructor
  all_goals exact StableHlo.devRef_ne_of_ne (by decide)
theorem hostOps1_3_keeps : (hostOps1_3 : List (HloOp τ sig (Elt F))).Forall Keeps := by
  simp only [List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' constructor
  all_goals exact StableHlo.devRef_ne_of_ne (by decide)
set_option maxHeartbeats 4000000 in
theorem hostOps1_4_keeps : (hostOps1_4 : List (HloOp τ sig (Elt F))).Forall Keeps := by
  simp only [List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' constructor
  all_goals exact StableHlo.devRef_ne_of_ne (by decide)

/-- The host program around the region: the operation before it, the region, the five stretches after it; it
    reduces to the region continued by the later stretches, at the contents after the earlier operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- Each keeps the three windows' arrays and the token ids. -/
theorem tail_keeps : ∀ ops ∈ (tailOps : List (List (HloOp τ sig (Elt F)))), ∀ op ∈ ops, Keeps op := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
/-- So they write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have hk := tail_keeps ops hops op hop
  fin_cases w
  · exact hk.1
  · exact hk.2.1
  · exact hk.2.2.1

/-- The operation before the region writes neither argument array. -/
theorem V_main_arg0 (c : Dev nD) : V m c main_arg0 = m ((c : Thread nD τ).loc main_arg0) :=
  StableHlo.after_of_forall_not_mem (b := Proc.devRef .tc main_arg0) (List.flatten [hostOps0]) (fun b => m (c, b)) (by
    intro op hop
    simp only [List.flatten_cons, List.flatten_nil, List.append_nil, hostOps0, List.mem_singleton] at hop
    subst hop
    simp only [StableHlo.reshape_writes, Finset.mem_singleton]
    exact StableHlo.devRef_ne_of_ne (by decide))
theorem V_main_arg1 (c : Dev nD) : V m c main_arg1 = m ((c : Thread nD τ).loc main_arg1) :=
  StableHlo.after_of_forall_not_mem (b := Proc.devRef .tc main_arg1) (List.flatten [hostOps0]) (fun b => m (c, b)) (by
    intro op hop
    simp only [List.flatten_cons, List.flatten_nil, List.append_nil, hostOps0, List.mem_singleton] at hop
    subst hop
    simp only [StableHlo.reshape_writes, Finset.mem_singleton]
    exact StableHlo.devRef_ne_of_ne (by decide))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's likewise: fetched at the first tile of a sequence only, its block index does not move between. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame post read at the two argument arrays: the logits are window 0's array, an input, so they end as they
    were at the region's entry; the token ids are no window's array and no later operation writes them. -/
theorem args_of_post (dats : (p : Fin 1) → (c : Dev nD) → Dat τ (Elt F) Unit ℕ (UR sig nD τ) ℕ (cfgs p) c)
    (hA : ∀ c w, (dats 0 c).A w = V m c (Pipeline.arrRef spec0 w)) {r : PUnit × MemSt nD τ sig (Elt F)}
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) := by
  refine ⟨((h c).1 0).trans (((dats 0 c).arrAt_in 0 rfl _).trans ((hA c 0).trans (V_main_arg0 m c))), ?_⟩
  refine ((h c).2 main_arg1 (Pipeline.mem_restRefs_of main_arg1 rfl (by decide))).trans ?_
  unfold Pipeline.afterTail₀
  rw [StableHlo.after_of_forall_not_mem _ _ fun op hop => ?_, Pipeline.withArrays_of_ne _ c _ _ main_arg1 (by decide)]
  · exact V_main_arg1 m c
  · obtain ⟨ops, hops, hop⟩ := List.mem_flatten.mp hop
    exact (tail_keeps ops hops op hop).2.2.2

/-- The frame post read at the result buffer, which is no window's array: what the later operations leave there. -/
theorem result_of_post (dats : (p : Fin 1) → (c : Dev nD) → Dat τ (Elt F) Unit ℕ (UR sig nD τ) ℕ (cfgs p) c)
    (hA : ∀ c w, (dats 0 c).A w = V m c (Pipeline.arrRef spec0 w)) {r : PUnit × MemSt nD τ sig (Elt F)}
    (h : Pipeline.FramePost cfgs dats 0 (Pipeline.afterTail₀ cfgs dats 0 (V0 m) tailOps) r) (c : Dev nD) :
    r.2.mem ((c.tc : Thread nD τ).loc main_v106) = Pipeline.afterTail₀ cfgs dats 0 (V0 m) tailOps c main_v106 :=
  (h c).2 main_v106 (Pipeline.mem_restRefs_of main_v106 rfl (by decide))

/-- For any proof data whose arrays are the region-entry contents, a run to the frame post read at the two argument
    arrays is the frame claim's post: the logits are window 0's array, an input; the token ids are no window's array
    and no later operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => args_of_post m dats hA h c) h

/-! ## The body's branch conditions -/

/-- The condition of the body's first branch (the first tile of a sequence), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 50). -/
theorem hcond0_0 : ∀ t : Fin cfg0.N, cond0_0 (grid0.coords t) ↔ t.val % 50 = 0 :=
  (by decide +kernel : ∀ t : Fin grid0.N, cond0_0 (grid0.coords t) ↔ t.val % 50 = 0)

/-- The condition of the body's second branch (the last tile of a sequence), from the grid coordinates. -/
abbrev cond0_1 (i : grid0.Coords) : Prop := k0_cond2 i = 1#1
/-- It holds at the points ≡ 49 (mod 50). -/
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

/-- Windows 0 and 1 are never idle (inputs). -/
theorem liveAt0_0 : ∀ t : Fin cfg0.N, cfg0.idle 0 (grid0.coords t) = false := by decide +kernel
theorem liveAt0_1 : ∀ t : Fin cfg0.N, cfg0.idle 1 (grid0.coords t) = false := by decide +kernel
/-- At a first tile the output window is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a middle tile likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a last tile the output window is live. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of the output window, through which its contents are stated. -/
abbrev VO0_2 : View sig .tc .vmem S1x1024x1024 .f32 := (Memref.whole cc0_stg2_0 : Memref sig .tc .vmem S1x1024x1024 .f32).view
/-- Each window's current staging memref at point t, and its wholeness. -/
abbrev ms0_0 (t : Fin cfg0.N) : Memref sig .tc .vmem S1x1024x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
/-- The scratch operands: the running maximum, the denominator, the numerators. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1024 .f32 := Memref.whole cc0_scratch2
/-- The scratch operands as views: what each holds is stated through its view. -/
abbrev VS0_0 : View sig .tc .vmem S1024x1 .f32 := scM0_0.view
abbrev VS0_1 : View sig .tc .vmem S1024x1 .f32 := scM0_1.view
abbrev VS0_2 : View sig .tc .vmem S1024x1024 .f32 := scM0_2.view

/-- The region invariant with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KI.RunA.lean ====
import proofs.«410189_j28759101014346_2_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each buffer (last first) AT A FIRST TILE (the first branch taken, the second
    not), with the proof that on whole memrefs — the two inputs' at their contents, the idle output's at contents handed
    back untouched, each scratch at any contents — the body runs to the continuation holding the inputs and the output
    as they were and each scratch with its pieces written. -/
noncomputable def kernelRun0_A (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) :
    Σ' (L2 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi2 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__gather_softmax_kernel i arg2 harg2 arg3 harg3 arg4 harg4 arg5 harg5 arg6 harg6 arg7 harg7) K } := by
  refine ⟨[], ?_, ?_, ?_, fun xi2 E K => ?run⟩
  case run =>
    simp only [cc0__gather_softmax_kernel_eq_skeleton]; unfold cc0__gather_softmax_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.KI.RunB.lean ====
import proofs.«410189_j28759101014346_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each buffer (last first) AT A MIDDLE TILE (neither branch taken), with the
    proof that on whole memrefs — the two inputs' at their contents, the idle output's at contents handed back
    untouched, each scratch at the contents the point before left — the body runs to the continuation holding the
    inputs and the output as they were and each scratch with its pieces written. -/
noncomputable def kernelRun0_B (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) :
    Σ' (L2 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi2 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__gather_softmax_kernel i arg2 harg2 arg3 harg3 arg4 harg4 arg5 harg5 arg6 harg6 arg7 harg7) K } := by
  refine ⟨[], ?_, ?_, ?_, fun xi2 E K => ?run⟩
  case run =>
    simp only [cc0__gather_softmax_kernel_eq_skeleton]; unfold cc0__gather_softmax_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.KI.RunC.lean ====
import proofs.«410189_j28759101014346_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each buffer (last first) AT A LAST TILE (the first branch not taken, the
    second taken), with the proof that on whole memrefs — the two inputs' at their contents, the output's at any
    contents, each scratch at the contents the point before left — the body runs to the continuation holding the inputs
    as they were and the output and each scratch with its pieces written. -/
noncomputable def kernelRun0_C (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) :
    Σ' (L2 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__gather_softmax_kernel i arg2 harg2 arg3 harg3 arg4 harg4 arg5 harg5 arg6 harg6 arg7 harg7) K } := by
  refine ⟨?_, ?_, ?_, ?_, fun E K => ?run⟩
  case run =>
    simp only [cc0__gather_softmax_kernel_eq_skeleton]; unfold cc0__gather_softmax_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.KI.Frame.lean ====
import proofs.«410189_j28759101014346_2_alg».proof.Proof.KI.RunC

set_option maxRecDepth 16384

/-! # The frame certificate of the gather-softmax kernel

Per control case what each buffer ends with (the output block at a last tile; the running maximum, the denominator and
the numerators at every tile), what they hold point by point (`outsAt0`), the region invariant carrying the three
scratch buffers between points (`PhiS`), the pipeline's proof data (`dats`), the body obligation by cases on the tile's
position in its sequence, the run of the host program around the region, and the frame: both argument arrays end as they
began. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A (first tile of a sequence) stores nothing into output 2 (the window is idle at its points and not written back there):
    no pieces — a placeholder (junk read back) that nothing consults. -/
def out0_A_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) : Vec F S1x1024x1024 .f32 :=
  VO0_2.read (Elt F) (VO0_2.writes (Elt F) VO0_2.junk (kernelRun0_A c i arg2 harg2 arg3 harg3 arg4 harg4 arg5 harg5 arg6 harg6 arg7 harg7 hc0 hc1 x0 x1).1)

/-- Case A's pieces for scratch 0 (the running maximum), carried between points, cover it (whole-buffer stores). -/
theorem scover0_A_0 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) (y : S1024x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1024x1.size (by sl_kernel_rfl) y

/-- What case A leaves in scratch 0 (the running maximum): its pieces read back over junk. -/
def sout0_A_0 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1).2.1)

/-- Case A's pieces for scratch 1 (the denominator), carried between points, cover it (whole-buffer stores). -/
theorem scover0_A_1 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) (y : S1024x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S1024x1.size (by sl_kernel_rfl) y

/-- What case A leaves in scratch 1 (the denominator): its pieces read back over junk. -/
def sout0_A_1 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1).2.2.1)

/-- Case A's pieces for scratch 2 (the numerators), carried between points, cover it (whole-buffer stores). -/
theorem scover0_A_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) (y : S1024x1024.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S1024x1024.size (by sl_kernel_rfl) y

/-- What case A leaves in scratch 2 (the numerators): its pieces read back over junk. -/
def sout0_A_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : cond0_0 i) (hc1 : ¬cond0_1 i)
    (x0 : Vec F S1x1024x640 .f32) (x1 : Vec F S1x1x1024 .i32) : Vec F S1024x1024 .f32 :=
  VS0_2.read (Elt F) (VS0_2.writes (Elt F) VS0_2.junk (kernelRun0_A c i arg2 harg2 arg3 harg3 arg4 harg4 arg5 harg5 arg6 harg6 arg7 harg7 hc0 hc1 x0 x1).2.2.2.1)

/-- Case B (middle tile) stores nothing into output 2 (the window is idle at its points and not written back there):
    no pieces — a placeholder (junk read back) that nothing consults. -/
def out0_B_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) : Vec F S1x1024x1024 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1 xs2).1)

/-- Case B's pieces for scratch 0 (the running maximum), carried between points, cover it (whole-buffer stores). -/
theorem scover0_B_0 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) (y : S1024x1.Idx) :
    ∃ pc ∈ (kernelRun0_B c i arg2 harg2 arg3 harg3 arg4 harg4 arg5 harg5 arg6 harg6 arg7 harg7 hc0 hc1 x0 x1 xs0 xs1 xs2).2.1, y ∈ pc.1.set :=
  View.cover_of_tiledL (kernelRun0_B c i arg2 harg2 arg3 harg3 arg4 harg4 arg5 harg5 arg6 harg6 arg7 harg7 hc0 hc1 x0 x1 xs0 xs1 xs2).2.1 S1024x1.size (by sl_kernel_rfl) y

/-- What case B leaves in scratch 0 (the running maximum): its pieces read back over junk. -/
def sout0_B_0 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1 xs2).2.1)

/-- Case B's pieces for scratch 1 (the denominator), carried between points, cover it (whole-buffer stores). -/
theorem scover0_B_1 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) (y : S1024x1.Idx) :
    ∃ pc ∈ (kernelRun0_B c i arg2 harg2 arg3 harg3 arg4 harg4 arg5 harg5 arg6 harg6 arg7 harg7 hc0 hc1 x0 x1 xs0 xs1 xs2).2.2.1, y ∈ pc.1.set :=
  View.cover_of_tiledL (kernelRun0_B c i arg2 harg2 arg3 harg3 arg4 harg4 arg5 harg5 arg6 harg6 arg7 harg7 hc0 hc1 x0 x1 xs0 xs1 xs2).2.2.1 S1024x1.size (by sl_kernel_rfl) y

/-- What case B leaves in scratch 1 (the denominator): its pieces read back over junk. -/
def sout0_B_1 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1 xs2).2.2.1)

/-- Case B's pieces for scratch 2 (the numerators), carried between points, cover it (whole-buffer stores). -/
theorem scover0_B_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) (y : S1024x1024.Idx) :
    ∃ pc ∈ (kernelRun0_B c i arg2 harg2 arg3 harg3 arg4 harg4 arg5 harg5 arg6 harg6 arg7 harg7 hc0 hc1 x0 x1 xs0 xs1 xs2).2.2.2.1, y ∈ pc.1.set :=
  View.cover_of_tiledL (kernelRun0_B c i arg2 harg2 arg3 harg3 arg4 harg4 arg5 harg5 arg6 harg6 arg7 harg7 hc0 hc1 x0 x1 xs0 xs1 xs2).2.2.2.1 S1024x1024.size (by sl_kernel_rfl) y

/-- What case B leaves in scratch 2 (the numerators): its pieces read back over junk. -/
def sout0_B_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : ¬cond0_1 i)
    (x0 : Vec F S1x1024x640 .f32) (x1 : Vec F S1x1x1024 .i32) (xs0 : Vec F S1024x1 .f32) (xs1 : Vec F S1024x1 .f32) (xs2 : Vec F S1024x1024 .f32) : Vec F S1024x1024 .f32 :=
  VS0_2.read (Elt F) (VS0_2.writes (Elt F) VS0_2.junk (kernelRun0_B c i arg2 harg2 arg3 harg3 arg4 harg4 arg5 harg5 arg6 harg6 arg7 harg7 hc0 hc1 x0 x1 xs0 xs1 xs2).2.2.2.1)

/-- Case C's pieces for output 2 tile its block (one store of the whole block), so they cover it. -/
theorem cover0_C_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) (y : S1x1024x1024.Idx) :
    ∃ pc ∈ (kernelRun0_C c i arg2 harg2 arg3 harg3 arg4 harg4 arg5 harg5 arg6 harg6 arg7 harg7 hc0 hc1 x0 x1 xs0 xs1 xs2).1, y ∈ pc.1.set :=
  View.cover_of_tiledL (kernelRun0_C c i arg2 harg2 arg3 harg3 arg4 harg4 arg5 harg5 arg6 harg6 arg7 harg7 hc0 hc1 x0 x1 xs0 xs1 xs2).1 S1x1024x1024.size (by sl_kernel_rfl) y

/-- What case C leaves in output 2's staging buffer: its pieces read back over junk. -/
def out0_C_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) : Vec F S1x1024x1024 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1 xs2).1)

/-- Case C's pieces for scratch 0 (the running maximum), carried between points, cover it (whole-buffer stores). -/
theorem scover0_C_0 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) (y : S1024x1.Idx) :
    ∃ pc ∈ (kernelRun0_C c i arg2 harg2 arg3 harg3 arg4 harg4 arg5 harg5 arg6 harg6 arg7 harg7 hc0 hc1 x0 x1 xs0 xs1 xs2).2.1, y ∈ pc.1.set :=
  View.cover_of_tiledL (kernelRun0_C c i arg2 harg2 arg3 harg3 arg4 harg4 arg5 harg5 arg6 harg6 arg7 harg7 hc0 hc1 x0 x1 xs0 xs1 xs2).2.1 S1024x1.size (by sl_kernel_rfl) y

/-- What case C leaves in scratch 0 (the running maximum): its pieces read back over junk. -/
def sout0_C_0 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1 xs2).2.1)

/-- Case C's pieces for scratch 1 (the denominator), carried between points, cover it (whole-buffer stores). -/
theorem scover0_C_1 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) (y : S1024x1.Idx) :
    ∃ pc ∈ (kernelRun0_C c i arg2 harg2 arg3 harg3 arg4 harg4 arg5 harg5 arg6 harg6 arg7 harg7 hc0 hc1 x0 x1 xs0 xs1 xs2).2.2.1, y ∈ pc.1.set :=
  View.cover_of_tiledL (kernelRun0_C c i arg2 harg2 arg3 harg3 arg4 harg4 arg5 harg5 arg6 harg6 arg7 harg7 hc0 hc1 x0 x1 xs0 xs1 xs2).2.2.1 S1024x1.size (by sl_kernel_rfl) y

/-- What case C leaves in scratch 1 (the denominator): its pieces read back over junk. -/
def sout0_C_1 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1 xs2).2.2.1)

/-- Case C's pieces for scratch 2 (the numerators), carried between points, cover it (whole-buffer stores). -/
theorem scover0_C_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) (y : S1024x1024.Idx) :
    ∃ pc ∈ (kernelRun0_C c i arg2 harg2 arg3 harg3 arg4 harg4 arg5 harg5 arg6 harg6 arg7 harg7 hc0 hc1 x0 x1 xs0 xs1 xs2).2.2.2.1, y ∈ pc.1.set :=
  View.cover_of_tiledL (kernelRun0_C c i arg2 harg2 arg3 harg3 arg4 harg4 arg5 harg5 arg6 harg6 arg7 harg7 hc0 hc1 x0 x1 xs0 xs1 xs2).2.2.2.1 S1024x1024.size (by sl_kernel_rfl) y

/-- What case C leaves in scratch 2 (the numerators): its pieces read back over junk. -/
def sout0_C_2 (c : Dev nD) (i : grid0.Coords) (arg2 : Memref sig .tc .vmem S1x1024x640 .f32) (harg2 : arg2.IsWhole) (arg3 : Memref sig .tc .vmem S1x1x1024 .i32) (harg3 : arg3.IsWhole) (arg4 : Memref sig .tc .vmem S1x1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (hc0 : ¬cond0_0 i) (hc1 : cond0_1 i)
    (x0 : Vec F S1x1024x640 .f32) (x1 : Vec F S1x1x1024 .i32) (xs0 : Vec F S1024x1 .f32) (xs1 : Vec F S1024x1 .f32) (xs2 : Vec F S1024x1024 .f32) : Vec F S1024x1024 .f32 :=
  VS0_2.read (Elt F) (VS0_2.writes (Elt F) VS0_2.junk (kernelRun0_C c i arg2 harg2 arg3 harg3 arg4 harg4 arg5 harg5 arg6 harg6 arg7 harg7 hc0 hc1 x0 x1 xs0 xs1 xs2).2.2.2.1)

/-! ## What the output and the scratch hold after each point -/

/-- THE ACCUMULATION. What output 2's staging buffer and the three scratch buffers the kernel carries between points hold
    after the body at position `n` (a tuple: the output, then scratch 0, 1, 2): the case the closed forms select at `n`,
    run at the point's memrefs and input blocks, each scratch at what this leaves at `n - 1`. The assignment of the
    conditions that no point meets is no case. -/
def outsAt0 (c : Dev nD) : (n : ℕ) → n < cfg0.N → Vec F S1x1024x1024 .f32 × Vec F S1024x1 .f32 × Vec F S1024x1 .f32 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 50 = 0 then
      if h1 : (n + 1) % 50 = 49 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 50 = 49 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 50 = 0) (h1 : ¬t.val % 50 = 49) :
    outsAt0 m c t.val t.isLt = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 50 = 0) (h1 : ¬t.val % 50 = 49) :
    outsAt0 m c t.val t.isLt = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 50 = 0) (h1 : t.val % 50 = 49) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards
    the three scratch buffers at what the point before left in them (`outsAt0`'s scratch components) and the generator
    register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outsAt0`'s first component; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: both inputs' memrefs hold their blocks; the closed forms say which case the point is in; the
    run of that case applies; the invariant hands the body the three scratch buffers at what the point before left (at
    anything at the first point) and takes them back at this point's contents (each covered by the case's stores); the output
    window is handed back untouched where it is idle and at the case's store at the last tile; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 200 := lt_of_lt_of_eq t.isLt (show cfg0.N = 200 from N_0)
  by_cases h0 : t.val % 50 = 0
  · by_cases h1 : t.val % 50 = 49
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0 sout0_A_1 sout0_A_2; (try dsimp only)
      by_cases hz : t.val = 0
      ·   rw [PhiS_castSucc m c t, PhiS_zero m c _ _ hz, PhiA0_eq]
          iintro ⟨⟨⟨HS0, HS1, HS2⟩, Hg⟩, Ho, ⟨%d0, H0⟩, ⟨%d1, H1⟩, ⟨%d2, H2⟩⟩
          iapply ((kernelRun0_A c (grid0.coords t) _ _ _ _ _ _ _ _ _ _ _ _ ((hcond0_0 t).mpr h0) (fun h => h1 ((hcond0_1 t).mp h)) (iblk m c 0 t) (iblk m c 1 t)).2.2.2.2 _ Set.univ _)
          isplitl [H0]; · iexact H0
          isplitl [H1]; · iexact H1
          isplitl [H2]; · iexact H2
          isplitl [HS0]; · iexact HS0
          isplitl [HS1]; · iexact HS1
          isplitl [HS2]; · iexact HS2
          iintro ⟨H0, H1, H2, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _)
            iexact Hg
          isplitl [Ho]; · iexact Ho
          isplitl [H0]; · iexact H0
          isplitl [H1]; · iexact H1
          iexists _; iexact H2
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk m c 0 t) (iblk m c 1 t)).2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _)
          iexact Hg
        isplitl [Ho]; · iexact Ho
        isplitl [H0]; · iexact H0
        isplitl [H1]; · iexact H1
        iexists _; iexact H2
  · by_cases h1 : t.val % 50 = 49
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2_C t (fun h => h0 ((hcond0_0 t).mp h)) ((hcond0_1 t).mpr h1)], after0_2]
      rw [outsAt0_C m c t h0 h1]
      unfold out0_C_2 sout0_C_0 sout0_C_1 sout0_C_2; (try dsimp only)
      by_cases hz : t.val = 0
      ·   exfalso; omega
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_C c (grid0.coords t) _ _ _ _ _ _ _ _ _ _ _ _ (fun h => h0 ((hcond0_0 t).mp h)) ((hcond0_1 t).mpr h1) (iblk m c 0 t) (iblk m c 1 t) _ _ _).2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        iintro ⟨H0, H1, ⟨%e2, H2⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0 sout0_B_1 sout0_B_2; (try dsimp only)
      by_cases hz : t.val = 0
      ·   exfalso; omega
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) _ _ _).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 200 := N_0; omega)

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: both argument arrays hold at the end what they held at the start. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The mathematics both programs compute, stated once over explicit coordinates.

  Logits `x : [4, 1024, 32000]` (extended reals; on the admitted inputs every entry is a real number) and token ids
  `ids : [4, 1024]` (32-bit words; on the admitted inputs every id is a vocabulary position `< 32000`).
  For a row `(b, t)`: `rowMax` is the largest logit, `num v = exp (x v - rowMax)`, `den = ∑ v, num v`, and the softmax
  probability is `prob v = num v / den`. The array both programs build is `gath b t p = prob b t (tok b p)`:
  the probability, at step `t`, of the token that stands at position `p` of the same sequence.

  The kernel reaches `gath` by a tiled recurrence over 50 tiles of 640 vocabulary positions (`step`, `run`): a running
  maximum `m`, a denominator `l` and one numerator `acc p` per position, each rescaled by `exp (m_old - m_new)` when
  the maximum moves, the numerator picking the one vocabulary position equal to the token (`hit`). `Online.lean`
  proves that after the last tile `acc p / l = prob (tok p)`.
-/
import Idealize.ShloMosaic.PureOps.Ideal
import Idealize.ShloMosaic.Lib.ValueIdx

noncomputable section

namespace Cert.Spec

open Idealize.ShloMosaic Idealize.ShloMosaic.ValueIdx

/-- The logits' shape. -/
abbrev SX : Shape := ⟨3, ![4, 1024, 32000]⟩
/-- The token ids' shape. -/
abbrev SI : Shape := ⟨2, ![4, 1024]⟩
/-- The gathered probabilities' shape: sequence, step, position. -/
abbrev SG : Shape := ⟨3, ![4, 1024, 1024]⟩

/-- The admitted inputs: every logit is a real number, and every token id is a vocabulary position. -/
structure Dom (x : SX.Idx → EReal) (ids : SI.Idx → BitVec 32) : Prop where
  real : ∀ i, ∃ r : ℝ, x i = (r : EReal)
  vocab : ∀ i, (ids i).toNat < 32000

/-- The largest logit of row `(b, t)`. -/
def rowMax (x : SX.Idx → EReal) (b : Fin 4) (t : Fin 1024) : EReal :=
  (Finset.univ : Finset (Fin 32000)).fold max ⊥ fun v => x (ix3 b t v)

/-- The shifted exponential of one logit of the row. -/
def num (x : SX.Idx → EReal) (b : Fin 4) (t : Fin 1024) (v : Fin 32000) : EReal :=
  Ideal.exp (x (ix3 b t v) - rowMax x b t)

/-- The softmax denominator of the row. -/
def den (x : SX.Idx → EReal) (b : Fin 4) (t : Fin 1024) : EReal := ∑ v : Fin 32000, num x b t v

/-- The softmax probability of vocabulary position `v` in row `(b, t)`. -/
def prob (x : SX.Idx → EReal) (b : Fin 4) (t : Fin 1024) (v : Fin 32000) : EReal :=
  Ideal.div (num x b t v) (den x b t)

/-- The token at position `p` of sequence `b`, as a vocabulary position (the id itself on the admitted inputs). -/
def tok (ids : SI.Idx → BitVec 32) (b : Fin 4) (p : Fin 1024) : Fin 32000 :=
  ⟨(ids (ix2 b p)).toNat % 32000, Nat.mod_lt _ (by norm_num)⟩

/-- `gath b t p`: the probability at step `t` of the token at position `p`. -/
def gathAt (x : SX.Idx → EReal) (ids : SI.Idx → BitVec 32) (b : Fin 4) (t p : Fin 1024) : EReal :=
  prob x b t (tok ids b p)

/-- The same as an array. -/
def gath (x : SX.Idx → EReal) (ids : SI.Idx → BitVec 32) : SG.Idx → EReal :=
  fun j => gathAt x ids (j 0) (j 1) (j 2)

theorem gath_ix3 (x : SX.Idx → EReal) (ids : SI.Idx → BitVec 32) (b : Fin 4) (t p : Fin 1024) :
    gath x ids (ix3 b t p) = gathAt x ids b t p := rfl

/-- The consecutive-token array's shape: sequence, position `q < 1023`. -/
abbrev SC : Shape := ⟨2, ![4, 1023]⟩
/-- The n-gram array's shape: sequence, start `u < 1022`, start `i < 1022`. -/
abbrev SN : Shape := ⟨3, ![4, 1022, 1022]⟩

/-- The probability at step `q + 1` of the token at position `q`: the sub-diagonal of `gath`. -/
def consecAt (x : SX.Idx → EReal) (ids : SI.Idx → BitVec 32) (b : Fin 4) (q : Fin 1023) : EReal :=
  gathAt x ids b ⟨q.val + 1, by omega⟩ ⟨q.val, by omega⟩

/-- The same as an array. -/
def consec (x : SX.Idx → EReal) (ids : SI.Idx → BitVec 32) : SC.Idx → EReal :=
  fun j => consecAt x ids (j 0) (j 1)

/-- The probability at step `u + 2` of the token at position `i + 2`: `gath` shifted by two in both axes. -/
def ngramAt (x : SX.Idx → EReal) (ids : SI.Idx → BitVec 32) (b : Fin 4) (u i : Fin 1022) : EReal :=
  gathAt x ids b ⟨u.val + 2, by omega⟩ ⟨i.val + 2, by omega⟩

/-- The same as an array. -/
def ngram (x : SX.Idx → EReal) (ids : SI.Idx → BitVec 32) : SN.Idx → EReal :=
  fun j => ngramAt x ids (j 0) (j 1) (j 2)

/-! ## The tiled recurrence -/

/-- Logit `v` of tile `n` of row `(b, t)` (vocabulary position `640 n + v`; total in `n` by wrapping). -/
def tileX (x : SX.Idx → EReal) (b : Fin 4) (t : Fin 1024) (n : ℕ) (v : Fin 640) : EReal :=
  x (ix3 b t ⟨(640 * n + v.val) % 32000, Nat.mod_lt _ (by norm_num)⟩)

/-- 1 when vocabulary position `640 n + v` is the token at position `p`, else 0. -/
def hit (ids : SI.Idx → BitVec 32) (b : Fin 4) (n : ℕ) (v : Fin 640) (p : Fin 1024) : EReal :=
  if 640 * n + v.val = (ids (ix2 b p)).toNat then 1 else 0

/-- What one row carries between tiles: the running maximum, the denominator, one numerator per position. -/
structure St where
  m : EReal
  l : EReal
  acc : Fin 1024 → EReal

/-- Before the first tile. -/
def St.init : St := ⟨⊥, 0, fun _ => 0⟩

/-- One tile: the maximum moves to `mn`, the old sums are rescaled by `exp (m - mn)`, the tile's terms are added. -/
def step (x : SX.Idx → EReal) (ids : SI.Idx → BitVec 32) (b : Fin 4) (t : Fin 1024) (n : ℕ) (s : St) : St :=
  let mn : EReal := max s.m ((Finset.univ : Finset (Fin 640)).fold max ⊥ (tileX x b t n))
  { m := mn
    l := Ideal.exp (s.m - mn) * s.l + ∑ v : Fin 640, Ideal.exp (tileX x b t n v - mn)
    acc := fun p => Ideal.exp (s.m - mn) * s.acc p + ∑ v : Fin 640, Ideal.exp (tileX x b t n v - mn) * hit ids b n v p }

/-- The row's state after tiles `0 … n`. -/
def run (x : SX.Idx → EReal) (ids : SI.Idx → BitVec 32) (b : Fin 4) (t : Fin 1024) : ℕ → St
  | 0 => step x ids b t 0 St.init
  | n + 1 => step x ids b t (n + 1) (run x ids b t n)

end Cert.Spec

end
-- ==== Proof.KPay.lean ====
/-
  The kernel body's payloads read at one index, at the ideal values.

  One tile of one row `t`: the logits block `X` holds the tile's 640 logits of the row, the ids block `I` the 1024
  token ids of the sequence, the scratch columns `mp`, `lp` the running maximum and denominator, and the scratch
  matrix `ap` one numerator per position. Read at row `t` (and position `p`) the three values the body stores are
  the three fields of `Spec.step`: the maximum moves to the larger of the old one and the tile's, the old sums are
  rescaled by the exponential of the difference, and the tile's terms are added — for the numerators through a product
  with the matrix that is 1 where vocabulary position `640 n + v` is the token at position `p` and 0 elsewhere.
  The remaining payloads are a copy, the final quotient, and the three initial splats.
-/
import proofs.«410189_j28759101014346_2_alg».proof.Proof.Gen.KernelIdeal.Skeleton
import proofs.«410189_j28759101014346_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## Layout operations at an index: the column forms -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The exponential of a vector at an index is the exponential of the element. -/
theorem exp_apply {s : Shape} {φ : FTy} (a : FVec Ideal s φ) (i : s.Idx) : exp a i = Ideal.exp (a i) := rfl

/-- The word `0xFF800000` is `-∞`. -/
theorem ofBits_neg_inf_f32 : Ideal.ofBits .f32 0xFF800000#32 = ⊥ := by
  simp [Ideal.ofBits, Ideal.ieee]

/-! ## The two lane reductions of a `[1024, 640]` array, kept as a column, at row `t` -/

/-- The index a lane reduction of row `t` reads at lane `v` is `(t, v)`. -/
theorem lift_row (t : Fin 1024) (v : Fin 640) : reduces_S1024x640_S1024.lift (ix1 t) v = ix2 t v :=
  funext fun a => Fin.ext (by match a with | ⟨0, _⟩ => rfl | ⟨1, _⟩ => rfl)

/-- The lane maximum from `-∞`: the largest entry of the row. -/
theorem rowMax_apply (Y : FVec Ideal S1024x640 .f32) (hφ : FKind.Formats .f32)
    (hacc : (0xFF800000#32 : BitVec 32) = FKind.maximumf.neutral .f32 hφ) (t : Fin 1024) (u : Fin 1) :
    shapeCast S1024x1 (multiReduction .maximumf [1] S1024 Y 0xFF800000#32 reduces_S1024x640_S1024 hφ hacc)
        shapeCasts_S1024_S1024x1 (ix2 t u)
      = (Finset.univ : Finset (Fin 640)).fold max ⊥ fun v => Y (ix2 t v) := by
  refine (shapeCast_a_a1_apply _ shapeCasts_S1024_S1024x1 t u).trans ?_
  refine (Ideal.multiReduction_maximumf_single Y 0xFF800000#32 reduces_S1024x640_S1024 hφ hacc (ix1 t)).trans ?_
  rw [Ideal.ofBits_def, ofBits_neg_inf_f32]
  exact congrArg (fun f : Fin 640 → EReal => (Finset.univ : Finset (Fin 640)).fold max ⊥ f)
    (funext fun v => congrArg Y (lift_row t v))

/-- The lane sum from 0: the sum of the row's entries. -/
theorem rowSum_apply (Y : FVec Ideal S1024x640 .f32) (hφ : FKind.Formats .f32)
    (hacc : (0x00000000#32 : BitVec 32) = FKind.add.neutral .f32 hφ) (t : Fin 1024) (u : Fin 1) :
    shapeCast S1024x1 (multiReduction .add [1] S1024 Y 0x00000000#32 reduces_S1024x640_S1024 hφ hacc)
        shapeCasts_S1024_S1024x1 (ix2 t u)
      = ∑ v : Fin 640, Y (ix2 t v) := by
  refine (shapeCast_a_a1_apply _ shapeCasts_S1024_S1024x1 t u).trans ?_
  refine (Ideal.multiReduction_add_single Y 0x00000000#32 reduces_S1024x640_S1024 hφ hacc (ix1 t)).trans ?_
  exact Finset.sum_congr rfl fun v _ => congrArg Y (lift_row t v)

/-! ## The payloads -/

/-- The logits block without its unit axis, at `(t, v)`. -/
theorem pay7_eq (X : Vec Ideal S1x1024x640 .f32) (t : Fin 1024) (v : Fin 640) : k0_pay7 X (ix2 t v) = X (ix3 0 t v) := by
  unfold k0_pay7
  exact shapeCast_1ab_ab_apply X shapeCasts_S1x1024x640_S1024x640 t v

/-- The new running maximum of row `t`. -/
theorem pay8_eq (X : Vec Ideal S1x1024x640 .f32) (mp : Vec Ideal S1024x1 .f32)
    (x : Spec.SX.Idx → EReal) (ids : Spec.SI.Idx → BitVec 32) (b : Fin 4) (n : ℕ) (s : Spec.St) (t : Fin 1024)
    (hX : ∀ v : Fin 640, X (ix3 0 t v) = Spec.tileX x b t n v) (hm : mp (ix2 t 0) = s.m) :
    k0_pay8 X mp (ix2 t 0) = (Spec.step x ids b t n s).m := by
  unfold k0_pay8
  rw [maximumf_apply, hm]
  refine congrArg (max s.m) ?_
  refine (rowMax_apply (k0_pay7 X) _ _ t 0).trans ?_
  exact congrArg (fun f : Fin 640 → EReal => (Finset.univ : Finset (Fin 640)).fold max ⊥ f)
    (funext fun v => (pay7_eq X t v).trans (hX v))

/-- The factor the old sums are rescaled by. -/
theorem pay9_eq (X : Vec Ideal S1x1024x640 .f32) (mp : Vec Ideal S1024x1 .f32)
    (x : Spec.SX.Idx → EReal) (ids : Spec.SI.Idx → BitVec 32) (b : Fin 4) (n : ℕ) (s : Spec.St) (t : Fin 1024)
    (hX : ∀ v : Fin 640, X (ix3 0 t v) = Spec.tileX x b t n v) (hm : mp (ix2 t 0) = s.m) :
    k0_pay9 X mp (ix2 t 0) = Ideal.exp (s.m - (Spec.step x ids b t n s).m) := by
  unfold k0_pay9
  rw [exp_apply, subf_apply, pay8_eq X mp x ids b n s t hX hm, hm]

/-- The tile's shifted exponentials, at `(t, v)`. -/
theorem pay10_eq (X : Vec Ideal S1x1024x640 .f32) (mp : Vec Ideal S1024x1 .f32)
    (x : Spec.SX.Idx → EReal) (ids : Spec.SI.Idx → BitVec 32) (b : Fin 4) (n : ℕ) (s : Spec.St) (t : Fin 1024) (v : Fin 640)
    (hX : ∀ v : Fin 640, X (ix3 0 t v) = Spec.tileX x b t n v) (hm : mp (ix2 t 0) = s.m) :
    k0_pay10 X mp (ix2 t v) = Ideal.exp (Spec.tileX x b t n v - (Spec.step x ids b t n s).m) := by
  unfold k0_pay10
  rw [exp_apply, subf_apply, pay7_eq, hX v]
  rw [broadcastTo_a1_ab_apply (k0_pay8 X mp) broadcasts_S1024x1_S1024x640 t v, pay8_eq X mp x ids b n s t hX hm]

/-- The new denominator of row `t`. -/
theorem pay11_eq (X : Vec Ideal S1x1024x640 .f32) (mp lp : Vec Ideal S1024x1 .f32)
    (x : Spec.SX.Idx → EReal) (ids : Spec.SI.Idx → BitVec 32) (b : Fin 4) (n : ℕ) (s : Spec.St) (t : Fin 1024)
    (hX : ∀ v : Fin 640, X (ix3 0 t v) = Spec.tileX x b t n v) (hm : mp (ix2 t 0) = s.m) (hl : lp (ix2 t 0) = s.l) :
    k0_pay11 X mp lp (ix2 t 0) = (Spec.step x ids b t n s).l := by
  unfold k0_pay11
  rw [shapeCast_self, addf_apply, mulf_apply, pay9_eq X mp x ids b n s t hX hm, hl]
  refine congrArg (Ideal.exp (s.m - (Spec.step x ids b t n s).m) * s.l + ·) ?_
  refine (rowSum_apply (k0_pay10 X mp) _ _ t 0).trans ?_
  exact Finset.sum_congr rfl fun v _ => pay10_eq X mp x ids b n s t v hX hm

/-! ## The product with the one-hot matrix

The product contracts the lanes: rows × lanes times lanes × positions. Each of the four operand coordinates is read off
the dimension numbers: the row and the position come from the output index, the lane from the contraction index. -/

theorem lhs_dot_0 (j : S1024x1024.Idx) (q : dot_S1024x640_S640x1024_S1024x1024_1_0_0_1_n_n.contr.Idx) :
    (dot_S1024x640_S640x1024_S1024x1024_1_0_0_1_n_n.lhsIdx j q 0).val = (j 0).val := by
  unfold DotDims.lhsIdx
  rw [dif_neg (show ¬(0 : Fin S1024x640.rank) ∈ dot_S1024x640_S640x1024_S1024x1024_1_0_0_1_n_n.lhsBatch by decide), dif_pos (show (0 : Fin S1024x640.rank) ∈ dot_S1024x640_S640x1024_S1024x1024_1_0_0_1_n_n.lhsNonContracting by decide)]
  rfl
theorem lhs_dot_1 (j : S1024x1024.Idx) (q : dot_S1024x640_S640x1024_S1024x1024_1_0_0_1_n_n.contr.Idx) :
    (dot_S1024x640_S640x1024_S1024x1024_1_0_0_1_n_n.lhsIdx j q 1).val = (q ⟨0, by decide⟩).val :=
  dot_S1024x640_S640x1024_S1024x1024_1_0_0_1_n_n.lhsIdx_val_of_single rfl j q
theorem rhs_dot_0 (j : S1024x1024.Idx) (q : dot_S1024x640_S640x1024_S1024x1024_1_0_0_1_n_n.contr.Idx) :
    (dot_S1024x640_S640x1024_S1024x1024_1_0_0_1_n_n.rhsIdx j q 0).val = (q ⟨0, by decide⟩).val :=
  dot_S1024x640_S640x1024_S1024x1024_1_0_0_1_n_n.rhsIdx_val_of_single rfl j q
theorem rhs_dot_1 (j : S1024x1024.Idx) (q : dot_S1024x640_S640x1024_S1024x1024_1_0_0_1_n_n.contr.Idx) :
    (dot_S1024x640_S640x1024_S1024x1024_1_0_0_1_n_n.rhsIdx j q 1).val = (j 1).val := by
  unfold DotDims.rhsIdx
  rw [dif_neg (show ¬(1 : Fin S640x1024.rank) ∈ dot_S1024x640_S640x1024_S1024x1024_1_0_0_1_n_n.rhsBatch by decide), dif_pos (show (1 : Fin S640x1024.rank) ∈ dot_S1024x640_S640x1024_S1024x1024_1_0_0_1_n_n.rhsNonContracting by decide)]
  rfl

/-- The product accumulated into the zero matrix, at `(t, p)`: the sum over the 640 lanes of row entry times column entry. -/
theorem matmul_at (A : FVec Ideal S1024x640 .bf16) (B : FVec Ideal S640x1024 .bf16) (t p : Fin 1024) :
    matmul dot_S1024x640_S640x1024_S1024x1024_1_0_0_1_n_n none A B (constant (F := Ideal) S1024x1024 .f32 0x00000000#32) (ix2 t p)
      = ∑ v : Fin 640, A (ix2 t v) * B (ix2 v p) := by
  simp only [matmul]
  rw [Ideal.matmul_constant_zero_apply, ← Equiv.sum_comp (contrEquiv1 dot_S1024x640_S640x1024_S1024x1024_1_0_0_1_n_n 640 rfl rfl).symm]
  refine Finset.sum_congr rfl fun k _ => ?_
  have hk := contrEquiv1_symm_val dot_S1024x640_S640x1024_S1024x1024_1_0_0_1_n_n 640 rfl rfl k
  have el : dot_S1024x640_S640x1024_S1024x1024_1_0_0_1_n_n.lhsIdx (ix2 t p) ((contrEquiv1 dot_S1024x640_S640x1024_S1024x1024_1_0_0_1_n_n 640 rfl rfl).symm k) = ix2 t k := funext fun a => Fin.ext (by
    match a with
    | ⟨0, _⟩ => exact lhs_dot_0 _ _
    | ⟨1, _⟩ => exact (lhs_dot_1 _ _).trans hk)
  have er : dot_S1024x640_S640x1024_S1024x1024_1_0_0_1_n_n.rhsIdx (ix2 t p) ((contrEquiv1 dot_S1024x640_S640x1024_S1024x1024_1_0_0_1_n_n 640 rfl rfl).symm k) = ix2 k p := funext fun a => Fin.ext (by
    match a with
    | ⟨0, _⟩ => exact (rhs_dot_0 _ _).trans hk
    | ⟨1, _⟩ => exact rhs_dot_1 _ _)
  rw [el, er]

/-- The 32-bit word of vocabulary position `640 n + v` at lane `v`: the tile's offset plus the lane number. -/
theorem lane_word (i : grid0.Coords) (v : Fin 640) (u : Fin 1) :
    addi (broadcast S640x1 (Scalar.muli (BitVec.ofNat 32 (i 1).val) 640#32)) (iota .tc S640x1 32 [0] iota_S640x1_d0_w32) (ix2 v u)
      = BitVec.ofNat 32 (i 1).val * 640#32 + BitVec.ofNat 32 v.val := by
  show IntOp.addi (Scalar.muli (BitVec.ofNat 32 (i 1).val) 640#32) (iota .tc S640x1 32 [0] iota_S640x1_d0_w32 (ix2 v u)) = _
  rw [iota_single_apply]
  rfl

/-- No wrap-around: the word's value is `640 n + v` itself, the tile number being below 50 and the lane below 640. -/
theorem lane_word_toNat (n : ℕ) (hn50 : n < 50) (v : Fin 640) :
    (BitVec.ofNat 32 n * 640#32 + BitVec.ofNat 32 v.val).toNat = 640 * n + v.val := by
  have hv := v.isLt
  rw [BitVec.toNat_add, BitVec.toNat_mul, BitVec.toNat_ofNat, BitVec.toNat_ofNat, BitVec.toNat_ofNat]
  rw [Nat.mod_eq_of_lt (show n < 2 ^ 32 by omega), Nat.mod_eq_of_lt (show 640 < 2 ^ 32 by norm_num),
    Nat.mod_eq_of_lt (show v.val < 2 ^ 32 by omega), Nat.mod_eq_of_lt (show n * 640 < 2 ^ 32 by omega),
    Nat.mod_eq_of_lt (show n * 640 + v.val < 2 ^ 32 by omega)]
  omega

/-- So two such words are equal exactly when the vocabulary position is the other word's value. -/
theorem lane_word_eq_iff (n : ℕ) (hn50 : n < 50) (v : Fin 640) (w : BitVec 32) :
    BitVec.ofNat 32 n * 640#32 + BitVec.ofNat 32 v.val = w ↔ 640 * n + v.val = w.toNat := by
  constructor
  · rintro rfl
    exact (lane_word_toNat n hn50 v).symm
  · intro h
    exact BitVec.eq_of_toNat_eq ((lane_word_toNat n hn50 v).trans h)

/-- An entry of the comparison matrix, as a float: 1 where the lane's word equals the position's word, else 0. -/
theorem onehot_entry (W : IVec S640x1 32) (J : IVec S1x1024 32) (v : Fin 640) (p : Fin 1024) :
    (truncf .bf16 (sitofp .f32 (extui 32 (cmpi .eq (broadcastTo S640x1024 W broadcasts_S640x1_S640x1024)
        (broadcastTo S640x1024 J broadcasts_S1x1024_S640x1024)) natLt_1_32) : FVec Ideal S640x1024 .f32) bitsLt_bf16_f32
        : FVec Ideal S640x1024 .bf16) (ix2 v p)
      = if W (ix2 v (0 : Fin 1)) = J (ix2 (0 : Fin 1) p) then 1 else 0 := by
  rw [truncf_apply, sitofp_apply, extui_apply]
  show FloatOps.sitofp (F := Ideal) .f32 ((IntOp.cmpi .eq (broadcastTo S640x1024 W broadcasts_S640x1_S640x1024 (ix2 v p))
    (broadcastTo S640x1024 J broadcasts_S1x1024_S640x1024 (ix2 v p))).setWidth 32) = _
  rw [broadcastTo_a1_ab_apply W broadcasts_S640x1_S640x1024 v p, broadcastTo_1b_ab_apply J broadcasts_S1x1024_S640x1024 v p]
  show (((((BitVec.ofBool (W (ix2 v (0 : Fin 1)) == J (ix2 (0 : Fin 1) p))).setWidth 32).toInt : ℤ) : ℝ) : EReal) = _
  by_cases h : W (ix2 v (0 : Fin 1)) = J (ix2 (0 : Fin 1) p)
  · rw [if_pos h, beq_iff_eq.2 h, show ((BitVec.ofBool true).setWidth 32).toInt = 1 by decide]
    norm_num
  · rw [if_neg h, beq_eq_false_iff_ne.2 h, show ((BitVec.ofBool false).setWidth 32).toInt = 0 by decide]
    norm_num

/-- The tile's product at `(t, p)`: the shifted exponentials of the row, each counted when its vocabulary position is the token. -/
theorem pay12_eq (X : Vec Ideal S1x1024x640 .f32) (I : Vec Ideal S1x1x1024 .i32) (mp : Vec Ideal S1024x1 .f32) (i : grid0.Coords)
    (x : Spec.SX.Idx → EReal) (ids : Spec.SI.Idx → BitVec 32) (b : Fin 4) (n : ℕ) (s : Spec.St) (t p : Fin 1024)
    (hn : (i 1).val = n) (hn50 : n < 50)
    (hX : ∀ v : Fin 640, X (ix3 0 t v) = Spec.tileX x b t n v) (hI : ∀ p : Fin 1024, I (ix3 0 0 p) = ids (ix2 b p))
    (hm : mp (ix2 t 0) = s.m) :
    k0_pay12 i X mp I (ix2 t p)
      = ∑ v : Fin 640, Ideal.exp (Spec.tileX x b t n v - (Spec.step x ids b t n s).m) * Spec.hit ids b n v p := by
  unfold k0_pay12
  refine (matmul_at _ _ t p).trans ?_
  refine Finset.sum_congr rfl fun v _ => ?_
  rw [truncf_apply, pay10_eq X mp x ids b n s t v hX hm]
  refine congrArg (Ideal.exp (Spec.tileX x b t n v - (Spec.step x ids b t n s).m) * ·) ?_
  refine (onehot_entry _ _ v p).trans ?_
  rw [lane_word i v 0, shapeCast_1ab_ab_apply I shapeCasts_S1x1x1024_S1x1024 0 p, hI p, hn]
  unfold Spec.hit
  exact if_congr (lane_word_eq_iff n hn50 v _) rfl rfl

/-- The new numerator of row `t` at position `p`. -/
theorem pay1_eq (X : Vec Ideal S1x1024x640 .f32) (I : Vec Ideal S1x1x1024 .i32) (mp : Vec Ideal S1024x1 .f32)
    (ap : Vec Ideal S1024x1024 .f32) (i : grid0.Coords)
    (x : Spec.SX.Idx → EReal) (ids : Spec.SI.Idx → BitVec 32) (b : Fin 4) (n : ℕ) (s : Spec.St) (t p : Fin 1024)
    (hn : (i 1).val = n) (hn50 : n < 50)
    (hX : ∀ v : Fin 640, X (ix3 0 t v) = Spec.tileX x b t n v) (hI : ∀ p : Fin 1024, I (ix3 0 0 p) = ids (ix2 b p))
    (hm : mp (ix2 t 0) = s.m) (ha : ∀ p : Fin 1024, ap (ix2 t p) = s.acc p) :
    k0_pay1 (k0_pay9 X mp) (k0_pay12 i X mp I) ap (ix2 t p) = (Spec.step x ids b t n s).acc p := by
  unfold k0_pay1
  rw [shapeCast_self, addf_apply, mulf_apply, broadcastTo_a1_ab_apply (k0_pay9 X mp) broadcasts_S1024x1_S1024x1024 t p,
    pay9_eq X mp x ids b n s t hX hm, ha p, pay12_eq X I mp i x ids b n s t p hn hn50 hX hI hm]
  rfl

/-- The maximum is stored as it is. -/
theorem pay2_eq (m' : FVec Ideal S1024x1 .f32) (j : S1024x1.Idx) : k0_pay2 m' j = m' j := by
  unfold k0_pay2
  rw [shapeCast_self]

/-- After the last tile the output block is numerator over denominator. -/
theorem pay3_eq (a : Vec Ideal S1024x1024 .f32) (l : Vec Ideal S1024x1 .f32) (t p : Fin 1024) :
    k0_pay3 a l (ix3 0 t p) = Ideal.div (a (ix2 t p)) (l (ix2 t 0)) := by
  unfold k0_pay3
  refine (shapeCast_ab_1ab_apply _ shapeCasts_S1024x1024_S1x1024x1024 0 t p).trans ?_
  rw [divf_apply, broadcastTo_a1_ab_apply l broadcasts_S1024x1_S1024x1024 t p]

/-- Before the first tile the maximum is `-∞`. -/
theorem pay4_eq (j : S1024x1.Idx) : k0_pay4 (F := Ideal) j = ⊥ := by
  unfold k0_pay4
  rw [shapeCast_self]
  exact ofBits_neg_inf_f32

/-- Before the first tile the denominator is 0. -/
theorem pay5_eq (j : S1024x1.Idx) : k0_pay5 (F := Ideal) j = 0 := by
  unfold k0_pay5
  rw [shapeCast_self]
  exact Ideal.ofBits_zero_f32

/-- Before the first tile every numerator is 0. -/
theorem pay6_eq (j : S1024x1024.Idx) : k0_pay6 (F := Ideal) j = 0 := by
  unfold k0_pay6
  rw [shapeCast_self]
  exact Ideal.ofBits_zero_f32

end Cert.KernelIdeal.Pay

end
-- ==== Proof.Online.lean ====
/-
  The closed form of the tiled softmax recurrence.

  On the admitted inputs every logit of a row is a real number `f j`. After tiles `0 … n` the running maximum is a
  real `m`, the denominator is `∑ j < 640 (n+1), exp (f j - m)` and the numerator at position `p` is the same sum
  restricted to the one vocabulary position equal to the token. The quotient of the two does not depend on `m`:
  after the last tile it is `exp (f k) / ∑ j, exp (f j)`, the softmax probability of the token.
-/
import proofs.«410189_j28759101014346_2_alg».proof.Proof.Spec
import Mathlib.Algebra.BigOperators.Fin
import Mathlib.Algebra.BigOperators.Ring.Finset
import Mathlib.Analysis.SpecialFunctions.Exp

noncomputable section

namespace Cert.Spec

open Idealize.ShloMosaic Idealize.ShloMosaic.ValueIdx

namespace Online

/-! ## Extended reals that are reals -/

/-- The coercion of a finite sum of reals is the sum of the coercions. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The coercion of the larger of two reals is the larger of the coercions. -/
theorem coe_max (a c : ℝ) : ((max a c : ℝ) : EReal) = max (a : EReal) (c : EReal) :=
  EReal.coe_strictMono.monotone.map_max

/-- The largest of finitely many reals, at least one, is a real. -/
theorem fold_max_real {ι : Type*} (s : Finset ι) (g : ι → ℝ) (hs : s.Nonempty) :
    ∃ r : ℝ, s.fold max ⊥ (fun i => (g i : EReal)) = (r : EReal) := by
  classical
  induction s using Finset.induction_on with
  | empty => exact absurd hs (by simp)
  | insert a s ha ih =>
    rcases s.eq_empty_or_nonempty with rfl | hne
    · exact ⟨g a, by simp⟩
    · obtain ⟨r, hr⟩ := ih hne
      exact ⟨max (g a) r, by rw [Finset.fold_insert ha, hr, coe_max]⟩

/-- The quotient of a real by a nonzero real. -/
theorem div_coe_coe (A : ℝ) {B : ℝ} (hB : B ≠ 0) : Ideal.div (A : EReal) (B : EReal) = ((A / B : ℝ) : EReal) := by
  rw [Ideal.div_coe hB, ← EReal.coe_mul, mul_one_div]

/-! ## Real algebra: moving the level -/

/-- Rescaling the sums over the first `N` positions from level `m` to level `mn` and adding the next 640 terms at
    level `mn` gives the sums over the first `N + 640` positions at level `mn` (`exp (a + c) = exp a * exp c`). -/
theorem rescale_sum (f w : ℕ → ℝ) (N : ℕ) (m mn : ℝ) :
    Real.exp (m - mn) * (∑ j ∈ Finset.range N, Real.exp (f j - m) * w j)
        + ∑ v : Fin 640, Real.exp (f (N + v.val) - mn) * w (N + v.val)
      = ∑ j ∈ Finset.range (N + 640), Real.exp (f j - mn) * w j := by
  rw [Finset.sum_range_add, Finset.mul_sum, Finset.sum_range (fun i => Real.exp (f (N + i) - mn) * w (N + i))]
  congr 1
  refine Finset.sum_congr rfl fun j _ => ?_
  rw [← mul_assoc, ← Real.exp_add]
  congr 2
  ring

/-- The softmax quotient does not depend on the level. -/
theorem quotient_level {ι : Type*} (s : Finset ι) (g : ι → ℝ) (a m R : ℝ) :
    Real.exp (a - m) / ∑ v ∈ s, Real.exp (g v - m) = Real.exp (a - R) / ∑ v ∈ s, Real.exp (g v - R) := by
  have hc : Real.exp (R - m) ≠ 0 := (Real.exp_pos _).ne'
  have h1 : ∀ y : ℝ, Real.exp (y - m) = Real.exp (y - R) * Real.exp (R - m) := fun y => by
    rw [← Real.exp_add]; congr 1; ring
  rw [h1 a, Finset.sum_congr rfl fun v _ => h1 (g v), ← Finset.sum_mul, mul_div_mul_right _ _ hc]

/-! ## The recurrence -/

/-- The state after the first `N` vocabulary positions of a row with real logits `f`, the token of position `p`
    standing at vocabulary position `k p`: a real level `m`, the denominator and the numerators at that level. -/
def Closed (f : ℕ → ℝ) (k : Fin 1024 → ℕ) (N : ℕ) (s : St) : Prop :=
  ∃ m : ℝ, s.m = (m : EReal) ∧
    s.l = ((∑ j ∈ Finset.range N, Real.exp (f j - m) : ℝ) : EReal) ∧
    ∀ p, s.acc p = ((∑ j ∈ Finset.range N, Real.exp (f j - m) * (if j = k p then 1 else 0) : ℝ) : EReal)

section Tile

variable {x : SX.Idx → EReal} {ids : SI.Idx → BitVec 32} {b : Fin 4} {t : Fin 1024} {n : ℕ}
  {f : ℕ → ℝ} {k : Fin 1024 → ℕ}

/-- The largest logit of a tile is a real. -/
theorem tile_max_real (hx : ∀ v, tileX x b t n v = (f (640 * n + v.val) : EReal)) :
    ∃ tm : ℝ, (Finset.univ : Finset (Fin 640)).fold max ⊥ (tileX x b t n) = (tm : EReal) := by
  have hfun : tileX x b t n = fun v => (f (640 * n + v.val) : EReal) := funext hx
  rw [hfun]
  exact fold_max_real _ _ Finset.univ_nonempty

/-- The tile's contribution to the denominator at a real level. -/
theorem tile_l (hx : ∀ v, tileX x b t n v = (f (640 * n + v.val) : EReal)) (mn : ℝ) :
    ∑ v : Fin 640, Ideal.exp (tileX x b t n v - (mn : EReal))
      = ((∑ v : Fin 640, Real.exp (f (640 * n + v.val) - mn) : ℝ) : EReal) := by
  rw [coe_finset_sum]
  refine Finset.sum_congr rfl fun v _ => ?_
  rw [hx, ← EReal.coe_sub, Ideal.exp_coe]

/-- The tile's contribution to the numerator of position `p` at a real level. -/
theorem tile_acc (hx : ∀ v, tileX x b t n v = (f (640 * n + v.val) : EReal))
    (hk : ∀ p, (ids (ix2 b p)).toNat = k p) (mn : ℝ) (p : Fin 1024) :
    ∑ v : Fin 640, Ideal.exp (tileX x b t n v - (mn : EReal)) * hit ids b n v p
      = ((∑ v : Fin 640, Real.exp (f (640 * n + v.val) - mn)
            * (if 640 * n + v.val = k p then 1 else 0) : ℝ) : EReal) := by
  rw [coe_finset_sum]
  refine Finset.sum_congr rfl fun v _ => ?_
  have hh : hit ids b n v p = ((if 640 * n + v.val = k p then (1 : ℝ) else 0 : ℝ) : EReal) := by
    unfold hit
    rw [hk]
    split_ifs <;> simp
  rw [hx, ← EReal.coe_sub, Ideal.exp_coe, hh, ← EReal.coe_mul]

/-- One tile from a closed state: the new level is the larger of the old level and the tile's largest logit. -/
theorem step_closed (hx : ∀ v, tileX x b t n v = (f (640 * n + v.val) : EReal))
    (hk : ∀ p, (ids (ix2 b p)).toNat = k p) {s : St} (hs : Closed f k (640 * n) s) :
    Closed f k (640 * n + 640) (step x ids b t n s) := by
  obtain ⟨m, hm, hl, ha⟩ := hs
  obtain ⟨tm, htm⟩ := tile_max_real hx
  have hmn : max s.m ((Finset.univ : Finset (Fin 640)).fold max ⊥ (tileX x b t n)) = ((max m tm : ℝ) : EReal) := by
    rw [hm, htm, coe_max]
  refine ⟨max m tm, ?_, ?_, ?_⟩
  · simp only [step]
    exact hmn
  · simp only [step]
    rw [hmn, hm, hl, tile_l hx, ← EReal.coe_sub, Ideal.exp_coe, ← EReal.coe_mul, ← EReal.coe_add]
    refine congrArg Real.toEReal ?_
    simpa using rescale_sum f (fun _ => 1) (640 * n) m (max m tm)
  · intro p
    simp only [step]
    rw [hmn, hm, ha p, tile_acc hx hk, ← EReal.coe_sub, Ideal.exp_coe, ← EReal.coe_mul, ← EReal.coe_add]
    refine congrArg Real.toEReal ?_
    exact rescale_sum f (fun j => if j = k p then 1 else 0) (640 * n) m (max m tm)

end Tile

section Row

variable {x : SX.Idx → EReal} {ids : SI.Idx → BitVec 32} {b : Fin 4} {t : Fin 1024}
  {f : ℕ → ℝ} {k : Fin 1024 → ℕ}

/-- The first tile: the old level is `⊥`, `exp ⊥ = 0`, so the rescaled old sums vanish. -/
theorem step_init (hx : ∀ v, tileX x b t 0 v = (f (640 * 0 + v.val) : EReal))
    (hk : ∀ p, (ids (ix2 b p)).toNat = k p) :
    Closed f k (640 * 0 + 640) (step x ids b t 0 St.init) := by
  obtain ⟨tm, htm⟩ := tile_max_real hx
  have hmn : max (⊥ : EReal) ((Finset.univ : Finset (Fin 640)).fold max ⊥ (tileX x b t 0)) = (tm : EReal) := by
    rw [htm]; exact max_eq_right bot_le
  refine ⟨tm, ?_, ?_, ?_⟩
  · simp only [step, St.init]
    exact hmn
  · simp only [step, St.init]
    rw [hmn, EReal.bot_sub, Ideal.exp_bot, zero_mul, zero_add, tile_l hx]
    refine congrArg Real.toEReal ?_
    simpa using rescale_sum f (fun _ => 1) 0 0 tm
  · intro p
    simp only [step, St.init]
    rw [hmn, EReal.bot_sub, Ideal.exp_bot, zero_mul, zero_add, tile_acc hx hk]
    refine congrArg Real.toEReal ?_
    simpa using rescale_sum f (fun j => if j = k p then 1 else 0) 0 0 tm

/-- After tiles `0 … n` the state is closed over the first `640 (n + 1)` positions. -/
theorem run_closed (hx : ∀ n v, tileX x b t n v = (f (640 * n + v.val) : EReal))
    (hk : ∀ p, (ids (ix2 b p)).toNat = k p) :
    ∀ n, Closed f k (640 * n + 640) (run x ids b t n)
  | 0 => step_init (hx 0) hk
  | n + 1 => by
    have ih := run_closed hx hk n
    have hN : 640 * n + 640 = 640 * (n + 1) := by ring
    rw [hN] at ih
    exact step_closed (hx (n + 1)) hk ih

end Row

end Online

open Online in
/-- After the last tile the numerator over the denominator is the softmax probability of the token. -/
theorem run_final {x : SX.Idx → EReal} {ids : SI.Idx → BitVec 32} (h : Dom x ids) (b : Fin 4) (t p : Fin 1024) :
    Ideal.div ((run x ids b t 49).acc p) ((run x ids b t 49).l) = gathAt x ids b t p := by
  choose r hr using h.real
  -- the row's real logits, by vocabulary position and by natural number (wrapping)
  let g : Fin 32000 → ℝ := fun v => r (ix3 b t v)
  let f : ℕ → ℝ := fun j => g ⟨j % 32000, Nat.mod_lt _ (by norm_num)⟩
  let k : Fin 1024 → ℕ := fun q => (ids (ix2 b q)).toNat
  have hfg : ∀ v : Fin 32000, f v.val = g v := fun v => by
    show g ⟨v.val % 32000, _⟩ = g v
    congr 1
    exact Fin.ext (Nat.mod_eq_of_lt v.isLt)
  have hx : ∀ n v, tileX x b t n v = (f (640 * n + v.val) : EReal) := fun n v => hr _
  obtain ⟨m, -, hl, ha⟩ := run_closed (k := k) hx (fun _ => rfl) 49
  -- the closed state at the last tile, over all 32000 positions
  have hkp : k p < 32000 := h.vocab (ix2 b p)
  have hA : (∑ j ∈ Finset.range (640 * 49 + 640), Real.exp (f j - m) * (if j = k p then 1 else 0))
      = Real.exp (g (tok ids b p) - m) := by
    rw [Finset.sum_eq_single (k p)]
    · rw [if_pos rfl, mul_one]; rfl
    · intro j _ hj; rw [if_neg hj, mul_zero]
    · intro hn; exact absurd (Finset.mem_range.mpr (by norm_num; exact hkp)) hn
  have hL : (∑ j ∈ Finset.range (640 * 49 + 640), Real.exp (f j - m)) = ∑ v : Fin 32000, Real.exp (g v - m) := by
    rw [show 640 * 49 + 640 = 32000 from by norm_num, Finset.sum_range (fun j => Real.exp (f j - m))]
    exact Finset.sum_congr rfl fun v _ => by rw [hfg]
  have hpos : ∀ c : ℝ, (∑ v : Fin 32000, Real.exp (g v - c)) ≠ 0 := fun c =>
    (Finset.sum_pos (fun v _ => Real.exp_pos (g v - c)) Finset.univ_nonempty).ne'
  rw [ha p, hl, hA, hL, div_coe_coe _ (hpos m)]
  -- the row's softmax at the row's largest logit, a real
  obtain ⟨R, hR⟩ : ∃ R : ℝ, rowMax x b t = (R : EReal) := by
    have hfun : (fun v : Fin 32000 => x (ix3 b t v)) = fun v => (g v : EReal) := funext fun v => hr _
    unfold rowMax
    rw [hfun]
    exact fold_max_real _ _ Finset.univ_nonempty
  have hnum : ∀ v, num x b t v = ((Real.exp (g v - R) : ℝ) : EReal) := fun v => by
    unfold num
    rw [hR, hr, ← EReal.coe_sub, Ideal.exp_coe]
  have hden : den x b t = ((∑ v : Fin 32000, Real.exp (g v - R) : ℝ) : EReal) := by
    unfold den
    rw [coe_finset_sum]
    exact Finset.sum_congr rfl fun v _ => hnum v
  unfold gathAt prob
  rw [hnum, hden, div_coe_coe _ (hpos R)]
  exact congrArg Real.toEReal (quotient_level Finset.univ g _ m R)

end Cert.Spec

end
-- ==== Proof.KValue.lean ====
/-
  The kernel's output array is the gathered softmax.

  Grid point `t = 50 b + n` works on sequence `b` and vocabulary tile `n`. Its logits block is rows `0 … 1023` of
  sequence `b` at vocabulary positions `640 n … 640 n + 639`; its ids block is the 1024 token ids of sequence `b`.
  The three scratch buffers carried from point to point hold, row by row, the state of the tiled recurrence after
  tiles `0 … n` (by induction on the point: a first tile starts from the initial state, every other tile from what the
  point before left). After the last tile of a sequence the body stores numerator over denominator, which is the
  softmax probability of each token; that block is written back to rows `b` of the output array, and the four blocks
  written back cover it.
-/
import proofs.«410189_j28759101014346_2_alg».proof.Proof.KI.Frame
import proofs.«410189_j28759101014346_2_alg».proof.Proof.KPay
import proofs.«410189_j28759101014346_2_alg».proof.Proof.Online
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.KValue

open Cert.KernelIdeal Cert.KernelIdeal.Gen Cert.KernelIdeal.Hand Cert.KernelIdeal.Pay
open Idealize.ShloMosaic Idealize.ShloMosaic.TcCoe Idealize.SL.Sem Idealize.ShloMosaic.ValueIdx Idealize.ShloMosaic.Tactic
open Idealize.ShloMosaic.Pipeline (Dat)

/-! ## The grid: point `50 b + n` is sequence `b`, tile `n` -/

/-- The three windows' block indices at point `t`: the logits' `(t / 50, 0, t % 50)`, the ids' and the output's
    `(t / 50, 0, 0)`. -/
theorem idx_facts : ∀ t : Fin cfg0.N,
    win0_0.index t (0 : Fin 3) = t.val / 50 ∧ win0_0.index t (1 : Fin 3) = 0 ∧ win0_0.index t (2 : Fin 3) = t.val % 50
    ∧ win0_1.index t (0 : Fin 3) = t.val / 50 ∧ win0_1.index t (1 : Fin 3) = 0 ∧ win0_1.index t (2 : Fin 3) = 0
    ∧ win0_2.index t (0 : Fin 3) = t.val / 50 ∧ win0_2.index t (1 : Fin 3) = 0 ∧ win0_2.index t (2 : Fin 3) = 0 :=
  (by decide +kernel : ∀ t : Fin grid0.N, _)

/-- The tile coordinate of point `t` is `t % 50`. -/
theorem coords_facts : ∀ t : Fin cfg0.N, ((grid0.coords t) 1).val = t.val % 50 :=
  (by decide +kernel : ∀ t : Fin grid0.N, _)

section Blocks

variable {F : FTy → Type} [FloatOps F]
variable (m : (ℓ : Loc nD τ sig) → Buf (Elt F) ℓ)

/-- The logits block and the ids block of point `t`, the logits array and the reshaped ids array. -/
abbrev xblk (c : Dev nD) (t : Fin cfg0.N) : Vec F S1x1024x640 .f32 := iblk m c 0 t
abbrev iblk1 (c : Dev nD) (t : Fin cfg0.N) : Vec F S1x1x1024 .i32 := iblk m c 1 t
abbrev xarr (c : Dev nD) : Vec F S4x1024x32000 .f32 := V m c main_arg0
abbrev iarr (c : Dev nD) : Vec F S4x1x1024 .i32 := V m c main_v0

/-- The logits array is the first argument as launched. -/
theorem xarr_eq (c : Dev nD) : xarr m c = m ((c.tc : Thread nD τ).loc main_arg0) := V_main_arg0 m c

/-- The logits block of point `50 b + n` at `(0, r, v)` is logit `640 n + v` of row `(b, r)`. -/
theorem xblk_apply (c : Dev nD) (t : Fin cfg0.N) (b : Fin 4) (n : ℕ) (hb : b.val = t.val / 50) (hn : n = t.val % 50)
    (r : Fin 1024) (v : Fin 640) (hv : 640 * n + v.val < 32000) :
    xblk m c t (ix3 0 r v) = xarr m c (ix3 b r ⟨640 * n + v.val, hv⟩) := by
  obtain ⟨e0, e1, e2, -⟩ := idx_facts t
  unfold xblk iblk
  rw [View.read_apply]
  show V m c main_arg0 _ = V m c main_arg0 _
  congr 1
  funext a
  apply Fin.ext
  match a with
  | ⟨0, _⟩ => show win0_0.index t 0 * 1 + 1 * 0 = b.val; omega
  | ⟨1, _⟩ => show win0_0.index t 1 * 1024 + 1 * r.val = r.val; omega
  | ⟨2, _⟩ => show win0_0.index t 2 * 640 + 1 * v.val = 640 * n + v.val; omega

/-- The ids array the region finds is the second argument with a unit axis inserted. -/
theorem iarr_eq (c : Dev nD) :
    iarr m c = shapeCast S4x1x1024 (m ((c.tc : Thread nD τ).loc main_arg1)) shapeCasts_S4x1024_S4x1x1024 := by
  show StableHlo.after hostOps0 (fun b => m (c, b)) (Proc.devRef .tc main_v0) = _
  after_results
  rfl

/-- Inserting the unit axis keeps the row-major position: entry `(b, 0, p)` is entry `(b, p)`. -/
theorem reshape_apply (a : Vec F S4x1024 .i32) (b : Fin 4) (p : Fin 1024) :
    shapeCast S4x1x1024 a shapeCasts_S4x1024_S4x1x1024 (ix3 b 0 p) = a (ix2 b p) :=
  shapeCast_apply a _ _ _ (by
    rw [Shape.rowMajor_val_three, Shape.rowMajor_val_two]
    show b.val * 1024 + p.val = (b.val * 1 + 0) * 1024 + p.val
    omega)

theorem iarr_apply (c : Dev nD) (b : Fin 4) (p : Fin 1024) :
    iarr m c (ix3 b 0 p) = m ((c.tc : Thread nD τ).loc main_arg1) (ix2 b p) := by
  rw [iarr_eq]
  exact reshape_apply _ b p

/-- The ids block of a point of sequence `b` at `(0, 0, p)` is the token id at `(b, p)`. -/
theorem iblk1_apply (c : Dev nD) (t : Fin cfg0.N) (b : Fin 4) (hb : b.val = t.val / 50) (p : Fin 1024) :
    iblk1 m c t (ix3 0 0 p) = iarr m c (ix3 b 0 p) := by
  obtain ⟨-, -, -, e0, e1, e2, -⟩ := idx_facts t
  unfold iblk1 iblk
  rw [View.read_apply]
  show V m c main_v0 _ = V m c main_v0 _
  congr 1
  funext a
  apply Fin.ext
  match a with
  | ⟨0, _⟩ => show win0_1.index t 0 * 1 + 1 * 0 = b.val; omega
  | ⟨1, _⟩ => show win0_1.index t 1 * 1 + 1 * 0 = 0; omega
  | ⟨2, _⟩ => show win0_1.index t 2 * 1024 + 1 * p.val = p.val; omega

/-! ## The output array's blocks -/

/-- An index of the output array is in point `t`'s block iff each coordinate is in the block's range on its axis. -/
theorem mem_blk2 (t : Fin cfg0.N) (i : S4x1024x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v1).slice (win0_2.rect t)).set ↔ _
  rw [View.set_slice_whole, Rect.mem_set_unit]
  exact Iff.rfl

/-- Every index of the output array lies in the block written back after the last tile of its sequence. -/
theorem cover2 (i : S4x1024x1024.Idx) :
    ∃ t : Fin cfg0.N, (cfg0.win 2).flush t = true ∧ i ∈ ((cfg0.win 2).blk t).view.set := by
  have hN : cfg0.N = 200 := N_0
  have h0 : (i 0).val < 4 := (i 0).isLt
  have h1 : (i 1).val < 1024 := (i 1).isLt
  have h2 : (i 2).val < 1024 := (i 2).isLt
  have hlt : 50 * (i 0).val + 49 < cfg0.N := by omega
  obtain ⟨t, ht⟩ : ∃ t : Fin cfg0.N, t.val = 50 * (i 0).val + 49 := ⟨⟨_, hlt⟩, rfl⟩
  refine ⟨t, (flush0_2 t).mpr (by omega), ?_⟩
  rw [mem_blk2]
  obtain ⟨-, -, -, -, -, -, e0, e1, e2⟩ := idx_facts t
  have e0' : win0_2.index t (0 : Fin 3) = (i 0).val := by rw [e0]; omega
  intro a
  match a with
  | ⟨0, _⟩ => show win0_2.index _ (0 : Fin 3) * 1 ≤ (i 0).val ∧ (i 0).val < win0_2.index _ (0 : Fin 3) * 1 + 1; rw [e0']; omega
  | ⟨1, _⟩ => show win0_2.index _ (1 : Fin 3) * 1024 ≤ (i 1).val ∧ (i 1).val < win0_2.index _ (1 : Fin 3) * 1024 + 1024; rw [e1]; omega
  | ⟨2, _⟩ => show win0_2.index _ (2 : Fin 3) * 1024 ≤ (i 2).val ∧ (i 2).val < win0_2.index _ (2 : Fin 3) * 1024 + 1024; rw [e2]; omega

end Blocks

/-! ## What each case of the body leaves: the stored payloads -/

section Pieces

variable {F : FTy → Type} [FloatOps F]

/-- Offsets `(0, 0)` and `(0, 0, 0)`: the body's loads and stores are of whole buffers. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- First tile: the running maximum left is the new maximum over the stored `-∞`. -/
theorem sA0 (c : Dev nD) (i : grid0.Coords)
    (a2 : Memref sig .tc .vmem S1x1024x640 .f32) (h2 : a2.IsWhole) (a3 : Memref sig .tc .vmem S1x1x1024 .i32) (h3 : a3.IsWhole)
    (a4 : Memref sig .tc .vmem S1x1024x1024 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1024 .f32) (h7 : a7.IsWhole)
    (hc0 : cond0_0 i) (hc1 : ¬cond0_1 i) (x0 : Vec F S1x1024x640 .f32) (x1 : Vec F S1x1x1024 .i32) :
    sout0_A_0 c i a2 h2 a3 h3 a4 h4 a5 h5 a6 h6 a7 h7 hc0 hc1 x0 x1 = k0_pay2 (k0_pay8 x0 k0_pay4) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1024x1) hz2]
  simp only [View.readAt_eq_ld, h2.read_unread, h3.read_unread, h5.read_unread, h6.read_unread, h7.read_unread,
    View.ld_unit_zero (S := S1x1024x640) hz3, View.ld_unit_zero (S := S1x1x1024) hz3, View.ld_unit_zero (S := S1024x1) hz2,
    View.ld_unit_zero (S := S1024x1024) hz2,
    View.readCov_unit_zero (S := S1024x1) _ hz2, View.readCov_unit_zero (S := S1024x1024) _ hz2]

set_option maxHeartbeats 1000000 in
/-- First tile: the denominator left is the new denominator over the stored `-∞` and `0`. -/
theorem sA1 (c : Dev nD) (i : grid0.Coords)
    (a2 : Memref sig .tc .vmem S1x1024x640 .f32) (h2 : a2.IsWhole) (a3 : Memref sig .tc .vmem S1x1x1024 .i32) (h3 : a3.IsWhole)
    (a4 : Memref sig .tc .vmem S1x1024x1024 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1024 .f32) (h7 : a7.IsWhole)
    (hc0 : cond0_0 i) (hc1 : ¬cond0_1 i) (x0 : Vec F S1x1024x640 .f32) (x1 : Vec F S1x1x1024 .i32) :
    sout0_A_1 c i a2 h2 a3 h3 a4 h4 a5 h5 a6 h6 a7 h7 hc0 hc1 x0 x1 = k0_pay11 x0 k0_pay4 k0_pay5 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1024x1) hz2]
  simp only [View.readAt_eq_ld, h2.read_unread, h3.read_unread, h5.read_unread, h6.read_unread, h7.read_unread,
    View.ld_unit_zero (S := S1x1024x640) hz3, View.ld_unit_zero (S := S1x1x1024) hz3, View.ld_unit_zero (S := S1024x1) hz2,
    View.ld_unit_zero (S := S1024x1024) hz2,
    View.readCov_unit_zero (S := S1024x1) _ hz2, View.readCov_unit_zero (S := S1024x1024) _ hz2]

set_option maxHeartbeats 1000000 in
/-- First tile: the numerators left are the new numerators over the stored `-∞` and zeros. -/
theorem sA2 (c : Dev nD) (i : grid0.Coords)
    (a2 : Memref sig .tc .vmem S1x1024x640 .f32) (h2 : a2.IsWhole) (a3 : Memref sig .tc .vmem S1x1x1024 .i32) (h3 : a3.IsWhole)
    (a4 : Memref sig .tc .vmem S1x1024x1024 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1024 .f32) (h7 : a7.IsWhole)
    (hc0 : cond0_0 i) (hc1 : ¬cond0_1 i) (x0 : Vec F S1x1024x640 .f32) (x1 : Vec F S1x1x1024 .i32) :
    sout0_A_2 c i a2 h2 a3 h3 a4 h4 a5 h5 a6 h6 a7 h7 hc0 hc1 x0 x1 = k0_pay1 (k0_pay9 x0 k0_pay4) (k0_pay12 i x0 k0_pay4 x1) k0_pay6 := by
  unfold sout0_A_2
  rw [View.read_writes_eq_canon _ _ _ (scover0_A_2 c i a2 h2 a3 h3 a4 h4 a5 h5 a6 h6 a7 h7 hc0 hc1 x0 x1)]
  unfold kernelRun0_A
  dsimp only
  sl_unfold_words
  rw [View.canon_cons_unit_zero (S := S1024x1024) hz2]
  simp only [View.readAt_eq_ld, h2.read_unread, h3.read_unread, h5.read_unread, h6.read_unread, h7.read_unread,
    View.ld_unit_zero (S := S1x1024x640) hz3, View.ld_unit_zero (S := S1x1x1024) hz3, View.ld_unit_zero (S := S1024x1) hz2,
    View.ld_unit_zero (S := S1024x1024) hz2,
    View.readCov_unit_zero (S := S1024x1) _ hz2, View.readCov_unit_zero (S := S1024x1024) _ hz2]

set_option maxHeartbeats 1000000 in
/-- Middle tile: the new maximum over what the point before left. -/
theorem sB0 (c : Dev nD) (i : grid0.Coords)
    (a2 : Memref sig .tc .vmem S1x1024x640 .f32) (h2 : a2.IsWhole) (a3 : Memref sig .tc .vmem S1x1x1024 .i32) (h3 : a3.IsWhole)
    (a4 : Memref sig .tc .vmem S1x1024x1024 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1024 .f32) (h7 : a7.IsWhole)
    (hc0 : ¬cond0_0 i) (hc1 : ¬cond0_1 i) (x0 : Vec F S1x1024x640 .f32) (x1 : Vec F S1x1x1024 .i32)
    (xs0 xs1 : Vec F S1024x1 .f32) (xs2 : Vec F S1024x1024 .f32) :
    sout0_B_0 c i a2 h2 a3 h3 a4 h4 a5 h5 a6 h6 a7 h7 hc0 hc1 x0 x1 xs0 xs1 xs2 = k0_pay2 (k0_pay8 x0 xs0) := by
  unfold sout0_B_0
  rw [View.read_writes_eq_canon _ _ _ (scover0_B_0 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread,
    View.ld_unit_zero (S := S1x1024x640) hz3, View.ld_unit_zero (S := S1x1x1024) hz3, View.ld_unit_zero (S := S1024x1) hz2,
    View.ld_unit_zero (S := S1024x1024) hz2]

set_option maxHeartbeats 1000000 in
/-- Middle tile: the new denominator over what the point before left. -/
theorem sB1 (c : Dev nD) (i : grid0.Coords)
    (a2 : Memref sig .tc .vmem S1x1024x640 .f32) (h2 : a2.IsWhole) (a3 : Memref sig .tc .vmem S1x1x1024 .i32) (h3 : a3.IsWhole)
    (a4 : Memref sig .tc .vmem S1x1024x1024 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1024 .f32) (h7 : a7.IsWhole)
    (hc0 : ¬cond0_0 i) (hc1 : ¬cond0_1 i) (x0 : Vec F S1x1024x640 .f32) (x1 : Vec F S1x1x1024 .i32)
    (xs0 xs1 : Vec F S1024x1 .f32) (xs2 : Vec F S1024x1024 .f32) :
    sout0_B_1 c i a2 h2 a3 h3 a4 h4 a5 h5 a6 h6 a7 h7 hc0 hc1 x0 x1 xs0 xs1 xs2 = k0_pay11 x0 xs0 xs1 := by
  unfold sout0_B_1
  rw [View.read_writes_eq_canon _ _ _ (scover0_B_1 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread,
    View.ld_unit_zero (S := S1x1024x640) hz3, View.ld_unit_zero (S := S1x1x1024) hz3, View.ld_unit_zero (S := S1024x1) hz2,
    View.ld_unit_zero (S := S1024x1024) hz2]

set_option maxHeartbeats 1000000 in
/-- Middle tile: the new numerators over what the point before left. -/
theorem sB2 (c : Dev nD) (i : grid0.Coords)
    (a2 : Memref sig .tc .vmem S1x1024x640 .f32) (h2 : a2.IsWhole) (a3 : Memref sig .tc .vmem S1x1x1024 .i32) (h3 : a3.IsWhole)
    (a4 : Memref sig .tc .vmem S1x1024x1024 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1024 .f32) (h7 : a7.IsWhole)
    (hc0 : ¬cond0_0 i) (hc1 : ¬cond0_1 i) (x0 : Vec F S1x1024x640 .f32) (x1 : Vec F S1x1x1024 .i32)
    (xs0 xs1 : Vec F S1024x1 .f32) (xs2 : Vec F S1024x1024 .f32) :
    sout0_B_2 c i a2 h2 a3 h3 a4 h4 a5 h5 a6 h6 a7 h7 hc0 hc1 x0 x1 xs0 xs1 xs2 = k0_pay1 (k0_pay9 x0 xs0) (k0_pay12 i x0 xs0 x1) xs2 := by
  unfold sout0_B_2
  rw [View.read_writes_eq_canon _ _ _ (scover0_B_2 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread,
    View.ld_unit_zero (S := S1x1024x640) hz3, View.ld_unit_zero (S := S1x1x1024) hz3, View.ld_unit_zero (S := S1024x1) hz2,
    View.ld_unit_zero (S := S1024x1024) hz2]

set_option maxHeartbeats 1000000 in
/-- Last tile: the new maximum over what the point before left. -/
theorem sC0 (c : Dev nD) (i : grid0.Coords)
    (a2 : Memref sig .tc .vmem S1x1024x640 .f32) (h2 : a2.IsWhole) (a3 : Memref sig .tc .vmem S1x1x1024 .i32) (h3 : a3.IsWhole)
    (a4 : Memref sig .tc .vmem S1x1024x1024 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1024 .f32) (h7 : a7.IsWhole)
    (hc0 : ¬cond0_0 i) (hc1 : cond0_1 i) (x0 : Vec F S1x1024x640 .f32) (x1 : Vec F S1x1x1024 .i32)
    (xs0 xs1 : Vec F S1024x1 .f32) (xs2 : Vec F S1024x1024 .f32) :
    sout0_C_0 c i a2 h2 a3 h3 a4 h4 a5 h5 a6 h6 a7 h7 hc0 hc1 x0 x1 xs0 xs1 xs2 = k0_pay2 (k0_pay8 x0 xs0) := by
  unfold sout0_C_0
  rw [View.read_writes_eq_canon _ _ _ (scover0_C_0 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread,
    View.ld_unit_zero (S := S1x1024x640) hz3, View.ld_unit_zero (S := S1x1x1024) hz3, View.ld_unit_zero (S := S1024x1) hz2,
    View.ld_unit_zero (S := S1024x1024) hz2,
    View.readCov_unit_zero (S := S1024x1) _ hz2, View.readCov_unit_zero (S := S1024x1024) _ hz2]

set_option maxHeartbeats 1000000 in
/-- Last tile: the new denominator over what the point before left. -/
theorem sC1 (c : Dev nD) (i : grid0.Coords)
    (a2 : Memref sig .tc .vmem S1x1024x640 .f32) (h2 : a2.IsWhole) (a3 : Memref sig .tc .vmem S1x1x1024 .i32) (h3 : a3.IsWhole)
    (a4 : Memref sig .tc .vmem S1x1024x1024 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1024 .f32) (h7 : a7.IsWhole)
    (hc0 : ¬cond0_0 i) (hc1 : cond0_1 i) (x0 : Vec F S1x1024x640 .f32) (x1 : Vec F S1x1x1024 .i32)
    (xs0 xs1 : Vec F S1024x1 .f32) (xs2 : Vec F S1024x1024 .f32) :
    sout0_C_1 c i a2 h2 a3 h3 a4 h4 a5 h5 a6 h6 a7 h7 hc0 hc1 x0 x1 xs0 xs1 xs2 = k0_pay11 x0 xs0 xs1 := by
  unfold sout0_C_1
  rw [View.read_writes_eq_canon _ _ _ (scover0_C_1 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread,
    View.ld_unit_zero (S := S1x1024x640) hz3, View.ld_unit_zero (S := S1x1x1024) hz3, View.ld_unit_zero (S := S1024x1) hz2,
    View.ld_unit_zero (S := S1024x1024) hz2,
    View.readCov_unit_zero (S := S1024x1) _ hz2, View.readCov_unit_zero (S := S1024x1024) _ hz2]

set_option maxHeartbeats 1000000 in
/-- Last tile: the new numerators over what the point before left. -/
theorem sC2 (c : Dev nD) (i : grid0.Coords)
    (a2 : Memref sig .tc .vmem S1x1024x640 .f32) (h2 : a2.IsWhole) (a3 : Memref sig .tc .vmem S1x1x1024 .i32) (h3 : a3.IsWhole)
    (a4 : Memref sig .tc .vmem S1x1024x1024 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1024 .f32) (h7 : a7.IsWhole)
    (hc0 : ¬cond0_0 i) (hc1 : cond0_1 i) (x0 : Vec F S1x1024x640 .f32) (x1 : Vec F S1x1x1024 .i32)
    (xs0 xs1 : Vec F S1024x1 .f32) (xs2 : Vec F S1024x1024 .f32) :
    sout0_C_2 c i a2 h2 a3 h3 a4 h4 a5 h5 a6 h6 a7 h7 hc0 hc1 x0 x1 xs0 xs1 xs2 = k0_pay1 (k0_pay9 x0 xs0) (k0_pay12 i x0 xs0 x1) xs2 := by
  unfold sout0_C_2
  rw [View.read_writes_eq_canon _ _ _ (scover0_C_2 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread,
    View.ld_unit_zero (S := S1x1024x640) hz3, View.ld_unit_zero (S := S1x1x1024) hz3, View.ld_unit_zero (S := S1024x1) hz2,
    View.ld_unit_zero (S := S1024x1024) hz2,
    View.readCov_unit_zero (S := S1024x1) _ hz2, View.readCov_unit_zero (S := S1024x1024) _ hz2]

set_option maxHeartbeats 1000000 in
/-- Last tile: the output block is the new numerators over the new denominator. -/
theorem oC2 (c : Dev nD) (i : grid0.Coords)
    (a2 : Memref sig .tc .vmem S1x1024x640 .f32) (h2 : a2.IsWhole) (a3 : Memref sig .tc .vmem S1x1x1024 .i32) (h3 : a3.IsWhole)
    (a4 : Memref sig .tc .vmem S1x1024x1024 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1024 .f32) (h7 : a7.IsWhole)
    (hc0 : ¬cond0_0 i) (hc1 : cond0_1 i) (x0 : Vec F S1x1024x640 .f32) (x1 : Vec F S1x1x1024 .i32)
    (xs0 xs1 : Vec F S1024x1 .f32) (xs2 : Vec F S1024x1024 .f32) :
    out0_C_2 c i a2 h2 a3 h3 a4 h4 a5 h5 a6 h6 a7 h7 hc0 hc1 x0 x1 xs0 xs1 xs2 = k0_pay3 (k0_pay1 (k0_pay9 x0 xs0) (k0_pay12 i x0 xs0 x1) xs2) (k0_pay11 x0 xs0 xs1) := by
  unfold out0_C_2
  rw [View.read_writes_eq_canon _ _ _ (cover0_C_2 c i a2 h2 a3 h3 a4 h4 a5 h5 a6 h6 a7 h7 hc0 hc1 x0 x1 xs0 xs1 xs2)]
  unfold kernelRun0_C
  dsimp only
  sl_unfold_words
  rw [View.canon_unit_zero hz3]
  simp only [View.readAt_eq_ld, h2.read_unread, h3.read_unread, h5.read_unread, h6.read_unread, h7.read_unread,
    View.ld_unit_zero (S := S1x1024x640) hz3, View.ld_unit_zero (S := S1x1x1024) hz3, View.ld_unit_zero (S := S1024x1) hz2,
    View.ld_unit_zero (S := S1024x1024) hz2,
    View.readCov_unit_zero (S := S1024x1) _ hz2, View.readCov_unit_zero (S := S1024x1024) _ hz2]

end Pieces

/-! ## The recurrence, buffer by buffer -/

/-- Three scratch buffers hold, row by row, the states `s r` of the recurrence. -/
def Holds (S0 S1 : Vec Ideal S1024x1 .f32) (S2 : Vec Ideal S1024x1024 .f32) (s : Fin 1024 → Spec.St) : Prop :=
  ∀ r : Fin 1024, S0 (ix2 r 0) = (s r).m ∧ S1 (ix2 r 0) = (s r).l ∧ ∀ p : Fin 1024, S2 (ix2 r p) = (s r).acc p

/-- The splats stored before the first tile are the initial state. -/
theorem holds_init : Holds (k0_pay4 (F := Ideal)) (k0_pay5 (F := Ideal)) (k0_pay6 (F := Ideal)) (fun _ => Spec.St.init) :=
  fun r => ⟨pay4_eq _, pay5_eq _, fun p => pay6_eq _⟩

/-- One tile: what the body stores into the three scratch buffers is one step of the recurrence, row by row. -/
theorem holds_step (X : Vec Ideal S1x1024x640 .f32) (I : Vec Ideal S1x1x1024 .i32) (i : grid0.Coords)
    (x : Spec.SX.Idx → EReal) (ids : Spec.SI.Idx → BitVec 32) (b : Fin 4) (n : ℕ) (hn : (i 1).val = n) (hn50 : n < 50)
    (hX : ∀ (r : Fin 1024) (v : Fin 640), X (ix3 0 r v) = Spec.tileX x b r n v)
    (hI : ∀ p : Fin 1024, I (ix3 0 0 p) = ids (ix2 b p))
    (S0 S1 : Vec Ideal S1024x1 .f32) (S2 : Vec Ideal S1024x1024 .f32) (s : Fin 1024 → Spec.St) (hs : Holds S0 S1 S2 s) :
    Holds (k0_pay2 (k0_pay8 X S0)) (k0_pay11 X S0 S1) (k0_pay1 (k0_pay9 X S0) (k0_pay12 i X S0 I) S2)
      (fun r => Spec.step x ids b r n (s r)) := by
  intro r
  obtain ⟨hm, hl, ha⟩ := hs r
  exact ⟨(pay2_eq _ _).trans (pay8_eq X S0 x ids b n (s r) r (hX r) hm),
    pay11_eq X S0 S1 x ids b n (s r) r (hX r) hm hl,
    fun p => pay1_eq X I S0 S2 i x ids b n (s r) r p hn hn50 (hX r) hI hm ha⟩

/-- After the last tile the quotient block holds the probabilities of the tokens. -/
theorem quotient_last (x : Spec.SX.Idx → EReal) (ids : Spec.SI.Idx → BitVec 32) (h : Spec.Dom x ids) (b : Fin 4)
    (S0 S1 : Vec Ideal S1024x1 .f32) (S2 : Vec Ideal S1024x1024 .f32)
    (hs : Holds S0 S1 S2 (fun r => Spec.run x ids b r 49)) (r p : Fin 1024) :
    k0_pay3 S2 S1 (ix3 0 r p) = Spec.gathAt x ids b r p := by
  obtain ⟨-, hl, ha⟩ := hs r
  rw [pay3_eq, ha p, hl]
  exact Spec.run_final h b r p

/-! ## The invariant of the grid -/

section Run

variable (m : (ℓ : Loc nD τ sig) → Buf (Elt Ideal) ℓ)

/-- The logits and the token ids as launched. -/
abbrev X (c : Dev nD) : Spec.SX.Idx → EReal := m ((c.tc : Thread nD τ).loc main_arg0)
abbrev IDS (c : Dev nD) : Spec.SI.Idx → BitVec 32 := m ((c.tc : Thread nD τ).loc main_arg1)

/-- The logits block of point `50 b + n` is tile `n` of the rows of sequence `b`. -/
theorem tile_logits (c : Dev nD) (t : Fin cfg0.N) (b : Fin 4) (n : ℕ) (hb : b.val = t.val / 50) (hn : n = t.val % 50)
    (r : Fin 1024) (v : Fin 640) : xblk m c t (ix3 0 r v) = Spec.tileX (X m c) b r n v := by
  have hN : cfg0.N = 200 := N_0
  have hv : 640 * n + v.val < 32000 := by have := v.isLt; have := t.isLt; omega
  rw [xblk_apply m c t b n hb hn r v hv, xarr_eq]
  exact congrArg (fun q => X m c (ix3 b r q)) (Fin.ext (Nat.mod_eq_of_lt hv).symm)

/-- The ids block of a point of sequence `b` is the token ids of sequence `b`. -/
theorem tile_ids (c : Dev nD) (t : Fin cfg0.N) (b : Fin 4) (hb : b.val = t.val / 50) (p : Fin 1024) :
    iblk1 m c t (ix3 0 0 p) = IDS m c (ix2 b p) :=
  (iblk1_apply m c t b hb p).trans (iarr_apply m c b p)

/-- After point `50 b + n` the three scratch buffers hold the recurrence's state after tiles `0 … n` of sequence `b`. -/
theorem scratch_holds (c : Dev nD) : ∀ (k : ℕ) (t : Fin cfg0.N), t.val = k → ∀ (b : Fin 4) (n : ℕ), b.val = t.val / 50 → n = t.val % 50 →
    Holds (outsAt0 m c t.val t.isLt).2.1 (outsAt0 m c t.val t.isLt).2.2.1 (outsAt0 m c t.val t.isLt).2.2.2
      (fun r => Spec.run (X m c) (IDS m c) b r n) := by
  have hN : cfg0.N = 200 := N_0
  -- a first tile, at any point
  have first : ∀ (t : Fin cfg0.N) (b : Fin 4) (n : ℕ), b.val = t.val / 50 → n = t.val % 50 → t.val % 50 = 0 →
      Holds (outsAt0 m c t.val t.isLt).2.1 (outsAt0 m c t.val t.isLt).2.2.1 (outsAt0 m c t.val t.isLt).2.2.2
        (fun r => Spec.run (X m c) (IDS m c) b r n) := by
    intro t b n hb hn h0
    have h1 : ¬t.val % 50 = 49 := by omega
    obtain rfl : n = 0 := by omega
    rw [outsAt0_A m c t h0 h1]
    dsimp only
    rw [sA0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
      sA1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
      sA2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)]
    exact holds_step (xblk m c t) (iblk1 m c t) (grid0.coords t) (X m c) (IDS m c) b 0 ((coords_facts t).trans h0) (by norm_num)
      (tile_logits m c t b 0 hb hn) (tile_ids m c t b hb) (k0_pay4 (F := Ideal)) (k0_pay5 (F := Ideal)) (k0_pay6 (F := Ideal)) (fun _ => Spec.St.init) holds_init
  intro k
  induction k with
  | zero => intro t ht b n hb hn; exact first t b n hb hn (by omega)
  | succ k ih =>
    intro t ht b n hb hn
    by_cases h0 : t.val % 50 = 0
    · exact first t b n hb hn h0
    · have hk : k < cfg0.N := by have := t.isLt; omega
      obtain ⟨n', rfl⟩ : ∃ n', n = n' + 1 := ⟨n - 1, by omega⟩
      have ih' := ih ⟨k, hk⟩ rfl b n' (by show b.val = k / 50; omega) (by show n' = k % 50; omega)
      have hk1 : t.val - 1 = k := by omega
      have hn50 : n' + 1 < 50 := by omega
      by_cases h1 : t.val % 50 = 49
      · rw [outsAt0_C m c t h0 h1]
        dsimp only
        rw [sC0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) _ _ _,
          sC1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) _ _ _,
          sC2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) _ _ _]
        simp only [hk1]
        exact holds_step (xblk m c t) (iblk1 m c t) (grid0.coords t) (X m c) (IDS m c) b (n' + 1) ((coords_facts t).trans hn.symm) hn50
          (tile_logits m c t b (n' + 1) hb hn) (tile_ids m c t b hb) _ _ _ (fun r => Spec.run (X m c) (IDS m c) b r n') ih'
      · rw [outsAt0_B m c t h0 h1]
        dsimp only
        rw [sB0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) _ _ _,
          sB1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) _ _ _,
          sB2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) _ _ _]
        simp only [hk1]
        exact holds_step (xblk m c t) (iblk1 m c t) (grid0.coords t) (X m c) (IDS m c) b (n' + 1) ((coords_facts t).trans hn.symm) hn50
          (tile_logits m c t b (n' + 1) hb hn) (tile_ids m c t b hb) _ _ _ (fun r => Spec.run (X m c) (IDS m c) b r n') ih'

/-- A block that holds, at `(0, r, p)`, entry `(b, r, p)` of an array is the block of that array which a point of
    sequence `b` writes back: rows `b` of the output array. -/
theorem block_eq (G : Vec Ideal S4x1024x1024 .f32) (t : Fin cfg0.N) (b : Fin 4) (hb : b.val = t.val / 50)
    (A : Vec Ideal S1x1024x1024 .f32) (hA : ∀ r p : Fin 1024, A (ix3 0 r p) = G (ix3 b r p)) :
    (cfg0.win 2).cut (grid0.coords t) A = ((cfg0.win 2).blk t).view.read (Elt Ideal) G := by
  obtain ⟨-, -, -, -, -, -, e0, e1, e2⟩ := idx_facts t
  funext y
  have h0 : (y 0).val < 1 := (y 0).isLt
  have h1 : (y 1).val < 1024 := (y 1).isLt
  have h2 : (y 2).val < 1024 := (y 2).isLt
  rw [View.read_apply]
  show A _ = G _
  have e1' : (cfg0.win 2).xinj (grid0.coords t) y = ix3 0 ⟨(y 1).val, h1⟩ ⟨(y 2).val, h2⟩ := by
    funext a
    apply Fin.ext
    match a with
    | ⟨0, _⟩ => show (y 0).val = 0; omega
    | ⟨1, _⟩ => rfl
    | ⟨2, _⟩ => rfl
  have e2' : ((cfg0.win 2).blk t).view.emb y = (ix3 b ⟨(y 1).val, h1⟩ ⟨(y 2).val, h2⟩ : S4x1024x1024.Idx) := by
    funext a
    apply Fin.ext
    match a with
    | ⟨0, _⟩ => show win0_2.index t 0 * 1 + 1 * (y 0).val = b.val; omega
    | ⟨1, _⟩ => show win0_2.index t 1 * 1024 + 1 * (y 1).val = (y 1).val; omega
    | ⟨2, _⟩ => show win0_2.index t 2 * 1024 + 1 * (y 2).val = (y 2).val; omega
  rw [e1', e2']
  exact hA _ _

/-- What a point writes back (the last tile of a sequence) is its block of the gathered softmax. -/
theorem flushed_eq (c : Dev nD) (h : Spec.Dom (X m c) (IDS m c)) (t : Fin cfg0.N) (hf : (cfg0.win 2).flush t = true) :
    (dats m 0 c).flushed 2 t = ((cfg0.win 2).blk t).view.read (Elt Ideal) (Spec.gath (X m c) (IDS m c)) := by
  have hN : cfg0.N = 200 := N_0
  have h1 : t.val % 50 = 49 := (flush0_2 t).mp hf
  have h0 : ¬t.val % 50 = 0 := by omega
  obtain ⟨b, hb⟩ : ∃ b : Fin 4, b.val = t.val / 50 := ⟨⟨t.val / 50, by have := t.isLt; omega⟩, rfl⟩
  have hs := scratch_holds m c t.val t rfl b 49 hb h1.symm
  rw [outsAt0_C m c t h0 h1] at hs
  dsimp only at hs
  rw [sC0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) _ _ _,
    sC1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) _ _ _,
    sC2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) _ _ _] at hs
  show (cfg0.win 2).cut (grid0.coords t) ((dats m 0 c).after 2 t) = _
  rw [after0_2, outsAt0_C m c t h0 h1]
  dsimp only
  rw [oC2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) _ _ _]
  exact block_eq (Spec.gath (X m c) (IDS m c)) t b hb _ (quotient_last (X m c) (IDS m c) h b _ _ _ hs)

/-- The output array after the run is the gathered softmax of the launched logits and token ids. -/
theorem arrAt_eq_gath (m : (ℓ : Loc nD τ sig) → Buf (Elt Ideal) ℓ) (c : Dev nD)
    (h : Spec.Dom (m ((c.tc : Thread nD τ).loc main_arg0)) (m ((c.tc : Thread nD τ).loc main_arg1))) :
    (Hand.dats m 0 c).arrAt 2 cfg0.N = Spec.gath (m ((c.tc : Thread nD τ).loc main_arg0)) (m ((c.tc : Thread nD τ).loc main_arg1)) :=
  (Hand.dats m 0 c).arrAt_eq_of_cover 2 (Spec.gath (X m c) (IDS m c)) (flushed_eq m c h) cover2

end Run

end Cert.KernelIdeal.KValue

end
-- ==== Proof.RefCasts.lean ====
import proofs.«410189_j28759101014346_2_alg».proof.ReferenceIdeal
import Idealize.ShloMosaic.Lib.StableHlo.Run

noncomputable section

namespace Cert.ReferenceIdeal.Casts

open Cert.ReferenceIdeal Idealize.ShloMosaic Idealize.ShloMosaic.TcCoe Idealize.SL.Sem Idealize.ShloMosaic.StableHlo

variable {F : FTy → Type} [FloatOps F]

/-- Transporting a value along an equation of types and back along its converse is the value. -/
theorem cast_cast_cancel {α β : Sort _} (h : α = β) (h' : β = α) (a : α) : cast h' (cast h a) = a := by
  cases h; rfl

/-- A concatenation of four operands depends only on the operands' contents. -/
theorem concat4_congr {α : Type} (t : Shape) (a : Fin t.rank) (s0 s1 s2 s3 : Shape)
    (x0 y0 : s0.Idx → α) (x1 y1 : s1.Idx → α) (x2 y2 : s2.Idx → α) (x3 y3 : s3.Idx → α)
    (h : Shape.Concatenates [s0, s1, s2, s3] t a)
    (e0 : x0 = y0) (e1 : x1 = y1) (e2 : x2 = y2) (e3 : x3 = y3) :
    concatenate t a [⟨s0, x0⟩, ⟨s1, x1⟩, ⟨s2, x2⟩, ⟨s3, x3⟩] h = concatenate t a [⟨s0, y0⟩, ⟨s1, y1⟩, ⟨s2, y2⟩, ⟨s3, y3⟩] h := by
  subst e0 e1 e2 e3; rfl

/-! A typed reference built at a literal reference's own type: the cast of a value to the buffer's type, and of the
    buffer's contents back to the value's type, is the value (the two types are the same type). One pair per reference. -/
theorem toBuf_main_cst_5 (p1 : main_cst_5.ty = ⟨S_, .f32⟩) (p2 : main_cst_5.space ≠ .host) (p3 : main_cst_5.isScoped = false) (v : (⟨S_, .f32⟩ : BufTy).Contents (Elt F)) :
    (TRef.of (sig := sig) (T := ⟨S_, .f32⟩) main_cst_5 p1 p2 p3).toBuf v = v := rfl
theorem ofBuf_main_cst_5 (p1 : main_cst_5.ty = ⟨S_, .f32⟩) (p2 : main_cst_5.space ≠ .host) (p3 : main_cst_5.isScoped = false) (v : main_cst_5.ty.Contents (Elt F)) :
    (TRef.of (sig := sig) (T := ⟨S_, .f32⟩) main_cst_5 p1 p2 p3).ofBuf v = v := rfl
theorem toBuf_main_call0_v0 (p1 : main_call0_v0.ty = ⟨S_, .f32⟩) (p2 : main_call0_v0.space ≠ .host) (p3 : main_call0_v0.isScoped = false) (v : (⟨S_, .f32⟩ : BufTy).Contents (Elt F)) :
    (TRef.of (sig := sig) (T := ⟨S_, .f32⟩) main_call0_v0 p1 p2 p3).toBuf v = v := rfl
theorem ofBuf_main_call0_v0 (p1 : main_call0_v0.ty = ⟨S_, .f32⟩) (p2 : main_call0_v0.space ≠ .host) (p3 : main_call0_v0.isScoped = false) (v : main_call0_v0.ty.Contents (Elt F)) :
    (TRef.of (sig := sig) (T := ⟨S_, .f32⟩) main_call0_v0 p1 p2 p3).ofBuf v = v := rfl
theorem toBuf_main_call0_v1 (p1 : main_call0_v1.ty = ⟨S1024x1024, .f32⟩) (p2 : main_call0_v1.space ≠ .host) (p3 : main_call0_v1.isScoped = false) (v : (⟨S1024x1024, .f32⟩ : BufTy).Contents (Elt F)) :
    (TRef.of (sig := sig) (T := ⟨S1024x1024, .f32⟩) main_call0_v1 p1 p2 p3).toBuf v = v := rfl
theorem ofBuf_main_call0_v1 (p1 : main_call0_v1.ty = ⟨S1024x1024, .f32⟩) (p2 : main_call0_v1.space ≠ .host) (p3 : main_call0_v1.isScoped = false) (v : main_call0_v1.ty.Contents (Elt F)) :
    (TRef.of (sig := sig) (T := ⟨S1024x1024, .f32⟩) main_call0_v1 p1 p2 p3).ofBuf v = v := rfl
theorem toBuf_main_v26 (p1 : main_v26.ty = ⟨S1024x1024, .i1⟩) (p2 : main_v26.space ≠ .host) (p3 : main_v26.isScoped = false) (v : (⟨S1024x1024, .i1⟩ : BufTy).Contents (Elt F)) :
    (TRef.of (sig := sig) (T := ⟨S1024x1024, .i1⟩) main_v26 p1 p2 p3).toBuf v = v := rfl
theorem ofBuf_main_v26 (p1 : main_v26.ty = ⟨S1024x1024, .i1⟩) (p2 : main_v26.space ≠ .host) (p3 : main_v26.isScoped = false) (v : main_v26.ty.Contents (Elt F)) :
    (TRef.of (sig := sig) (T := ⟨S1024x1024, .i1⟩) main_v26 p1 p2 p3).ofBuf v = v := rfl
theorem toBuf_main_v36 (p1 : main_v36.ty = ⟨S1024x1024, .f32⟩) (p2 : main_v36.space ≠ .host) (p3 : main_v36.isScoped = false) (v : (⟨S1024x1024, .f32⟩ : BufTy).Contents (Elt F)) :
    (TRef.of (sig := sig) (T := ⟨S1024x1024, .f32⟩) main_v36 p1 p2 p3).toBuf v = v := rfl
theorem ofBuf_main_v36 (p1 : main_v36.ty = ⟨S1024x1024, .f32⟩) (p2 : main_v36.space ≠ .host) (p3 : main_v36.isScoped = false) (v : main_v36.ty.Contents (Elt F)) :
    (TRef.of (sig := sig) (T := ⟨S1024x1024, .f32⟩) main_v36 p1 p2 p3).ofBuf v = v := rfl
theorem toBuf_main_v37 (p1 : main_v37.ty = ⟨S1024x1024, .f32⟩) (p2 : main_v37.space ≠ .host) (p3 : main_v37.isScoped = false) (v : (⟨S1024x1024, .f32⟩ : BufTy).Contents (Elt F)) :
    (TRef.of (sig := sig) (T := ⟨S1024x1024, .f32⟩) main_v37 p1 p2 p3).toBuf v = v := rfl
theorem ofBuf_main_v37 (p1 : main_v37.ty = ⟨S1024x1024, .f32⟩) (p2 : main_v37.space ≠ .host) (p3 : main_v37.isScoped = false) (v : main_v37.ty.Contents (Elt F)) :
    (TRef.of (sig := sig) (T := ⟨S1024x1024, .f32⟩) main_v37 p1 p2 p3).ofBuf v = v := rfl
theorem toBuf_main_call1_c (p1 : main_call1_c.ty = ⟨S_, .i32⟩) (p2 : main_call1_c.space ≠ .host) (p3 : main_call1_c.isScoped = false) (v : (⟨S_, .i32⟩ : BufTy).Contents (Elt F)) :
    (TRef.of (sig := sig) (T := ⟨S_, .i32⟩) main_call1_c p1 p2 p3).toBuf v = v := rfl
theorem ofBuf_main_call1_c (p1 : main_call1_c.ty = ⟨S_, .i32⟩) (p2 : main_call1_c.space ≠ .host) (p3 : main_call1_c.isScoped = false) (v : main_call1_c.ty.Contents (Elt F)) :
    (TRef.of (sig := sig) (T := ⟨S_, .i32⟩) main_call1_c p1 p2 p3).ofBuf v = v := rfl
theorem toBuf_main_call1_v0 (p1 : main_call1_v0.ty = ⟨S4x1024x1024, .i32⟩) (p2 : main_call1_v0.space ≠ .host) (p3 : main_call1_v0.isScoped = false) (v : (⟨S4x1024x1024, .i32⟩ : BufTy).Contents (Elt F)) :
    (TRef.of (sig := sig) (T := ⟨S4x1024x1024, .i32⟩) main_call1_v0 p1 p2 p3).toBuf v = v := rfl
theorem ofBuf_main_call1_v0 (p1 : main_call1_v0.ty = ⟨S4x1024x1024, .i32⟩) (p2 : main_call1_v0.space ≠ .host) (p3 : main_call1_v0.isScoped = false) (v : main_call1_v0.ty.Contents (Elt F)) :
    (TRef.of (sig := sig) (T := ⟨S4x1024x1024, .i32⟩) main_call1_v0 p1 p2 p3).ofBuf v = v := rfl
theorem toBuf_main_v39 (p1 : main_v39.ty = ⟨S4x1024x1024, .i32⟩) (p2 : main_v39.space ≠ .host) (p3 : main_v39.isScoped = false) (v : (⟨S4x1024x1024, .i32⟩ : BufTy).Contents (Elt F)) :
    (TRef.of (sig := sig) (T := ⟨S4x1024x1024, .i32⟩) main_v39 p1 p2 p3).toBuf v = v := rfl
theorem ofBuf_main_v39 (p1 : main_v39.ty = ⟨S4x1024x1024, .i32⟩) (p2 : main_v39.space ≠ .host) (p3 : main_v39.isScoped = false) (v : main_v39.ty.Contents (Elt F)) :
    (TRef.of (sig := sig) (T := ⟨S4x1024x1024, .i32⟩) main_v39 p1 p2 p3).ofBuf v = v := rfl
theorem toBuf_main_call1_v1 (p1 : main_call1_v1.ty = ⟨S4x1024x1024, .i1⟩) (p2 : main_call1_v1.space ≠ .host) (p3 : main_call1_v1.isScoped = false) (v : (⟨S4x1024x1024, .i1⟩ : BufTy).Contents (Elt F)) :
    (TRef.of (sig := sig) (T := ⟨S4x1024x1024, .i1⟩) main_call1_v1 p1 p2 p3).toBuf v = v := rfl
theorem ofBuf_main_call1_v1 (p1 : main_call1_v1.ty = ⟨S4x1024x1024, .i1⟩) (p2 : main_call1_v1.space ≠ .host) (p3 : main_call1_v1.isScoped = false) (v : main_call1_v1.ty.Contents (Elt F)) :
    (TRef.of (sig := sig) (T := ⟨S4x1024x1024, .i1⟩) main_call1_v1 p1 p2 p3).ofBuf v = v := rfl
theorem toBuf_main_call1_c_0 (p1 : main_call1_c_0.ty = ⟨S_, .i32⟩) (p2 : main_call1_c_0.space ≠ .host) (p3 : main_call1_c_0.isScoped = false) (v : (⟨S_, .i32⟩ : BufTy).Contents (Elt F)) :
    (TRef.of (sig := sig) (T := ⟨S_, .i32⟩) main_call1_c_0 p1 p2 p3).toBuf v = v := rfl
theorem ofBuf_main_call1_c_0 (p1 : main_call1_c_0.ty = ⟨S_, .i32⟩) (p2 : main_call1_c_0.space ≠ .host) (p3 : main_call1_c_0.isScoped = false) (v : main_call1_c_0.ty.Contents (Elt F)) :
    (TRef.of (sig := sig) (T := ⟨S_, .i32⟩) main_call1_c_0 p1 p2 p3).ofBuf v = v := rfl
theorem toBuf_main_call1_v2 (p1 : main_call1_v2.ty = ⟨S4x1024x1024, .i32⟩) (p2 : main_call1_v2.space ≠ .host) (p3 : main_call1_v2.isScoped = false) (v : (⟨S4x1024x1024, .i32⟩ : BufTy).Contents (Elt F)) :
    (TRef.of (sig := sig) (T := ⟨S4x1024x1024, .i32⟩) main_call1_v2 p1 p2 p3).toBuf v = v := rfl
theorem ofBuf_main_call1_v2 (p1 : main_call1_v2.ty = ⟨S4x1024x1024, .i32⟩) (p2 : main_call1_v2.space ≠ .host) (p3 : main_call1_v2.isScoped = false) (v : main_call1_v2.ty.Contents (Elt F)) :
    (TRef.of (sig := sig) (T := ⟨S4x1024x1024, .i32⟩) main_call1_v2 p1 p2 p3).ofBuf v = v := rfl
theorem toBuf_main_call1_v3 (p1 : main_call1_v3.ty = ⟨S4x1024x1024, .i32⟩) (p2 : main_call1_v3.space ≠ .host) (p3 : main_call1_v3.isScoped = false) (v : (⟨S4x1024x1024, .i32⟩ : BufTy).Contents (Elt F)) :
    (TRef.of (sig := sig) (T := ⟨S4x1024x1024, .i32⟩) main_call1_v3 p1 p2 p3).toBuf v = v := rfl
theorem ofBuf_main_call1_v3 (p1 : main_call1_v3.ty = ⟨S4x1024x1024, .i32⟩) (p2 : main_call1_v3.space ≠ .host) (p3 : main_call1_v3.isScoped = false) (v : main_call1_v3.ty.Contents (Elt F)) :
    (TRef.of (sig := sig) (T := ⟨S4x1024x1024, .i32⟩) main_call1_v3 p1 p2 p3).ofBuf v = v := rfl
theorem toBuf_main_call1_v4 (p1 : main_call1_v4.ty = ⟨S4x1024x1024, .i32⟩) (p2 : main_call1_v4.space ≠ .host) (p3 : main_call1_v4.isScoped = false) (v : (⟨S4x1024x1024, .i32⟩ : BufTy).Contents (Elt F)) :
    (TRef.of (sig := sig) (T := ⟨S4x1024x1024, .i32⟩) main_call1_v4 p1 p2 p3).toBuf v = v := rfl
theorem ofBuf_main_call1_v4 (p1 : main_call1_v4.ty = ⟨S4x1024x1024, .i32⟩) (p2 : main_call1_v4.space ≠ .host) (p3 : main_call1_v4.isScoped = false) (v : main_call1_v4.ty.Contents (Elt F)) :
    (TRef.of (sig := sig) (T := ⟨S4x1024x1024, .i32⟩) main_call1_v4 p1 p2 p3).ofBuf v = v := rfl
theorem toBuf_main_call1_v5 (p1 : main_call1_v5.ty = ⟨S4x1024x1024x1, .i32⟩) (p2 : main_call1_v5.space ≠ .host) (p3 : main_call1_v5.isScoped = false) (v : (⟨S4x1024x1024x1, .i32⟩ : BufTy).Contents (Elt F)) :
    (TRef.of (sig := sig) (T := ⟨S4x1024x1024x1, .i32⟩) main_call1_v5 p1 p2 p3).toBuf v = v := rfl
theorem ofBuf_main_call1_v5 (p1 : main_call1_v5.ty = ⟨S4x1024x1024x1, .i32⟩) (p2 : main_call1_v5.space ≠ .host) (p3 : main_call1_v5.isScoped = false) (v : main_call1_v5.ty.Contents (Elt F)) :
    (TRef.of (sig := sig) (T := ⟨S4x1024x1024x1, .i32⟩) main_call1_v5 p1 p2 p3).ofBuf v = v := rfl
theorem toBuf_main_call1_c_1 (p1 : main_call1_c_1.ty = ⟨S1, .i32⟩) (p2 : main_call1_c_1.space ≠ .host) (p3 : main_call1_c_1.isScoped = false) (v : (⟨S1, .i32⟩ : BufTy).Contents (Elt F)) :
    (TRef.of (sig := sig) (T := ⟨S1, .i32⟩) main_call1_c_1 p1 p2 p3).toBuf v = v := rfl
theorem ofBuf_main_call1_c_1 (p1 : main_call1_c_1.ty = ⟨S1, .i32⟩) (p2 : main_call1_c_1.space ≠ .host) (p3 : main_call1_c_1.isScoped = false) (v : main_call1_c_1.ty.Contents (Elt F)) :
    (TRef.of (sig := sig) (T := ⟨S1, .i32⟩) main_call1_c_1 p1 p2 p3).ofBuf v = v := rfl
theorem toBuf_main_call1_c_2 (p1 : main_call1_c_2.ty = ⟨S_, .i32⟩) (p2 : main_call1_c_2.space ≠ .host) (p3 : main_call1_c_2.isScoped = false) (v : (⟨S_, .i32⟩ : BufTy).Contents (Elt F)) :
    (TRef.of (sig := sig) (T := ⟨S_, .i32⟩) main_call1_c_2 p1 p2 p3).toBuf v = v := rfl
theorem ofBuf_main_call1_c_2 (p1 : main_call1_c_2.ty = ⟨S_, .i32⟩) (p2 : main_call1_c_2.space ≠ .host) (p3 : main_call1_c_2.isScoped = false) (v : main_call1_c_2.ty.Contents (Elt F)) :
    (TRef.of (sig := sig) (T := ⟨S_, .i32⟩) main_call1_c_2 p1 p2 p3).ofBuf v = v := rfl
theorem toBuf_main_call1_v6 (p1 : main_call1_v6.ty = ⟨S4x1024x1024x1, .i32⟩) (p2 : main_call1_v6.space ≠ .host) (p3 : main_call1_v6.isScoped = false) (v : (⟨S4x1024x1024x1, .i32⟩ : BufTy).Contents (Elt F)) :
    (TRef.of (sig := sig) (T := ⟨S4x1024x1024x1, .i32⟩) main_call1_v6 p1 p2 p3).toBuf v = v := rfl
theorem ofBuf_main_call1_v6 (p1 : main_call1_v6.ty = ⟨S4x1024x1024x1, .i32⟩) (p2 : main_call1_v6.space ≠ .host) (p3 : main_call1_v6.isScoped = false) (v : main_call1_v6.ty.Contents (Elt F)) :
    (TRef.of (sig := sig) (T := ⟨S4x1024x1024x1, .i32⟩) main_call1_v6 p1 p2 p3).ofBuf v = v := rfl
theorem toBuf_main_call1_v7 (p1 : main_call1_v7.ty = ⟨S4x1024x1024x1, .i1⟩) (p2 : main_call1_v7.space ≠ .host) (p3 : main_call1_v7.isScoped = false) (v : (⟨S4x1024x1024x1, .i1⟩ : BufTy).Contents (Elt F)) :
    (TRef.of (sig := sig) (T := ⟨S4x1024x1024x1, .i1⟩) main_call1_v7 p1 p2 p3).toBuf v = v := rfl
theorem ofBuf_main_call1_v7 (p1 : main_call1_v7.ty = ⟨S4x1024x1024x1, .i1⟩) (p2 : main_call1_v7.space ≠ .host) (p3 : main_call1_v7.isScoped = false) (v : main_call1_v7.ty.Contents (Elt F)) :
    (TRef.of (sig := sig) (T := ⟨S4x1024x1024x1, .i1⟩) main_call1_v7 p1 p2 p3).ofBuf v = v := rfl
theorem toBuf_main_call1_v8 (p1 : main_call1_v8.ty = ⟨S1x1x1x1, .i32⟩) (p2 : main_call1_v8.space ≠ .host) (p3 : main_call1_v8.isScoped = false) (v : (⟨S1x1x1x1, .i32⟩ : BufTy).Contents (Elt F)) :
    (TRef.of (sig := sig) (T := ⟨S1x1x1x1, .i32⟩) main_call1_v8 p1 p2 p3).toBuf v = v := rfl
theorem ofBuf_main_call1_v8 (p1 : main_call1_v8.ty = ⟨S1x1x1x1, .i32⟩) (p2 : main_call1_v8.space ≠ .host) (p3 : main_call1_v8.isScoped = false) (v : main_call1_v8.ty.Contents (Elt F)) :
    (TRef.of (sig := sig) (T := ⟨S1x1x1x1, .i32⟩) main_call1_v8 p1 p2 p3).ofBuf v = v := rfl
theorem toBuf_main_call1_v9 (p1 : main_call1_v9.ty = ⟨S4x1024x1024x1, .i32⟩) (p2 : main_call1_v9.space ≠ .host) (p3 : main_call1_v9.isScoped = false) (v : (⟨S4x1024x1024x1, .i32⟩ : BufTy).Contents (Elt F)) :
    (TRef.of (sig := sig) (T := ⟨S4x1024x1024x1, .i32⟩) main_call1_v9 p1 p2 p3).toBuf v = v := rfl
theorem ofBuf_main_call1_v9 (p1 : main_call1_v9.ty = ⟨S4x1024x1024x1, .i32⟩) (p2 : main_call1_v9.space ≠ .host) (p3 : main_call1_v9.isScoped = false) (v : main_call1_v9.ty.Contents (Elt F)) :
    (TRef.of (sig := sig) (T := ⟨S4x1024x1024x1, .i32⟩) main_call1_v9 p1 p2 p3).ofBuf v = v := rfl
theorem toBuf_main_call1_v10 (p1 : main_call1_v10.ty = ⟨S4x1024x1024x1, .i1⟩) (p2 : main_call1_v10.space ≠ .host) (p3 : main_call1_v10.isScoped = false) (v : (⟨S4x1024x1024x1, .i1⟩ : BufTy).Contents (Elt F)) :
    (TRef.of (sig := sig) (T := ⟨S4x1024x1024x1, .i1⟩) main_call1_v10 p1 p2 p3).toBuf v = v := rfl
theorem ofBuf_main_call1_v10 (p1 : main_call1_v10.ty = ⟨S4x1024x1024x1, .i1⟩) (p2 : main_call1_v10.space ≠ .host) (p3 : main_call1_v10.isScoped = false) (v : main_call1_v10.ty.Contents (Elt F)) :
    (TRef.of (sig := sig) (T := ⟨S4x1024x1024x1, .i1⟩) main_call1_v10 p1 p2 p3).ofBuf v = v := rfl
theorem toBuf_main_call1_v11 (p1 : main_call1_v11.ty = ⟨S4x1024x1024x1, .i1⟩) (p2 : main_call1_v11.space ≠ .host) (p3 : main_call1_v11.isScoped = false) (v : (⟨S4x1024x1024x1, .i1⟩ : BufTy).Contents (Elt F)) :
    (TRef.of (sig := sig) (T := ⟨S4x1024x1024x1, .i1⟩) main_call1_v11 p1 p2 p3).toBuf v = v := rfl
theorem ofBuf_main_call1_v11 (p1 : main_call1_v11.ty = ⟨S4x1024x1024x1, .i1⟩) (p2 : main_call1_v11.space ≠ .host) (p3 : main_call1_v11.isScoped = false) (v : main_call1_v11.ty.Contents (Elt F)) :
    (TRef.of (sig := sig) (T := ⟨S4x1024x1024x1, .i1⟩) main_call1_v11 p1 p2 p3).ofBuf v = v := rfl
theorem toBuf_main_call1_c_3 (p1 : main_call1_c_3.ty = ⟨S_, .i1⟩) (p2 : main_call1_c_3.space ≠ .host) (p3 : main_call1_c_3.isScoped = false) (v : (⟨S_, .i1⟩ : BufTy).Contents (Elt F)) :
    (TRef.of (sig := sig) (T := ⟨S_, .i1⟩) main_call1_c_3 p1 p2 p3).toBuf v = v := rfl
theorem ofBuf_main_call1_c_3 (p1 : main_call1_c_3.ty = ⟨S_, .i1⟩) (p2 : main_call1_c_3.space ≠ .host) (p3 : main_call1_c_3.isScoped = false) (v : main_call1_c_3.ty.Contents (Elt F)) :
    (TRef.of (sig := sig) (T := ⟨S_, .i1⟩) main_call1_c_3 p1 p2 p3).ofBuf v = v := rfl
theorem toBuf_main_call1_v12 (p1 : main_call1_v12.ty = ⟨S4x1024x1024, .i1⟩) (p2 : main_call1_v12.space ≠ .host) (p3 : main_call1_v12.isScoped = false) (v : (⟨S4x1024x1024, .i1⟩ : BufTy).Contents (Elt F)) :
    (TRef.of (sig := sig) (T := ⟨S4x1024x1024, .i1⟩) main_call1_v12 p1 p2 p3).toBuf v = v := rfl
theorem ofBuf_main_call1_v12 (p1 : main_call1_v12.ty = ⟨S4x1024x1024, .i1⟩) (p2 : main_call1_v12.space ≠ .host) (p3 : main_call1_v12.isScoped = false) (v : main_call1_v12.ty.Contents (Elt F)) :
    (TRef.of (sig := sig) (T := ⟨S4x1024x1024, .i1⟩) main_call1_v12 p1 p2 p3).ofBuf v = v := rfl
theorem toBuf_main_v10 (p1 : main_v10.ty = ⟨S4x1024x32000, .f32⟩) (p2 : main_v10.space ≠ .host) (p3 : main_v10.isScoped = false) (v : (⟨S4x1024x32000, .f32⟩ : BufTy).Contents (Elt F)) :
    (TRef.of (sig := sig) (T := ⟨S4x1024x32000, .f32⟩) main_v10 p1 p2 p3).toBuf v = v := rfl
theorem ofBuf_main_v10 (p1 : main_v10.ty = ⟨S4x1024x32000, .f32⟩) (p2 : main_v10.space ≠ .host) (p3 : main_v10.isScoped = false) (v : main_v10.ty.Contents (Elt F)) :
    (TRef.of (sig := sig) (T := ⟨S4x1024x32000, .f32⟩) main_v10 p1 p2 p3).ofBuf v = v := rfl
theorem toBuf_main_call1_v13 (p1 : main_call1_v13.ty = ⟨S4x1024x1024, .f32⟩) (p2 : main_call1_v13.space ≠ .host) (p3 : main_call1_v13.isScoped = false) (v : (⟨S4x1024x1024, .f32⟩ : BufTy).Contents (Elt F)) :
    (TRef.of (sig := sig) (T := ⟨S4x1024x1024, .f32⟩) main_call1_v13 p1 p2 p3).toBuf v = v := rfl
theorem ofBuf_main_call1_v13 (p1 : main_call1_v13.ty = ⟨S4x1024x1024, .f32⟩) (p2 : main_call1_v13.space ≠ .host) (p3 : main_call1_v13.isScoped = false) (v : main_call1_v13.ty.Contents (Elt F)) :
    (TRef.of (sig := sig) (T := ⟨S4x1024x1024, .f32⟩) main_call1_v13 p1 p2 p3).ofBuf v = v := rfl
theorem toBuf_main_call1_cst (p1 : main_call1_cst.ty = ⟨S_, .f32⟩) (p2 : main_call1_cst.space ≠ .host) (p3 : main_call1_cst.isScoped = false) (v : (⟨S_, .f32⟩ : BufTy).Contents (Elt F)) :
    (TRef.of (sig := sig) (T := ⟨S_, .f32⟩) main_call1_cst p1 p2 p3).toBuf v = v := rfl
theorem ofBuf_main_call1_cst (p1 : main_call1_cst.ty = ⟨S_, .f32⟩) (p2 : main_call1_cst.space ≠ .host) (p3 : main_call1_cst.isScoped = false) (v : main_call1_cst.ty.Contents (Elt F)) :
    (TRef.of (sig := sig) (T := ⟨S_, .f32⟩) main_call1_cst p1 p2 p3).ofBuf v = v := rfl
theorem toBuf_main_call1_v14 (p1 : main_call1_v14.ty = ⟨S4x1024x1024, .f32⟩) (p2 : main_call1_v14.space ≠ .host) (p3 : main_call1_v14.isScoped = false) (v : (⟨S4x1024x1024, .f32⟩ : BufTy).Contents (Elt F)) :
    (TRef.of (sig := sig) (T := ⟨S4x1024x1024, .f32⟩) main_call1_v14 p1 p2 p3).toBuf v = v := rfl
theorem ofBuf_main_call1_v14 (p1 : main_call1_v14.ty = ⟨S4x1024x1024, .f32⟩) (p2 : main_call1_v14.space ≠ .host) (p3 : main_call1_v14.isScoped = false) (v : main_call1_v14.ty.Contents (Elt F)) :
    (TRef.of (sig := sig) (T := ⟨S4x1024x1024, .f32⟩) main_call1_v14 p1 p2 p3).ofBuf v = v := rfl
theorem toBuf_main_v40 (p1 : main_v40.ty = ⟨S4x1024x1024, .f32⟩) (p2 : main_v40.space ≠ .host) (p3 : main_v40.isScoped = false) (v : (⟨S4x1024x1024, .f32⟩ : BufTy).Contents (Elt F)) :
    (TRef.of (sig := sig) (T := ⟨S4x1024x1024, .f32⟩) main_v40 p1 p2 p3).toBuf v = v := rfl
theorem ofBuf_main_v40 (p1 : main_v40.ty = ⟨S4x1024x1024, .f32⟩) (p2 : main_v40.space ≠ .host) (p3 : main_v40.isScoped = false) (v : main_v40.ty.Contents (Elt F)) :
    (TRef.of (sig := sig) (T := ⟨S4x1024x1024, .f32⟩) main_v40 p1 p2 p3).ofBuf v = v := rfl
theorem toBuf_main_call2_c (p1 : main_call2_c.ty = ⟨S_, .i32⟩) (p2 : main_call2_c.space ≠ .host) (p3 : main_call2_c.isScoped = false) (v : (⟨S_, .i32⟩ : BufTy).Contents (Elt F)) :
    (TRef.of (sig := sig) (T := ⟨S_, .i32⟩) main_call2_c p1 p2 p3).toBuf v = v := rfl
theorem ofBuf_main_call2_c (p1 : main_call2_c.ty = ⟨S_, .i32⟩) (p2 : main_call2_c.space ≠ .host) (p3 : main_call2_c.isScoped = false) (v : main_call2_c.ty.Contents (Elt F)) :
    (TRef.of (sig := sig) (T := ⟨S_, .i32⟩) main_call2_c p1 p2 p3).ofBuf v = v := rfl
theorem toBuf_main_call2_v0 (p1 : main_call2_v0.ty = ⟨S4x1023x1, .i32⟩) (p2 : main_call2_v0.space ≠ .host) (p3 : main_call2_v0.isScoped = false) (v : (⟨S4x1023x1, .i32⟩ : BufTy).Contents (Elt F)) :
    (TRef.of (sig := sig) (T := ⟨S4x1023x1, .i32⟩) main_call2_v0 p1 p2 p3).toBuf v = v := rfl
theorem ofBuf_main_call2_v0 (p1 : main_call2_v0.ty = ⟨S4x1023x1, .i32⟩) (p2 : main_call2_v0.space ≠ .host) (p3 : main_call2_v0.isScoped = false) (v : main_call2_v0.ty.Contents (Elt F)) :
    (TRef.of (sig := sig) (T := ⟨S4x1023x1, .i32⟩) main_call2_v0 p1 p2 p3).ofBuf v = v := rfl
theorem toBuf_main_v51 (p1 : main_v51.ty = ⟨S4x1023x1, .i32⟩) (p2 : main_v51.space ≠ .host) (p3 : main_v51.isScoped = false) (v : (⟨S4x1023x1, .i32⟩ : BufTy).Contents (Elt F)) :
    (TRef.of (sig := sig) (T := ⟨S4x1023x1, .i32⟩) main_v51 p1 p2 p3).toBuf v = v := rfl
theorem ofBuf_main_v51 (p1 : main_v51.ty = ⟨S4x1023x1, .i32⟩) (p2 : main_v51.space ≠ .host) (p3 : main_v51.isScoped = false) (v : main_v51.ty.Contents (Elt F)) :
    (TRef.of (sig := sig) (T := ⟨S4x1023x1, .i32⟩) main_v51 p1 p2 p3).ofBuf v = v := rfl
theorem toBuf_main_call2_v1 (p1 : main_call2_v1.ty = ⟨S4x1023x1, .i1⟩) (p2 : main_call2_v1.space ≠ .host) (p3 : main_call2_v1.isScoped = false) (v : (⟨S4x1023x1, .i1⟩ : BufTy).Contents (Elt F)) :
    (TRef.of (sig := sig) (T := ⟨S4x1023x1, .i1⟩) main_call2_v1 p1 p2 p3).toBuf v = v := rfl
theorem ofBuf_main_call2_v1 (p1 : main_call2_v1.ty = ⟨S4x1023x1, .i1⟩) (p2 : main_call2_v1.space ≠ .host) (p3 : main_call2_v1.isScoped = false) (v : main_call2_v1.ty.Contents (Elt F)) :
    (TRef.of (sig := sig) (T := ⟨S4x1023x1, .i1⟩) main_call2_v1 p1 p2 p3).ofBuf v = v := rfl
theorem toBuf_main_call2_c_0 (p1 : main_call2_c_0.ty = ⟨S_, .i32⟩) (p2 : main_call2_c_0.space ≠ .host) (p3 : main_call2_c_0.isScoped = false) (v : (⟨S_, .i32⟩ : BufTy).Contents (Elt F)) :
    (TRef.of (sig := sig) (T := ⟨S_, .i32⟩) main_call2_c_0 p1 p2 p3).toBuf v = v := rfl
theorem ofBuf_main_call2_c_0 (p1 : main_call2_c_0.ty = ⟨S_, .i32⟩) (p2 : main_call2_c_0.space ≠ .host) (p3 : main_call2_c_0.isScoped = false) (v : main_call2_c_0.ty.Contents (Elt F)) :
    (TRef.of (sig := sig) (T := ⟨S_, .i32⟩) main_call2_c_0 p1 p2 p3).ofBuf v = v := rfl
theorem toBuf_main_call2_v2 (p1 : main_call2_v2.ty = ⟨S4x1023x1, .i32⟩) (p2 : main_call2_v2.space ≠ .host) (p3 : main_call2_v2.isScoped = false) (v : (⟨S4x1023x1, .i32⟩ : BufTy).Contents (Elt F)) :
    (TRef.of (sig := sig) (T := ⟨S4x1023x1, .i32⟩) main_call2_v2 p1 p2 p3).toBuf v = v := rfl
theorem ofBuf_main_call2_v2 (p1 : main_call2_v2.ty = ⟨S4x1023x1, .i32⟩) (p2 : main_call2_v2.space ≠ .host) (p3 : main_call2_v2.isScoped = false) (v : main_call2_v2.ty.Contents (Elt F)) :
    (TRef.of (sig := sig) (T := ⟨S4x1023x1, .i32⟩) main_call2_v2 p1 p2 p3).ofBuf v = v := rfl
theorem toBuf_main_call2_v3 (p1 : main_call2_v3.ty = ⟨S4x1023x1, .i32⟩) (p2 : main_call2_v3.space ≠ .host) (p3 : main_call2_v3.isScoped = false) (v : (⟨S4x1023x1, .i32⟩ : BufTy).Contents (Elt F)) :
    (TRef.of (sig := sig) (T := ⟨S4x1023x1, .i32⟩) main_call2_v3 p1 p2 p3).toBuf v = v := rfl
theorem ofBuf_main_call2_v3 (p1 : main_call2_v3.ty = ⟨S4x1023x1, .i32⟩) (p2 : main_call2_v3.space ≠ .host) (p3 : main_call2_v3.isScoped = false) (v : main_call2_v3.ty.Contents (Elt F)) :
    (TRef.of (sig := sig) (T := ⟨S4x1023x1, .i32⟩) main_call2_v3 p1 p2 p3).ofBuf v = v := rfl
theorem toBuf_main_call2_v4 (p1 : main_call2_v4.ty = ⟨S4x1023x1, .i32⟩) (p2 : main_call2_v4.space ≠ .host) (p3 : main_call2_v4.isScoped = false) (v : (⟨S4x1023x1, .i32⟩ : BufTy).Contents (Elt F)) :
    (TRef.of (sig := sig) (T := ⟨S4x1023x1, .i32⟩) main_call2_v4 p1 p2 p3).toBuf v = v := rfl
theorem ofBuf_main_call2_v4 (p1 : main_call2_v4.ty = ⟨S4x1023x1, .i32⟩) (p2 : main_call2_v4.space ≠ .host) (p3 : main_call2_v4.isScoped = false) (v : main_call2_v4.ty.Contents (Elt F)) :
    (TRef.of (sig := sig) (T := ⟨S4x1023x1, .i32⟩) main_call2_v4 p1 p2 p3).ofBuf v = v := rfl
theorem toBuf_main_call2_v5 (p1 : main_call2_v5.ty = ⟨S4x1023x1x1, .i32⟩) (p2 : main_call2_v5.space ≠ .host) (p3 : main_call2_v5.isScoped = false) (v : (⟨S4x1023x1x1, .i32⟩ : BufTy).Contents (Elt F)) :
    (TRef.of (sig := sig) (T := ⟨S4x1023x1x1, .i32⟩) main_call2_v5 p1 p2 p3).toBuf v = v := rfl
theorem ofBuf_main_call2_v5 (p1 : main_call2_v5.ty = ⟨S4x1023x1x1, .i32⟩) (p2 : main_call2_v5.space ≠ .host) (p3 : main_call2_v5.isScoped = false) (v : main_call2_v5.ty.Contents (Elt F)) :
    (TRef.of (sig := sig) (T := ⟨S4x1023x1x1, .i32⟩) main_call2_v5 p1 p2 p3).ofBuf v = v := rfl
theorem toBuf_main_call2_c_1 (p1 : main_call2_c_1.ty = ⟨S1, .i32⟩) (p2 : main_call2_c_1.space ≠ .host) (p3 : main_call2_c_1.isScoped = false) (v : (⟨S1, .i32⟩ : BufTy).Contents (Elt F)) :
    (TRef.of (sig := sig) (T := ⟨S1, .i32⟩) main_call2_c_1 p1 p2 p3).toBuf v = v := rfl
theorem ofBuf_main_call2_c_1 (p1 : main_call2_c_1.ty = ⟨S1, .i32⟩) (p2 : main_call2_c_1.space ≠ .host) (p3 : main_call2_c_1.isScoped = false) (v : main_call2_c_1.ty.Contents (Elt F)) :
    (TRef.of (sig := sig) (T := ⟨S1, .i32⟩) main_call2_c_1 p1 p2 p3).ofBuf v = v := rfl
theorem toBuf_main_call2_c_2 (p1 : main_call2_c_2.ty = ⟨S_, .i32⟩) (p2 : main_call2_c_2.space ≠ .host) (p3 : main_call2_c_2.isScoped = false) (v : (⟨S_, .i32⟩ : BufTy).Contents (Elt F)) :
    (TRef.of (sig := sig) (T := ⟨S_, .i32⟩) main_call2_c_2 p1 p2 p3).toBuf v = v := rfl
theorem ofBuf_main_call2_c_2 (p1 : main_call2_c_2.ty = ⟨S_, .i32⟩) (p2 : main_call2_c_2.space ≠ .host) (p3 : main_call2_c_2.isScoped = false) (v : main_call2_c_2.ty.Contents (Elt F)) :
    (TRef.of (sig := sig) (T := ⟨S_, .i32⟩) main_call2_c_2 p1 p2 p3).ofBuf v = v := rfl
theorem toBuf_main_call2_v6 (p1 : main_call2_v6.ty = ⟨S4x1023x1x1, .i32⟩) (p2 : main_call2_v6.space ≠ .host) (p3 : main_call2_v6.isScoped = false) (v : (⟨S4x1023x1x1, .i32⟩ : BufTy).Contents (Elt F)) :
    (TRef.of (sig := sig) (T := ⟨S4x1023x1x1, .i32⟩) main_call2_v6 p1 p2 p3).toBuf v = v := rfl
theorem ofBuf_main_call2_v6 (p1 : main_call2_v6.ty = ⟨S4x1023x1x1, .i32⟩) (p2 : main_call2_v6.space ≠ .host) (p3 : main_call2_v6.isScoped = false) (v : main_call2_v6.ty.Contents (Elt F)) :
    (TRef.of (sig := sig) (T := ⟨S4x1023x1x1, .i32⟩) main_call2_v6 p1 p2 p3).ofBuf v = v := rfl
theorem toBuf_main_call2_v7 (p1 : main_call2_v7.ty = ⟨S4x1023x1x1, .i1⟩) (p2 : main_call2_v7.space ≠ .host) (p3 : main_call2_v7.isScoped = false) (v : (⟨S4x1023x1x1, .i1⟩ : BufTy).Contents (Elt F)) :
    (TRef.of (sig := sig) (T := ⟨S4x1023x1x1, .i1⟩) main_call2_v7 p1 p2 p3).toBuf v = v := rfl
theorem ofBuf_main_call2_v7 (p1 : main_call2_v7.ty = ⟨S4x1023x1x1, .i1⟩) (p2 : main_call2_v7.space ≠ .host) (p3 : main_call2_v7.isScoped = false) (v : main_call2_v7.ty.Contents (Elt F)) :
    (TRef.of (sig := sig) (T := ⟨S4x1023x1x1, .i1⟩) main_call2_v7 p1 p2 p3).ofBuf v = v := rfl
theorem toBuf_main_call2_v8 (p1 : main_call2_v8.ty = ⟨S1x1x1x1, .i32⟩) (p2 : main_call2_v8.space ≠ .host) (p3 : main_call2_v8.isScoped = false) (v : (⟨S1x1x1x1, .i32⟩ : BufTy).Contents (Elt F)) :
    (TRef.of (sig := sig) (T := ⟨S1x1x1x1, .i32⟩) main_call2_v8 p1 p2 p3).toBuf v = v := rfl
theorem ofBuf_main_call2_v8 (p1 : main_call2_v8.ty = ⟨S1x1x1x1, .i32⟩) (p2 : main_call2_v8.space ≠ .host) (p3 : main_call2_v8.isScoped = false) (v : main_call2_v8.ty.Contents (Elt F)) :
    (TRef.of (sig := sig) (T := ⟨S1x1x1x1, .i32⟩) main_call2_v8 p1 p2 p3).ofBuf v = v := rfl
theorem toBuf_main_call2_v9 (p1 : main_call2_v9.ty = ⟨S4x1023x1x1, .i32⟩) (p2 : main_call2_v9.space ≠ .host) (p3 : main_call2_v9.isScoped = false) (v : (⟨S4x1023x1x1, .i32⟩ : BufTy).Contents (Elt F)) :
    (TRef.of (sig := sig) (T := ⟨S4x1023x1x1, .i32⟩) main_call2_v9 p1 p2 p3).toBuf v = v := rfl
theorem ofBuf_main_call2_v9 (p1 : main_call2_v9.ty = ⟨S4x1023x1x1, .i32⟩) (p2 : main_call2_v9.space ≠ .host) (p3 : main_call2_v9.isScoped = false) (v : main_call2_v9.ty.Contents (Elt F)) :
    (TRef.of (sig := sig) (T := ⟨S4x1023x1x1, .i32⟩) main_call2_v9 p1 p2 p3).ofBuf v = v := rfl
theorem toBuf_main_call2_v10 (p1 : main_call2_v10.ty = ⟨S4x1023x1x1, .i1⟩) (p2 : main_call2_v10.space ≠ .host) (p3 : main_call2_v10.isScoped = false) (v : (⟨S4x1023x1x1, .i1⟩ : BufTy).Contents (Elt F)) :
    (TRef.of (sig := sig) (T := ⟨S4x1023x1x1, .i1⟩) main_call2_v10 p1 p2 p3).toBuf v = v := rfl
theorem ofBuf_main_call2_v10 (p1 : main_call2_v10.ty = ⟨S4x1023x1x1, .i1⟩) (p2 : main_call2_v10.space ≠ .host) (p3 : main_call2_v10.isScoped = false) (v : main_call2_v10.ty.Contents (Elt F)) :
    (TRef.of (sig := sig) (T := ⟨S4x1023x1x1, .i1⟩) main_call2_v10 p1 p2 p3).ofBuf v = v := rfl
theorem toBuf_main_call2_v11 (p1 : main_call2_v11.ty = ⟨S4x1023x1x1, .i1⟩) (p2 : main_call2_v11.space ≠ .host) (p3 : main_call2_v11.isScoped = false) (v : (⟨S4x1023x1x1, .i1⟩ : BufTy).Contents (Elt F)) :
    (TRef.of (sig := sig) (T := ⟨S4x1023x1x1, .i1⟩) main_call2_v11 p1 p2 p3).toBuf v = v := rfl
theorem ofBuf_main_call2_v11 (p1 : main_call2_v11.ty = ⟨S4x1023x1x1, .i1⟩) (p2 : main_call2_v11.space ≠ .host) (p3 : main_call2_v11.isScoped = false) (v : main_call2_v11.ty.Contents (Elt F)) :
    (TRef.of (sig := sig) (T := ⟨S4x1023x1x1, .i1⟩) main_call2_v11 p1 p2 p3).ofBuf v = v := rfl
theorem toBuf_main_call2_c_3 (p1 : main_call2_c_3.ty = ⟨S_, .i1⟩) (p2 : main_call2_c_3.space ≠ .host) (p3 : main_call2_c_3.isScoped = false) (v : (⟨S_, .i1⟩ : BufTy).Contents (Elt F)) :
    (TRef.of (sig := sig) (T := ⟨S_, .i1⟩) main_call2_c_3 p1 p2 p3).toBuf v = v := rfl
theorem ofBuf_main_call2_c_3 (p1 : main_call2_c_3.ty = ⟨S_, .i1⟩) (p2 : main_call2_c_3.space ≠ .host) (p3 : main_call2_c_3.isScoped = false) (v : main_call2_c_3.ty.Contents (Elt F)) :
    (TRef.of (sig := sig) (T := ⟨S_, .i1⟩) main_call2_c_3 p1 p2 p3).ofBuf v = v := rfl
theorem toBuf_main_call2_v12 (p1 : main_call2_v12.ty = ⟨S4x1023x1, .i1⟩) (p2 : main_call2_v12.space ≠ .host) (p3 : main_call2_v12.isScoped = false) (v : (⟨S4x1023x1, .i1⟩ : BufTy).Contents (Elt F)) :
    (TRef.of (sig := sig) (T := ⟨S4x1023x1, .i1⟩) main_call2_v12 p1 p2 p3).toBuf v = v := rfl
theorem ofBuf_main_call2_v12 (p1 : main_call2_v12.ty = ⟨S4x1023x1, .i1⟩) (p2 : main_call2_v12.space ≠ .host) (p3 : main_call2_v12.isScoped = false) (v : main_call2_v12.ty.Contents (Elt F)) :
    (TRef.of (sig := sig) (T := ⟨S4x1023x1, .i1⟩) main_call2_v12 p1 p2 p3).ofBuf v = v := rfl
theorem toBuf_main_v50 (p1 : main_v50.ty = ⟨S4x1023x32000, .f32⟩) (p2 : main_v50.space ≠ .host) (p3 : main_v50.isScoped = false) (v : (⟨S4x1023x32000, .f32⟩ : BufTy).Contents (Elt F)) :
    (TRef.of (sig := sig) (T := ⟨S4x1023x32000, .f32⟩) main_v50 p1 p2 p3).toBuf v = v := rfl
theorem ofBuf_main_v50 (p1 : main_v50.ty = ⟨S4x1023x32000, .f32⟩) (p2 : main_v50.space ≠ .host) (p3 : main_v50.isScoped = false) (v : main_v50.ty.Contents (Elt F)) :
    (TRef.of (sig := sig) (T := ⟨S4x1023x32000, .f32⟩) main_v50 p1 p2 p3).ofBuf v = v := rfl
theorem toBuf_main_call2_v13 (p1 : main_call2_v13.ty = ⟨S4x1023x1, .f32⟩) (p2 : main_call2_v13.space ≠ .host) (p3 : main_call2_v13.isScoped = false) (v : (⟨S4x1023x1, .f32⟩ : BufTy).Contents (Elt F)) :
    (TRef.of (sig := sig) (T := ⟨S4x1023x1, .f32⟩) main_call2_v13 p1 p2 p3).toBuf v = v := rfl
theorem ofBuf_main_call2_v13 (p1 : main_call2_v13.ty = ⟨S4x1023x1, .f32⟩) (p2 : main_call2_v13.space ≠ .host) (p3 : main_call2_v13.isScoped = false) (v : main_call2_v13.ty.Contents (Elt F)) :
    (TRef.of (sig := sig) (T := ⟨S4x1023x1, .f32⟩) main_call2_v13 p1 p2 p3).ofBuf v = v := rfl
theorem toBuf_main_call2_cst (p1 : main_call2_cst.ty = ⟨S_, .f32⟩) (p2 : main_call2_cst.space ≠ .host) (p3 : main_call2_cst.isScoped = false) (v : (⟨S_, .f32⟩ : BufTy).Contents (Elt F)) :
    (TRef.of (sig := sig) (T := ⟨S_, .f32⟩) main_call2_cst p1 p2 p3).toBuf v = v := rfl
theorem ofBuf_main_call2_cst (p1 : main_call2_cst.ty = ⟨S_, .f32⟩) (p2 : main_call2_cst.space ≠ .host) (p3 : main_call2_cst.isScoped = false) (v : main_call2_cst.ty.Contents (Elt F)) :
    (TRef.of (sig := sig) (T := ⟨S_, .f32⟩) main_call2_cst p1 p2 p3).ofBuf v = v := rfl
theorem toBuf_main_call2_v14 (p1 : main_call2_v14.ty = ⟨S4x1023x1, .f32⟩) (p2 : main_call2_v14.space ≠ .host) (p3 : main_call2_v14.isScoped = false) (v : (⟨S4x1023x1, .f32⟩ : BufTy).Contents (Elt F)) :
    (TRef.of (sig := sig) (T := ⟨S4x1023x1, .f32⟩) main_call2_v14 p1 p2 p3).toBuf v = v := rfl
theorem ofBuf_main_call2_v14 (p1 : main_call2_v14.ty = ⟨S4x1023x1, .f32⟩) (p2 : main_call2_v14.space ≠ .host) (p3 : main_call2_v14.isScoped = false) (v : main_call2_v14.ty.Contents (Elt F)) :
    (TRef.of (sig := sig) (T := ⟨S4x1023x1, .f32⟩) main_call2_v14 p1 p2 p3).ofBuf v = v := rfl
theorem toBuf_main_v52 (p1 : main_v52.ty = ⟨S4x1023x1, .f32⟩) (p2 : main_v52.space ≠ .host) (p3 : main_v52.isScoped = false) (v : (⟨S4x1023x1, .f32⟩ : BufTy).Contents (Elt F)) :
    (TRef.of (sig := sig) (T := ⟨S4x1023x1, .f32⟩) main_v52 p1 p2 p3).toBuf v = v := rfl
theorem ofBuf_main_v52 (p1 : main_v52.ty = ⟨S4x1023x1, .f32⟩) (p2 : main_v52.space ≠ .host) (p3 : main_v52.isScoped = false) (v : main_v52.ty.Contents (Elt F)) :
    (TRef.of (sig := sig) (T := ⟨S4x1023x1, .f32⟩) main_v52 p1 p2 p3).ofBuf v = v := rfl
theorem toBuf_main_call3_c (p1 : main_call3_c.ty = ⟨S_, .i32⟩) (p2 : main_call3_c.space ≠ .host) (p3 : main_call3_c.isScoped = false) (v : (⟨S_, .i32⟩ : BufTy).Contents (Elt F)) :
    (TRef.of (sig := sig) (T := ⟨S_, .i32⟩) main_call3_c p1 p2 p3).toBuf v = v := rfl
theorem ofBuf_main_call3_c (p1 : main_call3_c.ty = ⟨S_, .i32⟩) (p2 : main_call3_c.space ≠ .host) (p3 : main_call3_c.isScoped = false) (v : main_call3_c.ty.Contents (Elt F)) :
    (TRef.of (sig := sig) (T := ⟨S_, .i32⟩) main_call3_c p1 p2 p3).ofBuf v = v := rfl
theorem toBuf_main_call3_v0 (p1 : main_call3_v0.ty = ⟨S4x1022x1022, .i32⟩) (p2 : main_call3_v0.space ≠ .host) (p3 : main_call3_v0.isScoped = false) (v : (⟨S4x1022x1022, .i32⟩ : BufTy).Contents (Elt F)) :
    (TRef.of (sig := sig) (T := ⟨S4x1022x1022, .i32⟩) main_call3_v0 p1 p2 p3).toBuf v = v := rfl
theorem ofBuf_main_call3_v0 (p1 : main_call3_v0.ty = ⟨S4x1022x1022, .i32⟩) (p2 : main_call3_v0.space ≠ .host) (p3 : main_call3_v0.isScoped = false) (v : main_call3_v0.ty.Contents (Elt F)) :
    (TRef.of (sig := sig) (T := ⟨S4x1022x1022, .i32⟩) main_call3_v0 p1 p2 p3).ofBuf v = v := rfl
theorem toBuf_main_v104 (p1 : main_v104.ty = ⟨S4x1022x1022, .i32⟩) (p2 : main_v104.space ≠ .host) (p3 : main_v104.isScoped = false) (v : (⟨S4x1022x1022, .i32⟩ : BufTy).Contents (Elt F)) :
    (TRef.of (sig := sig) (T := ⟨S4x1022x1022, .i32⟩) main_v104 p1 p2 p3).toBuf v = v := rfl
theorem ofBuf_main_v104 (p1 : main_v104.ty = ⟨S4x1022x1022, .i32⟩) (p2 : main_v104.space ≠ .host) (p3 : main_v104.isScoped = false) (v : main_v104.ty.Contents (Elt F)) :
    (TRef.of (sig := sig) (T := ⟨S4x1022x1022, .i32⟩) main_v104 p1 p2 p3).ofBuf v = v := rfl
theorem toBuf_main_call3_v1 (p1 : main_call3_v1.ty = ⟨S4x1022x1022, .i1⟩) (p2 : main_call3_v1.space ≠ .host) (p3 : main_call3_v1.isScoped = false) (v : (⟨S4x1022x1022, .i1⟩ : BufTy).Contents (Elt F)) :
    (TRef.of (sig := sig) (T := ⟨S4x1022x1022, .i1⟩) main_call3_v1 p1 p2 p3).toBuf v = v := rfl
theorem ofBuf_main_call3_v1 (p1 : main_call3_v1.ty = ⟨S4x1022x1022, .i1⟩) (p2 : main_call3_v1.space ≠ .host) (p3 : main_call3_v1.isScoped = false) (v : main_call3_v1.ty.Contents (Elt F)) :
    (TRef.of (sig := sig) (T := ⟨S4x1022x1022, .i1⟩) main_call3_v1 p1 p2 p3).ofBuf v = v := rfl
theorem toBuf_main_call3_c_0 (p1 : main_call3_c_0.ty = ⟨S_, .i32⟩) (p2 : main_call3_c_0.space ≠ .host) (p3 : main_call3_c_0.isScoped = false) (v : (⟨S_, .i32⟩ : BufTy).Contents (Elt F)) :
    (TRef.of (sig := sig) (T := ⟨S_, .i32⟩) main_call3_c_0 p1 p2 p3).toBuf v = v := rfl
theorem ofBuf_main_call3_c_0 (p1 : main_call3_c_0.ty = ⟨S_, .i32⟩) (p2 : main_call3_c_0.space ≠ .host) (p3 : main_call3_c_0.isScoped = false) (v : main_call3_c_0.ty.Contents (Elt F)) :
    (TRef.of (sig := sig) (T := ⟨S_, .i32⟩) main_call3_c_0 p1 p2 p3).ofBuf v = v := rfl
theorem toBuf_main_call3_v2 (p1 : main_call3_v2.ty = ⟨S4x1022x1022, .i32⟩) (p2 : main_call3_v2.space ≠ .host) (p3 : main_call3_v2.isScoped = false) (v : (⟨S4x1022x1022, .i32⟩ : BufTy).Contents (Elt F)) :
    (TRef.of (sig := sig) (T := ⟨S4x1022x1022, .i32⟩) main_call3_v2 p1 p2 p3).toBuf v = v := rfl
theorem ofBuf_main_call3_v2 (p1 : main_call3_v2.ty = ⟨S4x1022x1022, .i32⟩) (p2 : main_call3_v2.space ≠ .host) (p3 : main_call3_v2.isScoped = false) (v : main_call3_v2.ty.Contents (Elt F)) :
    (TRef.of (sig := sig) (T := ⟨S4x1022x1022, .i32⟩) main_call3_v2 p1 p2 p3).ofBuf v = v := rfl
theorem toBuf_main_call3_v3 (p1 : main_call3_v3.ty = ⟨S4x1022x1022, .i32⟩) (p2 : main_call3_v3.space ≠ .host) (p3 : main_call3_v3.isScoped = false) (v : (⟨S4x1022x1022, .i32⟩ : BufTy).Contents (Elt F)) :
    (TRef.of (sig := sig) (T := ⟨S4x1022x1022, .i32⟩) main_call3_v3 p1 p2 p3).toBuf v = v := rfl
theorem ofBuf_main_call3_v3 (p1 : main_call3_v3.ty = ⟨S4x1022x1022, .i32⟩) (p2 : main_call3_v3.space ≠ .host) (p3 : main_call3_v3.isScoped = false) (v : main_call3_v3.ty.Contents (Elt F)) :
    (TRef.of (sig := sig) (T := ⟨S4x1022x1022, .i32⟩) main_call3_v3 p1 p2 p3).ofBuf v = v := rfl
theorem toBuf_main_call3_v4 (p1 : main_call3_v4.ty = ⟨S4x1022x1022, .i32⟩) (p2 : main_call3_v4.space ≠ .host) (p3 : main_call3_v4.isScoped = false) (v : (⟨S4x1022x1022, .i32⟩ : BufTy).Contents (Elt F)) :
    (TRef.of (sig := sig) (T := ⟨S4x1022x1022, .i32⟩) main_call3_v4 p1 p2 p3).toBuf v = v := rfl
theorem ofBuf_main_call3_v4 (p1 : main_call3_v4.ty = ⟨S4x1022x1022, .i32⟩) (p2 : main_call3_v4.space ≠ .host) (p3 : main_call3_v4.isScoped = false) (v : main_call3_v4.ty.Contents (Elt F)) :
    (TRef.of (sig := sig) (T := ⟨S4x1022x1022, .i32⟩) main_call3_v4 p1 p2 p3).ofBuf v = v := rfl
theorem toBuf_main_call3_v5 (p1 : main_call3_v5.ty = ⟨S4x1022x1022x1, .i32⟩) (p2 : main_call3_v5.space ≠ .host) (p3 : main_call3_v5.isScoped = false) (v : (⟨S4x1022x1022x1, .i32⟩ : BufTy).Contents (Elt F)) :
    (TRef.of (sig := sig) (T := ⟨S4x1022x1022x1, .i32⟩) main_call3_v5 p1 p2 p3).toBuf v = v := rfl
theorem ofBuf_main_call3_v5 (p1 : main_call3_v5.ty = ⟨S4x1022x1022x1, .i32⟩) (p2 : main_call3_v5.space ≠ .host) (p3 : main_call3_v5.isScoped = false) (v : main_call3_v5.ty.Contents (Elt F)) :
    (TRef.of (sig := sig) (T := ⟨S4x1022x1022x1, .i32⟩) main_call3_v5 p1 p2 p3).ofBuf v = v := rfl
theorem toBuf_main_call3_c_1 (p1 : main_call3_c_1.ty = ⟨S1, .i32⟩) (p2 : main_call3_c_1.space ≠ .host) (p3 : main_call3_c_1.isScoped = false) (v : (⟨S1, .i32⟩ : BufTy).Contents (Elt F)) :
    (TRef.of (sig := sig) (T := ⟨S1, .i32⟩) main_call3_c_1 p1 p2 p3).toBuf v = v := rfl
theorem ofBuf_main_call3_c_1 (p1 : main_call3_c_1.ty = ⟨S1, .i32⟩) (p2 : main_call3_c_1.space ≠ .host) (p3 : main_call3_c_1.isScoped = false) (v : main_call3_c_1.ty.Contents (Elt F)) :
    (TRef.of (sig := sig) (T := ⟨S1, .i32⟩) main_call3_c_1 p1 p2 p3).ofBuf v = v := rfl
theorem toBuf_main_call3_c_2 (p1 : main_call3_c_2.ty = ⟨S_, .i32⟩) (p2 : main_call3_c_2.space ≠ .host) (p3 : main_call3_c_2.isScoped = false) (v : (⟨S_, .i32⟩ : BufTy).Contents (Elt F)) :
    (TRef.of (sig := sig) (T := ⟨S_, .i32⟩) main_call3_c_2 p1 p2 p3).toBuf v = v := rfl
theorem ofBuf_main_call3_c_2 (p1 : main_call3_c_2.ty = ⟨S_, .i32⟩) (p2 : main_call3_c_2.space ≠ .host) (p3 : main_call3_c_2.isScoped = false) (v : main_call3_c_2.ty.Contents (Elt F)) :
    (TRef.of (sig := sig) (T := ⟨S_, .i32⟩) main_call3_c_2 p1 p2 p3).ofBuf v = v := rfl
theorem toBuf_main_call3_v6 (p1 : main_call3_v6.ty = ⟨S4x1022x1022x1, .i32⟩) (p2 : main_call3_v6.space ≠ .host) (p3 : main_call3_v6.isScoped = false) (v : (⟨S4x1022x1022x1, .i32⟩ : BufTy).Contents (Elt F)) :
    (TRef.of (sig := sig) (T := ⟨S4x1022x1022x1, .i32⟩) main_call3_v6 p1 p2 p3).toBuf v = v := rfl
theorem ofBuf_main_call3_v6 (p1 : main_call3_v6.ty = ⟨S4x1022x1022x1, .i32⟩) (p2 : main_call3_v6.space ≠ .host) (p3 : main_call3_v6.isScoped = false) (v : main_call3_v6.ty.Contents (Elt F)) :
    (TRef.of (sig := sig) (T := ⟨S4x1022x1022x1, .i32⟩) main_call3_v6 p1 p2 p3).ofBuf v = v := rfl
theorem toBuf_main_call3_v7 (p1 : main_call3_v7.ty = ⟨S4x1022x1022x1, .i1⟩) (p2 : main_call3_v7.space ≠ .host) (p3 : main_call3_v7.isScoped = false) (v : (⟨S4x1022x1022x1, .i1⟩ : BufTy).Contents (Elt F)) :
    (TRef.of (sig := sig) (T := ⟨S4x1022x1022x1, .i1⟩) main_call3_v7 p1 p2 p3).toBuf v = v := rfl
theorem ofBuf_main_call3_v7 (p1 : main_call3_v7.ty = ⟨S4x1022x1022x1, .i1⟩) (p2 : main_call3_v7.space ≠ .host) (p3 : main_call3_v7.isScoped = false) (v : main_call3_v7.ty.Contents (Elt F)) :
    (TRef.of (sig := sig) (T := ⟨S4x1022x1022x1, .i1⟩) main_call3_v7 p1 p2 p3).ofBuf v = v := rfl
theorem toBuf_main_call3_v8 (p1 : main_call3_v8.ty = ⟨S1x1x1x1, .i32⟩) (p2 : main_call3_v8.space ≠ .host) (p3 : main_call3_v8.isScoped = false) (v : (⟨S1x1x1x1, .i32⟩ : BufTy).Contents (Elt F)) :
    (TRef.of (sig := sig) (T := ⟨S1x1x1x1, .i32⟩) main_call3_v8 p1 p2 p3).toBuf v = v := rfl
theorem ofBuf_main_call3_v8 (p1 : main_call3_v8.ty = ⟨S1x1x1x1, .i32⟩) (p2 : main_call3_v8.space ≠ .host) (p3 : main_call3_v8.isScoped = false) (v : main_call3_v8.ty.Contents (Elt F)) :
    (TRef.of (sig := sig) (T := ⟨S1x1x1x1, .i32⟩) main_call3_v8 p1 p2 p3).ofBuf v = v := rfl
theorem toBuf_main_call3_v9 (p1 : main_call3_v9.ty = ⟨S4x1022x1022x1, .i32⟩) (p2 : main_call3_v9.space ≠ .host) (p3 : main_call3_v9.isScoped = false) (v : (⟨S4x1022x1022x1, .i32⟩ : BufTy).Contents (Elt F)) :
    (TRef.of (sig := sig) (T := ⟨S4x1022x1022x1, .i32⟩) main_call3_v9 p1 p2 p3).toBuf v = v := rfl
theorem ofBuf_main_call3_v9 (p1 : main_call3_v9.ty = ⟨S4x1022x1022x1, .i32⟩) (p2 : main_call3_v9.space ≠ .host) (p3 : main_call3_v9.isScoped = false) (v : main_call3_v9.ty.Contents (Elt F)) :
    (TRef.of (sig := sig) (T := ⟨S4x1022x1022x1, .i32⟩) main_call3_v9 p1 p2 p3).ofBuf v = v := rfl
theorem toBuf_main_call3_v10 (p1 : main_call3_v10.ty = ⟨S4x1022x1022x1, .i1⟩) (p2 : main_call3_v10.space ≠ .host) (p3 : main_call3_v10.isScoped = false) (v : (⟨S4x1022x1022x1, .i1⟩ : BufTy).Contents (Elt F)) :
    (TRef.of (sig := sig) (T := ⟨S4x1022x1022x1, .i1⟩) main_call3_v10 p1 p2 p3).toBuf v = v := rfl
theorem ofBuf_main_call3_v10 (p1 : main_call3_v10.ty = ⟨S4x1022x1022x1, .i1⟩) (p2 : main_call3_v10.space ≠ .host) (p3 : main_call3_v10.isScoped = false) (v : main_call3_v10.ty.Contents (Elt F)) :
    (TRef.of (sig := sig) (T := ⟨S4x1022x1022x1, .i1⟩) main_call3_v10 p1 p2 p3).ofBuf v = v := rfl
theorem toBuf_main_call3_v11 (p1 : main_call3_v11.ty = ⟨S4x1022x1022x1, .i1⟩) (p2 : main_call3_v11.space ≠ .host) (p3 : main_call3_v11.isScoped = false) (v : (⟨S4x1022x1022x1, .i1⟩ : BufTy).Contents (Elt F)) :
    (TRef.of (sig := sig) (T := ⟨S4x1022x1022x1, .i1⟩) main_call3_v11 p1 p2 p3).toBuf v = v := rfl
theorem ofBuf_main_call3_v11 (p1 : main_call3_v11.ty = ⟨S4x1022x1022x1, .i1⟩) (p2 : main_call3_v11.space ≠ .host) (p3 : main_call3_v11.isScoped = false) (v : main_call3_v11.ty.Contents (Elt F)) :
    (TRef.of (sig := sig) (T := ⟨S4x1022x1022x1, .i1⟩) main_call3_v11 p1 p2 p3).ofBuf v = v := rfl
theorem toBuf_main_call3_c_3 (p1 : main_call3_c_3.ty = ⟨S_, .i1⟩) (p2 : main_call3_c_3.space ≠ .host) (p3 : main_call3_c_3.isScoped = false) (v : (⟨S_, .i1⟩ : BufTy).Contents (Elt F)) :
    (TRef.of (sig := sig) (T := ⟨S_, .i1⟩) main_call3_c_3 p1 p2 p3).toBuf v = v := rfl
theorem ofBuf_main_call3_c_3 (p1 : main_call3_c_3.ty = ⟨S_, .i1⟩) (p2 : main_call3_c_3.space ≠ .host) (p3 : main_call3_c_3.isScoped = false) (v : main_call3_c_3.ty.Contents (Elt F)) :
    (TRef.of (sig := sig) (T := ⟨S_, .i1⟩) main_call3_c_3 p1 p2 p3).ofBuf v = v := rfl
theorem toBuf_main_call3_v12 (p1 : main_call3_v12.ty = ⟨S4x1022x1022, .i1⟩) (p2 : main_call3_v12.space ≠ .host) (p3 : main_call3_v12.isScoped = false) (v : (⟨S4x1022x1022, .i1⟩ : BufTy).Contents (Elt F)) :
    (TRef.of (sig := sig) (T := ⟨S4x1022x1022, .i1⟩) main_call3_v12 p1 p2 p3).toBuf v = v := rfl
theorem ofBuf_main_call3_v12 (p1 : main_call3_v12.ty = ⟨S4x1022x1022, .i1⟩) (p2 : main_call3_v12.space ≠ .host) (p3 : main_call3_v12.isScoped = false) (v : main_call3_v12.ty.Contents (Elt F)) :
    (TRef.of (sig := sig) (T := ⟨S4x1022x1022, .i1⟩) main_call3_v12 p1 p2 p3).ofBuf v = v := rfl
theorem toBuf_main_v102 (p1 : main_v102.ty = ⟨S4x1022x32000, .f32⟩) (p2 : main_v102.space ≠ .host) (p3 : main_v102.isScoped = false) (v : (⟨S4x1022x32000, .f32⟩ : BufTy).Contents (Elt F)) :
    (TRef.of (sig := sig) (T := ⟨S4x1022x32000, .f32⟩) main_v102 p1 p2 p3).toBuf v = v := rfl
theorem ofBuf_main_v102 (p1 : main_v102.ty = ⟨S4x1022x32000, .f32⟩) (p2 : main_v102.space ≠ .host) (p3 : main_v102.isScoped = false) (v : main_v102.ty.Contents (Elt F)) :
    (TRef.of (sig := sig) (T := ⟨S4x1022x32000, .f32⟩) main_v102 p1 p2 p3).ofBuf v = v := rfl
theorem toBuf_main_call3_v13 (p1 : main_call3_v13.ty = ⟨S4x1022x1022, .f32⟩) (p2 : main_call3_v13.space ≠ .host) (p3 : main_call3_v13.isScoped = false) (v : (⟨S4x1022x1022, .f32⟩ : BufTy).Contents (Elt F)) :
    (TRef.of (sig := sig) (T := ⟨S4x1022x1022, .f32⟩) main_call3_v13 p1 p2 p3).toBuf v = v := rfl
theorem ofBuf_main_call3_v13 (p1 : main_call3_v13.ty = ⟨S4x1022x1022, .f32⟩) (p2 : main_call3_v13.space ≠ .host) (p3 : main_call3_v13.isScoped = false) (v : main_call3_v13.ty.Contents (Elt F)) :
    (TRef.of (sig := sig) (T := ⟨S4x1022x1022, .f32⟩) main_call3_v13 p1 p2 p3).ofBuf v = v := rfl
theorem toBuf_main_call3_cst (p1 : main_call3_cst.ty = ⟨S_, .f32⟩) (p2 : main_call3_cst.space ≠ .host) (p3 : main_call3_cst.isScoped = false) (v : (⟨S_, .f32⟩ : BufTy).Contents (Elt F)) :
    (TRef.of (sig := sig) (T := ⟨S_, .f32⟩) main_call3_cst p1 p2 p3).toBuf v = v := rfl
theorem ofBuf_main_call3_cst (p1 : main_call3_cst.ty = ⟨S_, .f32⟩) (p2 : main_call3_cst.space ≠ .host) (p3 : main_call3_cst.isScoped = false) (v : main_call3_cst.ty.Contents (Elt F)) :
    (TRef.of (sig := sig) (T := ⟨S_, .f32⟩) main_call3_cst p1 p2 p3).ofBuf v = v := rfl
theorem toBuf_main_call3_v14 (p1 : main_call3_v14.ty = ⟨S4x1022x1022, .f32⟩) (p2 : main_call3_v14.space ≠ .host) (p3 : main_call3_v14.isScoped = false) (v : (⟨S4x1022x1022, .f32⟩ : BufTy).Contents (Elt F)) :
    (TRef.of (sig := sig) (T := ⟨S4x1022x1022, .f32⟩) main_call3_v14 p1 p2 p3).toBuf v = v := rfl
theorem ofBuf_main_call3_v14 (p1 : main_call3_v14.ty = ⟨S4x1022x1022, .f32⟩) (p2 : main_call3_v14.space ≠ .host) (p3 : main_call3_v14.isScoped = false) (v : main_call3_v14.ty.Contents (Elt F)) :
    (TRef.of (sig := sig) (T := ⟨S4x1022x1022, .f32⟩) main_call3_v14 p1 p2 p3).ofBuf v = v := rfl
theorem toBuf_main_v105 (p1 : main_v105.ty = ⟨S4x1022x1022, .f32⟩) (p2 : main_v105.space ≠ .host) (p3 : main_v105.isScoped = false) (v : (⟨S4x1022x1022, .f32⟩ : BufTy).Contents (Elt F)) :
    (TRef.of (sig := sig) (T := ⟨S4x1022x1022, .f32⟩) main_v105 p1 p2 p3).toBuf v = v := rfl
theorem ofBuf_main_v105 (p1 : main_v105.ty = ⟨S4x1022x1022, .f32⟩) (p2 : main_v105.space ≠ .host) (p3 : main_v105.isScoped = false) (v : main_v105.ty.Contents (Elt F)) :
    (TRef.of (sig := sig) (T := ⟨S4x1022x1022, .f32⟩) main_v105 p1 p2 p3).ofBuf v = v := rfl

/-- The results of a line of operations read in one pass (the library's pass), with the typed references' casts removed
    in the same pass: a cast there and back cancels, a cast at a literal reference's own type is the identity. -/
macro "after_results_casts" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cast_cast_cancel,
      toBuf_main_cst_5, ofBuf_main_cst_5, toBuf_main_call0_v0, ofBuf_main_call0_v0, toBuf_main_call0_v1, ofBuf_main_call0_v1, toBuf_main_v26, ofBuf_main_v26, toBuf_main_v36, ofBuf_main_v36, toBuf_main_v37, ofBuf_main_v37, toBuf_main_call1_c, ofBuf_main_call1_c, toBuf_main_call1_v0, ofBuf_main_call1_v0, toBuf_main_v39, ofBuf_main_v39, toBuf_main_call1_v1, ofBuf_main_call1_v1, toBuf_main_call1_c_0, ofBuf_main_call1_c_0, toBuf_main_call1_v2, ofBuf_main_call1_v2, toBuf_main_call1_v3, ofBuf_main_call1_v3, toBuf_main_call1_v4, ofBuf_main_call1_v4, toBuf_main_call1_v5, ofBuf_main_call1_v5, toBuf_main_call1_c_1, ofBuf_main_call1_c_1, toBuf_main_call1_c_2, ofBuf_main_call1_c_2, toBuf_main_call1_v6, ofBuf_main_call1_v6, toBuf_main_call1_v7, ofBuf_main_call1_v7, toBuf_main_call1_v8, ofBuf_main_call1_v8, toBuf_main_call1_v9, ofBuf_main_call1_v9, toBuf_main_call1_v10, ofBuf_main_call1_v10, toBuf_main_call1_v11, ofBuf_main_call1_v11, toBuf_main_call1_c_3, ofBuf_main_call1_c_3, toBuf_main_call1_v12, ofBuf_main_call1_v12, toBuf_main_v10, ofBuf_main_v10, toBuf_main_call1_v13, ofBuf_main_call1_v13, toBuf_main_call1_cst, ofBuf_main_call1_cst, toBuf_main_call1_v14, ofBuf_main_call1_v14, toBuf_main_v40, ofBuf_main_v40, toBuf_main_call2_c, ofBuf_main_call2_c, toBuf_main_call2_v0, ofBuf_main_call2_v0, toBuf_main_v51, ofBuf_main_v51, toBuf_main_call2_v1, ofBuf_main_call2_v1, toBuf_main_call2_c_0, ofBuf_main_call2_c_0, toBuf_main_call2_v2, ofBuf_main_call2_v2, toBuf_main_call2_v3, ofBuf_main_call2_v3, toBuf_main_call2_v4, ofBuf_main_call2_v4, toBuf_main_call2_v5, ofBuf_main_call2_v5, toBuf_main_call2_c_1, ofBuf_main_call2_c_1, toBuf_main_call2_c_2, ofBuf_main_call2_c_2, toBuf_main_call2_v6, ofBuf_main_call2_v6, toBuf_main_call2_v7, ofBuf_main_call2_v7, toBuf_main_call2_v8, ofBuf_main_call2_v8, toBuf_main_call2_v9, ofBuf_main_call2_v9, toBuf_main_call2_v10, ofBuf_main_call2_v10, toBuf_main_call2_v11, ofBuf_main_call2_v11, toBuf_main_call2_c_3, ofBuf_main_call2_c_3, toBuf_main_call2_v12, ofBuf_main_call2_v12, toBuf_main_v50, ofBuf_main_v50, toBuf_main_call2_v13, ofBuf_main_call2_v13, toBuf_main_call2_cst, ofBuf_main_call2_cst, toBuf_main_call2_v14, ofBuf_main_call2_v14, toBuf_main_v52, ofBuf_main_v52, toBuf_main_call3_c, ofBuf_main_call3_c, toBuf_main_call3_v0, ofBuf_main_call3_v0, toBuf_main_v104, ofBuf_main_v104, toBuf_main_call3_v1, ofBuf_main_call3_v1, toBuf_main_call3_c_0, ofBuf_main_call3_c_0, toBuf_main_call3_v2, ofBuf_main_call3_v2, toBuf_main_call3_v3, ofBuf_main_call3_v3, toBuf_main_call3_v4, ofBuf_main_call3_v4, toBuf_main_call3_v5, ofBuf_main_call3_v5, toBuf_main_call3_c_1, ofBuf_main_call3_c_1, toBuf_main_call3_c_2, ofBuf_main_call3_c_2, toBuf_main_call3_v6, ofBuf_main_call3_v6, toBuf_main_call3_v7, ofBuf_main_call3_v7, toBuf_main_call3_v8, ofBuf_main_call3_v8, toBuf_main_call3_v9, ofBuf_main_call3_v9, toBuf_main_call3_v10, ofBuf_main_call3_v10, toBuf_main_call3_v11, ofBuf_main_call3_v11, toBuf_main_call3_c_3, ofBuf_main_call3_c_3, toBuf_main_call3_v12, ofBuf_main_call3_v12, toBuf_main_v102, ofBuf_main_v102, toBuf_main_call3_v13, ofBuf_main_call3_v13, toBuf_main_call3_cst, ofBuf_main_call3_cst, toBuf_main_call3_v14, ofBuf_main_call3_v14, toBuf_main_v105, ofBuf_main_v105]))

end Cert.ReferenceIdeal.Casts

end
-- ==== Proof.RefGath.lean ====
/-
  The reference's three gathered arrays are the specification's.

  The reference forms the softmax of the logits over the whole array,
  `probs b t v = exp (x b t v - max_v x b t ·) / ∑_v exp (x b t v - max_v x b t ·)`, and reads it three times along the
  vocabulary axis at token ids: at every step against every position (`gath`), at step `q + 1` against position `q`
  (`consec`), and shifted by two in both step and position (`ngram`). Each read first adds the vocabulary size to a
  negative id, then replaces by a not-a-number every element whose id is still outside the vocabulary, and clamps the id
  into the vocabulary before reading. On the admitted inputs every id is a vocabulary position, so none of the three
  steps changes anything, and the element read is `prob x b t (tok ids b p)`.

  Order of the file: the read of a row-wise gather at an index, for any extents; the softmax stages at an index
  (`probs_apply`); the facts about a 32-bit word below the vocabulary size; the conjunction over a unit axis; then the
  three reads, each as: the id word at an index, the in-range mask, the gathered element, the array.
-/
import proofs.«410189_j28759101014346_2_alg».proof.Proof.RefRead
import proofs.«410189_j28759101014346_2_alg».proof.Proof.Spec
import Idealize.ShloMosaic.PureOps.Reduce
import Idealize.ShloMosaic.PureOps.Ideal.Laws
import Idealize.ShloMosaic.Lib.ValueIdx
import Idealize.ShloMosaic.Lib.StableHlo.Predicate

noncomputable section

namespace Cert.RefGath

open Cert.ReferenceIdeal Cert.ReferenceIdeal.Gen Cert.ReferenceIdeal.ReadP Cert.Spec
open Idealize.ShloMosaic Idealize.ShloMosaic.ValueIdx Idealize.ShloMosaic.StableHlo.Predicate

/-! ## A row-wise gather read at an index

Operand `[B, T, V]`, start indices `[B, T, P, 1]`, result `[B, T, P]`: the first two axes of the operand are batching axes
paired with the first two of the start indices, the last axis of the operand is indexed (and collapsed) by the one
component of the start index. Result element `(b, t, p)` is the operand at `(b, t, c)`, `c` the start index
`idx[b, t, p, 0]` read signed and clamped into `[0, V − 1]`. -/

/-- Those dimension numbers, for any extents. -/
abbrev rowDims (B T V P : Nat)
    (wf : GatherDims.WF ⟨3, ![B, T, V]⟩ ⟨4, ![B, T, P, 1]⟩ ⟨3, ![B, T, P]⟩ [] [2] [0, 1] [2] [0, 1] 3 ![1, 1, 1]) :
    GatherDims ⟨3, ![B, T, V]⟩ ⟨4, ![B, T, P, 1]⟩ ⟨3, ![B, T, P]⟩ where
  offsetDims := []
  collapsedSliceDims := [2]
  operandBatchingDims := [0, 1]
  startIndicesBatchingDims := [0, 1]
  startIndexMap := [2]
  indexVectorDim := 3
  sliceSizes := ![1, 1, 1]
  wf := wf

section RowGather
variable {B T V P w : Nat}
  (wf : GatherDims.WF ⟨3, ![B, T, V]⟩ ⟨4, ![B, T, P, 1]⟩ ⟨3, ![B, T, P]⟩ [] [2] [0, 1] [2] [0, 1] 3 ![1, 1, 1])

/-- Axis 0 of the operand is a batching axis … -/
theorem axis0_batching : (0 : Fin 3) ∈ ([0, 1] : List (Fin 3)) := by decide
/-- … so is axis 1 … -/
theorem axis1_batching : (1 : Fin 3) ∈ ([0, 1] : List (Fin 3)) := by decide
/-- … axis 2 is not … -/
theorem axis2_not_batching : (2 : Fin 3) ∉ ([0, 1] : List (Fin 3)) := by decide
/-- … it is the collapsed axis, the one the start index names. -/
theorem axis2_collapsed : (2 : Fin 3) ∈ ([2] : List (Fin 3)) := by decide

/-- On the first batching axis the operand coordinate is the result's first coordinate. -/
theorem row_axis0 (idx : IVec ⟨4, ![B, T, P, 1]⟩ w) (b : Fin B) (t : Fin T) (p : Fin P) :
    (rowDims B T V P wf).start (ix3 b t p) idx (0 : Fin 3) + (rowDims B T V P wf).batchCoord (ix3 b t p) (0 : Fin 3)
      + (rowDims B T V P wf).offCoord (ix3 b t p) (0 : Fin 3) = b.val := by
  rw [GatherDims.start_batching _ _ _ _ axis0_batching,
    GatherDims.offCoord_eq_zero _ _ _ (fun h => ((GatherDims.mem_sKept _ _).mp h).2 axis0_batching)]
  unfold GatherDims.batchCoord
  rw [dif_pos axis0_batching]
  simp only [Nat.zero_add, Nat.add_zero]
  rfl

/-- On the second batching axis it is the result's second coordinate. -/
theorem row_axis1 (idx : IVec ⟨4, ![B, T, P, 1]⟩ w) (b : Fin B) (t : Fin T) (p : Fin P) :
    (rowDims B T V P wf).start (ix3 b t p) idx (1 : Fin 3) + (rowDims B T V P wf).batchCoord (ix3 b t p) (1 : Fin 3)
      + (rowDims B T V P wf).offCoord (ix3 b t p) (1 : Fin 3) = t.val := by
  rw [GatherDims.start_batching _ _ _ _ axis1_batching,
    GatherDims.offCoord_eq_zero _ _ _ (fun h => ((GatherDims.mem_sKept _ _).mp h).2 axis1_batching)]
  unfold GatherDims.batchCoord
  rw [dif_pos axis1_batching]
  simp only [Nat.zero_add, Nat.add_zero]
  rfl

/-- On the indexed axis it is the start index `idx[b, t, p, 0]`, read signed and clamped into `[0, V − 1]`. -/
theorem row_axis2 (idx : IVec ⟨4, ![B, T, P, 1]⟩ w) (b : Fin B) (t : Fin T) (p : Fin P) :
    (rowDims B T V P wf).start (ix3 b t p) idx (2 : Fin 3) + (rowDims B T V P wf).batchCoord (ix3 b t p) (2 : Fin 3)
      + (rowDims B T V P wf).offCoord (ix3 b t p) (2 : Fin 3)
      = min (idx (ix4 b t p (0 : Fin 1))).toInt.toNat (V - 1) := by
  rw [GatherDims.batchCoord_eq_zero _ _ _ axis2_not_batching,
    GatherDims.offCoord_eq_zero _ _ _ (fun h => ((GatherDims.mem_sKept _ _).mp h).1 axis2_collapsed)]
  simp only [Nat.add_zero]
  unfold GatherDims.start
  rw [dif_pos axis2_collapsed]
  have hsi : (rowDims B T V P wf).siIdx (ix3 b t p) ⟨List.idxOf (2 : Fin 3) (rowDims B T V P wf).startIndexMap,
      List.idxOf_lt_length_iff.2 axis2_collapsed⟩ = ix4 b t p (0 : Fin 1) := by
    funext c; refine Fin.ext ?_
    match c with
    | ⟨0, _⟩ => rfl
    | ⟨1, _⟩ => rfl
    | ⟨2, _⟩ => rfl
    | ⟨3, _⟩ => rfl
  rw [hsi]
  rfl

/-- THE ROW-WISE GATHER AT `(b, t, p)`: the operand's row `(b, t)` at the clamped start index. -/
theorem gather_row_apply {α : Type} (hV : 0 < V)
    (x : (⟨3, ![B, T, V]⟩ : Shape).Idx → α) (idx : IVec ⟨4, ![B, T, P, 1]⟩ w) (b : Fin B) (t : Fin T) (p : Fin P) :
    Host.gather (rowDims B T V P wf) x idx (ix3 b t p)
      = x (ix3 b t ⟨min (idx (ix4 b t p (0 : Fin 1))).toInt.toNat (V - 1), by omega⟩) := by
  unfold Host.gather
  congr 1
  funext a
  refine Fin.ext ?_
  match a with
  | ⟨0, _⟩ => exact row_axis0 wf idx b t p
  | ⟨1, _⟩ => exact row_axis1 wf idx b t p
  | ⟨2, _⟩ => exact row_axis2 wf idx b t p

end RowGather

/-! ## The softmax stages at an index -/

/-- The row maximum is broadcast back along the vocabulary axis: element `(b, t, v)` reads row `(b, t)`. -/
theorem idx_rowmax_bcast (b : Fin 4) (t : Fin 1024) (v : Fin 32000) : idx_main_v3 (idx_main_v4 (ix3 b t v)) = ix2 b t :=
  funext fun a => Fin.ext (by match a with | ⟨0, _⟩ => rfl | ⟨1, _⟩ => rfl)
/-- So is the row sum. -/
theorem idx_rowsum_bcast (b : Fin 4) (t : Fin 1024) (v : Fin 32000) : idx_main_v8 (idx_main_v9 (ix3 b t v)) = ix2 b t :=
  funext fun a => Fin.ext (by match a with | ⟨0, _⟩ => rfl | ⟨1, _⟩ => rfl)
/-- Term `k` of the row sum at `(b, t)` is element `(b, t, k)`. -/
theorem idx_rowsum_term (b : Fin 4) (t : Fin 1024) (k : Fin 32000) : idx_main_v7 (ix2 b t) k = ix3 b t k :=
  funext fun a => Fin.ext (by match a with | ⟨0, _⟩ => rfl | ⟨1, _⟩ => rfl | ⟨2, _⟩ => rfl)

/-- The word of minus infinity is the least extended real. -/
theorem negInf : Ideal.ofBits .f32 0xFF800000#32 = (⊥ : EReal) := by simp [Ideal.ofBits, Ideal.ieee]

/-- Row `(b, t)` with vocabulary coordinate `k` put back is `(b, t, k)`. -/
theorem lift_row (h : S4x1024x32000.Reduces [2] S4x1024) (b : Fin 4) (t : Fin 1024) (k : Fin (S4x1024x32000.size 2)) :
    h.lift (ix2 b t) k = ix3 b t (⟨k.val, k.isLt⟩ : Fin 32000) := by
  funext c; apply Fin.ext
  fin_cases c <;> rfl

/-- The maximum over the vocabulary axis, from minus infinity, is the row's largest logit. -/
theorem rowMax_apply (x : FVec Ideal S4x1024x32000 .f32) (b : Fin 4) (t : Fin 1024) :
    val_main_v0 (F := Ideal) x (ix2 b t) = rowMax x b t := by
  unfold val_main_v0
  have h : S4x1024x32000.Reduces [2] S4x1024 := by decide
  rw [Host.reduce_eq_fold_single FloatOps.maximumf x _ reducesTo_S4x1024x32000_S4x1024_d2 h h_S_]
  have hf : (x ∘ h.lift (ix2 b t)) = fun v : Fin 32000 => x (ix3 b t v) := funext fun k => congrArg x (lift_row h b t k)
  show Finset.fold max (Ideal.ofBits .f32 0xFF800000#32) (x ∘ h.lift (ix2 b t)) (Finset.univ : Finset (Fin 32000))
    = Finset.fold max ⊥ (fun v : Fin 32000 => x (ix3 b t v)) Finset.univ
  rw [negInf, hf]
  rfl

/-- The shifted exponential: the maximum with minus infinity is the row maximum itself. -/
theorem num_apply (x : FVec Ideal S4x1024x32000 .f32) (b : Fin 4) (t : Fin 1024) (v : Fin 32000) :
    val_main_v6 (F := Ideal) x (ix3 b t v) = num x b t v := by
  rw [val_main_v6_apply, val_main_v5_apply, val_main_v4_apply, val_main_v3_apply, val_main_v2_apply, val_main_v1_apply,
    val_main_cst_0_apply, idx_rowmax_bcast, rowMax_apply]
  show Ideal.exp (x (ix3 b t v) - max (Ideal.ofBits .f32 0xFF800000#32) (rowMax x b t)) = Ideal.exp (x (ix3 b t v) - rowMax x b t)
  rw [negInf, max_eq_right bot_le]

/-- The sum over the vocabulary axis, from zero, is the softmax denominator. -/
theorem den_apply (x : FVec Ideal S4x1024x32000 .f32) (b : Fin 4) (t : Fin 1024) :
    val_main_v7 (F := Ideal) x (ix2 b t) = den x b t := by
  rw [val_main_v7_apply, val_main_cst_1_apply]
  show Ideal.ofBits .f32 0x00000000#32 + ∑ k : Fin 32000, val_main_v6 (F := Ideal) x (idx_main_v7 (ix2 b t) k)
    = ∑ v : Fin 32000, num x b t v
  rw [Ideal.ofBits_zero_f32, zero_add]
  exact Finset.sum_congr rfl fun k _ => by rw [idx_rowsum_term, num_apply]

/-- THE SOFTMAX AT `(b, t, v)`: the probability of vocabulary position `v` in row `(b, t)`. -/
theorem probs_apply (x : FVec Ideal S4x1024x32000 .f32) (b : Fin 4) (t : Fin 1024) (v : Fin 32000) :
    val_main_v10 (F := Ideal) x (ix3 b t v) = prob x b t v := by
  rw [val_main_v10_apply, val_main_v9_apply, val_main_v8_apply, idx_rowsum_bcast, den_apply, num_apply]
  rfl

/-! ## A 32-bit word below the vocabulary size

Such a word is non-negative as a signed integer and at most 31999, reads the same signed and unsigned, and is its own
remainder modulo 32000. -/

section Words
variable {a : BitVec 32} (ha : a.toNat < 32000)
include ha

/-- It is not negative … -/
theorem slt_zero : IntOp.cmpi .slt a 0#32 = 0#1 :=
  eq_zero_of_ne_one fun h => by
    have := (slt_iff_toNat (a := a) (b := 0#32) (by omega) (by decide)).mp h
    simp at this

/-- … it is at least zero … -/
theorem sge_zero : IntOp.cmpi .sge a 0#32 = 1#1 :=
  (sge_iff_toNat (a := a) (b := 0#32) (by omega) (by decide)).mpr (by simp)

/-- … and at most the last vocabulary position. -/
theorem sle_top : IntOp.cmpi .sle a 31999#32 = 1#1 :=
  (sle_iff_toNat (a := a) (b := 31999#32) (by omega) (by decide)).mpr (by
    show a.toNat ≤ (31999#32 : BitVec 32).toNat
    have : (31999#32 : BitVec 32).toNat = 31999 := by decide
    omega)

/-- Only a negative id has the vocabulary size added: this one is kept. -/
theorem wrap_id : Scalar.select (IntOp.cmpi .slt a 0#32) (IntOp.addi a 32000#32) a = a := by
  rw [slt_zero ha, select_zero]

/-- The in-range test `0 ≤ a ∧ a ≤ 31999`, conjoined with the reduction's initial `true`, holds. -/
theorem inRange : IntOp.andi (IntOp.andi (IntOp.cmpi .sge a 0#32) (IntOp.cmpi .sle a 31999#32)) 1#1 = 1#1 := by
  rw [sge_zero ha, sle_top ha]; decide

/-- Read signed and clamped into `[0, 31999]` it is the vocabulary position `a mod 32000`, which is `a`. -/
theorem clamp_id : min a.toInt.toNat (32000 - 1) = a.toNat % 32000 := by
  rw [toInt_eq_toNat_of_lt (by omega), Int.toNat_natCast, Nat.mod_eq_of_lt ha]
  omega

end Words

/-! ## The conjunction of a mask over a unit last axis -/

/-- The one index over `(b, t, p)` on the unit axis. -/
theorem lift_unit {B T P : Nat} (h : (⟨4, ![B, T, P, 1]⟩ : Shape).Reduces [3] ⟨3, ![B, T, P]⟩) (b : Fin B) (t : Fin T) (p : Fin P)
    (k : Fin ((⟨4, ![B, T, P, 1]⟩ : Shape).size 3)) : h.lift (ix3 b t p) k = ix4 b t p (0 : Fin 1) := by
  funext c; apply Fin.ext
  have hk : k.val = 0 := by have h1 : k.val < 1 := k.isLt; omega
  fin_cases c
  · rfl
  · rfl
  · rfl
  · exact hk

/-- A conjunction over an axis of one element is that element conjoined with the initial value. -/
theorem reduce_and_unit {B T P : Nat} (m : IVec ⟨4, ![B, T, P, 1]⟩ 1) (init : IVec ⟨0, ![]⟩ 1)
    (h' : (⟨4, ![B, T, P, 1]⟩ : Shape).ReducesTo [3] ⟨3, ![B, T, P]⟩) (h : (⟨4, ![B, T, P, 1]⟩ : Shape).Reduces [3] ⟨3, ![B, T, P]⟩)
    (hu : 0 < (⟨0, ![]⟩ : Shape).numel) (b : Fin B) (t : Fin T) (p : Fin P) :
    Host.reduce IntOp.andi m init h' hu (ix3 b t p) = IntOp.andi (m (ix4 b t p (0 : Fin 1))) (init (Shape.Idx.first hu)) := by
  rw [Host.reduce_eq_fold_single IntOp.andi m init h' h hu]
  have hf : (m ∘ h.lift (ix3 b t p) : Fin 1 → BitVec 1) = fun _ => m (ix4 b t p (0 : Fin 1)) :=
    funext fun k => congrArg m (lift_unit h b t p k)
  refine Eq.trans (congrArg (fun f : Fin 1 → BitVec 1 =>
    Finset.fold IntOp.andi (init (Shape.Idx.first hu)) f (Finset.univ : Finset (Fin 1))) hf) ?_
  rw [Finset.univ_unique, Finset.fold_singleton]

/-! ## The first read: every step against every position -/

section First
variable (x : FVec Ideal S4x1024x32000 .f32) (ids : IVec S4x1024 32)

/-- The ids are broadcast along the step axis: element `(b, t, p)` reads `ids[b, p]`. -/
theorem idx_ids1 (b : Fin 4) (t p : Fin 1024) : idx_main_v38 (idx_main_v39 (ix3 b t p)) = ix2 b p :=
  funext fun a => Fin.ext (by match a with | ⟨0, _⟩ => rfl | ⟨1, _⟩ => rfl)

theorem ids1_apply (b : Fin 4) (t p : Fin 1024) : val_main_v39 (F := Ideal) ids (ix3 b t p) = ids (ix2 b p) := by
  rw [val_main_v39_apply, val_main_v38_apply, idx_ids1]

/-- Appending a unit axis keeps the coordinates. -/
theorem idx_unit1 (b : Fin 4) (t p : Fin 1024) : idx_main_call1_v5 (ix4 b t p (0 : Fin 1)) = ix3 b t p := by
  funext a; apply Fin.ext
  have hb := b.isLt; have ht := t.isLt; have hp := p.isLt
  match a with
  | ⟨0, _⟩ => show (((b.val * 1024 + t.val) * 1024 + p.val) * 1 + 0) / 1048576 = b.val; omega
  | ⟨1, _⟩ => show (((b.val * 1024 + t.val) * 1024 + p.val) * 1 + 0) / 1024 % 1024 = t.val; omega
  | ⟨2, _⟩ => show (((b.val * 1024 + t.val) * 1024 + p.val) * 1 + 0) % 1024 = p.val; omega

/-- The start index at `(b, t, p)` is the id at position `p`, unchanged. -/
theorem word1_apply (hv : ∀ i, (ids i).toNat < 32000) (b : Fin 4) (t p : Fin 1024) :
    val_main_call1_v5 (F := Ideal) ids (ix4 b t p (0 : Fin 1)) = ids (ix2 b p) := by
  rw [val_main_call1_v5_apply, idx_unit1, val_main_call1_v4_apply, val_main_call1_v1_apply, val_main_call1_v3_apply,
    val_main_call1_v0_apply, val_main_call1_c_apply, val_main_call1_v2_apply, val_main_call1_c_0_apply, ids1_apply]
  exact wrap_id (hv _)

/-- Every element is in range. -/
theorem mask1_apply (hv : ∀ i, (ids i).toNat < 32000) (b : Fin 4) (t p : Fin 1024) :
    val_main_call1_v12 (F := Ideal) ids (ix3 b t p) = 1#1 := by
  unfold val_main_call1_v12
  rw [reduce_and_unit _ _ reducesTo_S4x1024x1024x1_S4x1024x1024_d3 (by decide) h_S_ b t p,
    val_main_call1_v11_apply, val_main_call1_v7_apply, val_main_call1_v10_apply, val_main_call1_v6_apply,
    val_main_call1_c_2_apply, val_main_call1_v9_apply, val_main_call1_v8_apply, val_main_call1_c_1_apply,
    val_main_call1_c_3_apply, word1_apply ids hv]
  exact inRange (hv _)

/-- The gathered element at `(b, t, p)`: the probability at step `t` of the token at position `p`. -/
theorem read1_apply (hv : ∀ i, (ids i).toNat < 32000) (b : Fin 4) (t p : Fin 1024) :
    val_main_call1_v13 (F := Ideal) x ids (ix3 b t p) = prob x b t (tok ids b p) := by
  unfold val_main_call1_v13
  refine (gather_row_apply (B := 4) (T := 1024) (V := 32000) (P := 1024) _ (by norm_num) (val_main_v10 (F := Ideal) x)
    (val_main_call1_v5 (F := Ideal) ids) b t p).trans ?_
  refine Eq.trans (congrArg (fun v => val_main_v10 (F := Ideal) x (ix3 b t v)) (Fin.ext ?_)) (probs_apply x b t (tok ids b p))
  show min (val_main_call1_v5 (F := Ideal) ids (ix4 b t p (0 : Fin 1))).toInt.toNat (32000 - 1) = (ids (ix2 b p)).toNat % 32000
  rw [word1_apply ids hv]
  exact clamp_id (hv _)

/-- THE FIRST READ IS `gath`. -/
theorem ref_gath (h : Dom x ids) : val_main_v40 (F := Ideal) x ids = gath x ids := by
  funext j
  obtain ⟨b, t, p, rfl⟩ : ∃ (b : Fin 4) (t p : Fin 1024), j = ix3 b t p := ⟨j 0, j 1, j 2, eq_ix3 j⟩
  rw [val_main_v40_apply, mask1_apply ids h.vocab, select_one, read1_apply x ids h.vocab]
  rfl

end First

/-! ## The second read: step `q + 1` against position `q` -/

section Second
variable (x : FVec Ideal S4x1024x32000 .f32) (ids : IVec S4x1024 32)

/-- The ids without the last position, with a unit axis appended: element `(b, q, 0)` reads `ids[b, q]`. -/
theorem idx_ids2 (b : Fin 4) (q : Fin 1023) :
    idx_main_v49 (idx_main_v51 (ix3 b q (0 : Fin 1))) = ix2 b (⟨q.val, by omega⟩ : Fin 1024) :=
  funext fun a => Fin.ext (by match a with | ⟨0, _⟩ => rfl | ⟨1, _⟩ => rfl)

theorem ids2_apply (b : Fin 4) (q : Fin 1023) :
    val_main_v51 (F := Ideal) ids (ix3 b q (0 : Fin 1)) = ids (ix2 b (⟨q.val, by omega⟩ : Fin 1024)) := by
  rw [val_main_v51_apply, val_main_v49_apply, idx_ids2]

/-- Appending a unit axis keeps the coordinates. -/
theorem idx_unit2 (b : Fin 4) (q : Fin 1023) : idx_main_call2_v5 (ix4 b q (0 : Fin 1) (0 : Fin 1)) = ix3 b q (0 : Fin 1) := by
  funext a; apply Fin.ext
  have hb := b.isLt; have hq := q.isLt
  match a with
  | ⟨0, _⟩ => show (((b.val * 1023 + q.val) * 1 + 0) * 1 + 0) / 1023 = b.val; omega
  | ⟨1, _⟩ => show (((b.val * 1023 + q.val) * 1 + 0) * 1 + 0) / 1 % 1023 = q.val; omega
  | ⟨2, _⟩ => rfl

/-- The start index at `(b, q)` is the id at position `q`, unchanged. -/
theorem word2_apply (hv : ∀ i, (ids i).toNat < 32000) (b : Fin 4) (q : Fin 1023) :
    val_main_call2_v5 (F := Ideal) ids (ix4 b q (0 : Fin 1) (0 : Fin 1)) = ids (ix2 b (⟨q.val, by omega⟩ : Fin 1024)) := by
  rw [val_main_call2_v5_apply, idx_unit2, val_main_call2_v4_apply, val_main_call2_v1_apply, val_main_call2_v3_apply,
    val_main_call2_v0_apply, val_main_call2_c_apply, val_main_call2_v2_apply, val_main_call2_c_0_apply, ids2_apply]
  exact wrap_id (hv _)

/-- Every element is in range. -/
theorem mask2_apply (hv : ∀ i, (ids i).toNat < 32000) (b : Fin 4) (q : Fin 1023) :
    val_main_call2_v12 (F := Ideal) ids (ix3 b q (0 : Fin 1)) = 1#1 := by
  unfold val_main_call2_v12
  rw [reduce_and_unit _ _ reducesTo_S4x1023x1x1_S4x1023x1_d3 (by decide) h_S_ b q (0 : Fin 1),
    val_main_call2_v11_apply, val_main_call2_v7_apply, val_main_call2_v10_apply, val_main_call2_v6_apply,
    val_main_call2_c_2_apply, val_main_call2_v9_apply, val_main_call2_v8_apply, val_main_call2_c_1_apply,
    val_main_call2_c_3_apply, word2_apply ids hv]
  exact inRange (hv _)

/-- The probabilities without the first step: row `(b, q)` is row `(b, q + 1)` of the whole array. -/
theorem idx_probs2 (b : Fin 4) (q : Fin 1023) (v : Fin 32000) :
    idx_main_v50 (ix3 b q v) = ix3 b (⟨q.val + 1, by omega⟩ : Fin 1024) v :=
  funext fun a => Fin.ext (by
    match a with
    | ⟨0, _⟩ => rfl
    | ⟨1, _⟩ => exact (show 1 + q.val = q.val + 1 from Nat.add_comm _ _)
    | ⟨2, _⟩ => rfl)

/-- The gathered element at `(b, q)`: the probability at step `q + 1` of the token at position `q`. -/
theorem read2_apply (hv : ∀ i, (ids i).toNat < 32000) (b : Fin 4) (q : Fin 1023) :
    val_main_call2_v13 (F := Ideal) x ids (ix3 b q (0 : Fin 1))
      = prob x b (⟨q.val + 1, by omega⟩ : Fin 1024) (tok ids b (⟨q.val, by omega⟩ : Fin 1024)) := by
  unfold val_main_call2_v13
  refine (gather_row_apply (B := 4) (T := 1023) (V := 32000) (P := 1) _ (by norm_num) (val_main_v50 (F := Ideal) x)
    (val_main_call2_v5 (F := Ideal) ids) b q (0 : Fin 1)).trans ?_
  rw [val_main_v50_apply, idx_probs2]
  refine Eq.trans (congrArg (fun v => val_main_v10 (F := Ideal) x (ix3 b (⟨q.val + 1, by omega⟩ : Fin 1024) v)) (Fin.ext ?_))
    (probs_apply x b _ (tok ids b (⟨q.val, by omega⟩ : Fin 1024)))
  show min (val_main_call2_v5 (F := Ideal) ids (ix4 b q (0 : Fin 1) (0 : Fin 1))).toInt.toNat (32000 - 1)
    = (ids (ix2 b (⟨q.val, by omega⟩ : Fin 1024))).toNat % 32000
  rw [word2_apply ids hv]
  exact clamp_id (hv _)

/-- Dropping the unit axis keeps the coordinates. -/
theorem idx_drop2 (b : Fin 4) (q : Fin 1023) : idx_main_v53 (ix2 b q) = ix3 b q (0 : Fin 1) := by
  funext a; apply Fin.ext
  have hb := b.isLt; have hq := q.isLt
  match a with
  | ⟨0, _⟩ => show (b.val * 1023 + q.val) / 1023 = b.val; omega
  | ⟨1, _⟩ => show (b.val * 1023 + q.val) / 1 % 1023 = q.val; omega
  | ⟨2, _⟩ => rfl

/-- THE SECOND READ IS `consec`. -/
theorem ref_consec (h : Dom x ids) : val_main_v53 (F := Ideal) x ids = consec x ids := by
  funext j
  obtain ⟨b, q, rfl⟩ : ∃ (b : Fin 4) (q : Fin 1023), j = ix2 b q := ⟨j 0, j 1, eq_ix2 j⟩
  rw [val_main_v53_apply, idx_drop2, val_main_v52_apply, mask2_apply ids h.vocab, select_one, read2_apply x ids h.vocab]
  rfl

end Second

/-! ## The third read: step `u + 2` against position `i + 2` -/

section Third
variable (x : FVec Ideal S4x1024x32000 .f32) (ids : IVec S4x1024 32)

/-- The ids without the first two positions, broadcast along the step axis: element `(b, u, i)` reads `ids[b, i + 2]`. -/
theorem idx_ids3 (b : Fin 4) (u i : Fin 1022) :
    idx_main_v62 (idx_main_v103 (idx_main_v104 (ix3 b u i))) = ix2 b (⟨i.val + 2, by omega⟩ : Fin 1024) :=
  funext fun a => Fin.ext (by
    match a with
    | ⟨0, _⟩ => rfl
    | ⟨1, _⟩ => exact (show 2 + i.val = i.val + 2 from Nat.add_comm _ _))

theorem ids3_apply (b : Fin 4) (u i : Fin 1022) :
    val_main_v104 (F := Ideal) ids (ix3 b u i) = ids (ix2 b (⟨i.val + 2, by omega⟩ : Fin 1024)) := by
  rw [val_main_v104_apply, val_main_v103_apply, val_main_v62_apply, idx_ids3]

/-- Appending a unit axis keeps the coordinates. -/
theorem idx_unit3 (b : Fin 4) (u i : Fin 1022) : idx_main_call3_v5 (ix4 b u i (0 : Fin 1)) = ix3 b u i := by
  funext a; apply Fin.ext
  have hb := b.isLt; have hu := u.isLt; have hi := i.isLt
  match a with
  | ⟨0, _⟩ => show (((b.val * 1022 + u.val) * 1022 + i.val) * 1 + 0) / 1044484 = b.val; omega
  | ⟨1, _⟩ => show (((b.val * 1022 + u.val) * 1022 + i.val) * 1 + 0) / 1022 % 1022 = u.val; omega
  | ⟨2, _⟩ => show (((b.val * 1022 + u.val) * 1022 + i.val) * 1 + 0) % 1022 = i.val; omega

/-- The start index at `(b, u, i)` is the id at position `i + 2`, unchanged. -/
theorem word3_apply (hv : ∀ i, (ids i).toNat < 32000) (b : Fin 4) (u i : Fin 1022) :
    val_main_call3_v5 (F := Ideal) ids (ix4 b u i (0 : Fin 1)) = ids (ix2 b (⟨i.val + 2, by omega⟩ : Fin 1024)) := by
  rw [val_main_call3_v5_apply, idx_unit3, val_main_call3_v4_apply, val_main_call3_v1_apply, val_main_call3_v3_apply,
    val_main_call3_v0_apply, val_main_call3_c_apply, val_main_call3_v2_apply, val_main_call3_c_0_apply, ids3_apply]
  exact wrap_id (hv _)

/-- Every element is in range. -/
theorem mask3_apply (hv : ∀ i, (ids i).toNat < 32000) (b : Fin 4) (u i : Fin 1022) :
    val_main_call3_v12 (F := Ideal) ids (ix3 b u i) = 1#1 := by
  unfold val_main_call3_v12
  rw [reduce_and_unit _ _ reducesTo_S4x1022x1022x1_S4x1022x1022_d3 (by decide) h_S_ b u i,
    val_main_call3_v11_apply, val_main_call3_v7_apply, val_main_call3_v10_apply, val_main_call3_v6_apply,
    val_main_call3_c_2_apply, val_main_call3_v9_apply, val_main_call3_v8_apply, val_main_call3_c_1_apply,
    val_main_call3_c_3_apply, word3_apply ids hv]
  exact inRange (hv _)

/-- The probabilities without the first two steps: row `(b, u)` is row `(b, u + 2)` of the whole array. -/
theorem idx_probs3 (b : Fin 4) (u : Fin 1022) (v : Fin 32000) :
    idx_main_v102 (ix3 b u v) = ix3 b (⟨u.val + 2, by omega⟩ : Fin 1024) v :=
  funext fun a => Fin.ext (by
    match a with
    | ⟨0, _⟩ => rfl
    | ⟨1, _⟩ => exact (show 2 + u.val = u.val + 2 from Nat.add_comm _ _)
    | ⟨2, _⟩ => rfl)

/-- The gathered element at `(b, u, i)`: the probability at step `u + 2` of the token at position `i + 2`. -/
theorem read3_apply (hv : ∀ i, (ids i).toNat < 32000) (b : Fin 4) (u i : Fin 1022) :
    val_main_call3_v13 (F := Ideal) x ids (ix3 b u i)
      = prob x b (⟨u.val + 2, by omega⟩ : Fin 1024) (tok ids b (⟨i.val + 2, by omega⟩ : Fin 1024)) := by
  unfold val_main_call3_v13
  refine (gather_row_apply (B := 4) (T := 1022) (V := 32000) (P := 1022) _ (by norm_num) (val_main_v102 (F := Ideal) x)
    (val_main_call3_v5 (F := Ideal) ids) b u i).trans ?_
  rw [val_main_v102_apply, idx_probs3]
  refine Eq.trans (congrArg (fun v => val_main_v10 (F := Ideal) x (ix3 b (⟨u.val + 2, by omega⟩ : Fin 1024) v)) (Fin.ext ?_))
    (probs_apply x b _ (tok ids b (⟨i.val + 2, by omega⟩ : Fin 1024)))
  show min (val_main_call3_v5 (F := Ideal) ids (ix4 b u i (0 : Fin 1))).toInt.toNat (32000 - 1)
    = (ids (ix2 b (⟨i.val + 2, by omega⟩ : Fin 1024))).toNat % 32000
  rw [word3_apply ids hv]
  exact clamp_id (hv _)

/-- THE THIRD READ IS `ngram`. -/
theorem ref_ngram (h : Dom x ids) : val_main_v105 (F := Ideal) x ids = ngram x ids := by
  funext j
  obtain ⟨b, u, i, rfl⟩ : ∃ (b : Fin 4) (u i : Fin 1022), j = ix3 b u i := ⟨j 0, j 1, j 2, eq_ix3 j⟩
  rw [val_main_v105_apply, mask3_apply ids h.vocab, select_one, read3_apply x ids h.vocab]
  rfl

end Third

end Cert.RefGath

end
-- ==== Proof.KTail.lean ====
/-
  The kernel program's host tail: the 146 operations after the region, as one function `ktail` of the gathered
  probabilities `g b t p` (what the region wrote) and the token ids, and that function read against the reference's.

  The tail computes three losses and joins them. Two of its sub-terms read `g` where the reference reads the softmax
  itself: the sub-diagonal `g b (q + 1) q` (`kconsec`) and the doubly shifted `g b (u + 2) (i + 2)` (`kngram`); a
  third, the batched product of two 0/1 matrices (`kdot`), converts its operands to another float format than the
  reference does, which at the extended reals is the same function.
-/
import proofs.«410189_j28759101014346_2_alg».proof.Proof.Gen.KernelIdeal.Launch
import proofs.«410189_j28759101014346_2_alg».proof.Proof.Spec
import proofs.«410189_j28759101014346_2_alg».proof.Proof.RefRead
import proofs.«410189_j28759101014346_2_alg».proof.Proof.RefGath
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.Affine
import Idealize.ShloMosaic.PureOps.Reduce

noncomputable section

namespace Cert.KTail

open Idealize.ShloMosaic Idealize.ShloMosaic.TcCoe Idealize.SL.Sem Idealize.ShloMosaic.StableHlo
open Cert.KernelIdeal Cert.KernelIdeal.Gen

variable {F : FTy → Type} [FloatOps F]

/-! ## The stages of the host tail

After the region the program holds the gathered probabilities `g b t p` and the token ids. Three losses are computed
from them and joined: a token loss (a banded, exponentially decaying weight on `g`), a consecutive-token loss (the
sub-diagonal of `g`) and an n-gram loss (a doubly shifted `g`, weighted by which bigrams recur). -/

/-- 1 where the token id is not the padding id 0, else 0. -/
def kmask (ids : IVec S4x1024 32) : FVec F S4x1024 .f32 :=
  uitofp (F := F) .f32 (cmpi .ne ids (broadcastInDim S4x1024 ![] bcast_S_S4x1024 (constantI S_ 32 0#32)))

/-- The step `t` as a column. -/
def krow : IVec S1024x1 32 := broadcastInDim S1024x1 ![0] bcast_S1024_S1024x1_0 (iotaInDim S1024 32 0)
/-- The position `p` as a row. -/
def kcol : IVec S1x1024 32 := broadcastInDim S1x1024 ![1] bcast_S1024_S1x1024_1 (iotaInDim S1024 32 0)
/-- The position `p` at every `(t, p)`. -/
def kcolM : IVec S1024x1024 32 := broadcastInDim S1024x1024 ![0, 1] bcast_S1x1024_S1024x1024_0_1 kcol
/-- The step `t` at every `(t, p)`. -/
def krowM : IVec S1024x1024 32 := broadcastInDim S1024x1024 ![0, 1] bcast_S1024x1_S1024x1024_0_1 krow

/-- The band `t - 20 ≤ p < t`. -/
def kband : IVec S1024x1024 1 :=
  andi (cmpi .slt kcolM krowM)
    (cmpi .sge kcolM (broadcastInDim S1024x1024 ![0, 1] bcast_S1024x1_S1024x1024_0_1
      (subi krow (broadcastInDim S1024x1 ![] bcast_S_S1024x1 (constantI S_ 32 20#32)))))

/-- The decay `exp (-(t - p - 1) / 5)`. -/
def kdecay : FVec F S1024x1024 .f32 :=
  Host.exp (Host.divf (Host.negf (sitofp (F := F) .f32
      (subi (subi krowM kcolM) (broadcastInDim S1024x1024 ![] bcast_S_S1024x1024 (constantI S_ 32 1#32)))))
    (broadcastInDim S1024x1024 ![] bcast_S_S1024x1024 (constant S_ .f32 0x40A00000#32)))

/-- The weight of `(t, p)`: the decay on the band, 0 off it. -/
def kwhere : FVec F S1024x1024 .f32 :=
  select kband (kdecay (F := F)) (broadcastInDim S1024x1024 ![] bcast_S_S1024x1024 (id (constant S_ .f32 0x00000000#32)))

/-- The token loss: the sum of `g b t p · weight t p · mask b p`, over 4092. -/
def ktok (g : FVec F S4x1024x1024 .f32) (ids : IVec S4x1024 32) : FVec F S_ .f32 :=
  Host.divf
    (Host.reduceAdd
      (mulf
        (mulf g (broadcastInDim S4x1024x1024 ![0, 1, 2] bcast_S1x1024x1024_S4x1024x1024_0_1_2
          (broadcastInDim S1x1024x1024 ![1, 2] bcast_S1024x1024_S1x1024x1024_1_2 (kwhere (F := F)))))
        (broadcastInDim S4x1024x1024 ![0, 1, 2] bcast_S4x1x1024_S4x1024x1024_0_1_2
          (broadcastInDim S4x1x1024 ![0, 2] bcast_S4x1024_S4x1x1024_0_2 (kmask (F := F) ids))))
      (constant S_ .f32 0x00000000#32) reducesTo_S4x1024x1024_S_d0_1_2 h_S_)
    (constant S_ .f32 0x457FC000#32)

/-- The index `q` at every `(b, q)`, as a column along the last axis. -/
def kidx : IVec S4x1023x1 32 :=
  broadcastInDim S4x1023x1 ![0, 1, 2] bcast_S1x1023x1_S4x1023x1_0_1_2
    (broadcastInDim S1x1023x1 ![1] bcast_S1023_S1x1023x1_1 (iotaInDim S1023 32 0))

/-- The index normalised: a negative one counted from the end (`+ 1024`). -/
def kidxN : IVec S4x1023x1x1 32 :=
  shapeCast S4x1023x1x1
    (select (cmpi .slt kidx (broadcastInDim S4x1023x1 ![] bcast_S_S4x1023x1 (constantI S_ 32 0#32)))
      (addi kidx (broadcastInDim S4x1023x1 ![] bcast_S_S4x1023x1 (constantI S_ 32 1024#32))) kidx)
    shapeCasts_S4x1023x1_S4x1023x1x1

/-- 1 where the normalised index is inside `0 … 1023`. -/
def kinr : IVec S4x1023x1 1 :=
  Host.reduce IntOp.andi
    (andi (cmpi .sge kidxN (broadcastInDim S4x1023x1x1 ![] bcast_S_S4x1023x1x1 (constantI S_ 32 0#32)))
      (cmpi .sle kidxN (broadcastInDim S4x1023x1x1 ![0, 1, 2, 3] bcast_S1x1x1x1_S4x1023x1x1_0_1_2_3
        (broadcastInDim S1x1x1x1 ![3] bcast_S1_S1x1x1x1_3 (constantI S1 32 1023#32)))))
    (constantI S_ 1 1#1) reducesTo_S4x1023x1x1_S4x1023x1_d3 h_S_

/-- `g` without its first step, read along the last axis at the index `q`: the sub-diagonal `g b (q + 1) q`. -/
def kconsec (g : FVec F S4x1024x1024 .f32) : FVec F S4x1023 .f32 :=
  shapeCast S4x1023
    (select kinr
      (Host.gather gather_S4x1023x1024_S4x1023x1x1_S4x1023x1_n_2_01_01_2_3_111
        (extractStridedSlice S4x1023x1024 ![0, 1, 0] g slices_S4x1024x1024_S4x1023x1024_0_1_0) kidxN)
      (broadcastInDim S4x1023x1 ![] bcast_S_S4x1023x1 (constant S_ .f32 0x7FC00000#32)))
    shapeCasts_S4x1023x1_S4x1023

/-- The mask without its last position. -/
def kmaskC (ids : IVec S4x1024 32) : FVec F S4x1023 .f32 :=
  extractStridedSlice S4x1023 ![0, 0] (kmask (F := F) ids) slices_S4x1024_S4x1023_0_0

/-- The consecutive-token loss of an array `c b q`: its masked mean. -/
def kcon (c : FVec F S4x1023 .f32) (ids : IVec S4x1024 32) : FVec F S_ .f32 :=
  Host.divf
    (Host.reduceAdd (mulf c (kmaskC (F := F) ids)) (constant S_ .f32 0x00000000#32) reducesTo_S4x1023_S_d0_1 h_S_)
    (maximumf (Host.reduceAdd (kmaskC (F := F) ids) (constant S_ .f32 0x00000000#32) reducesTo_S4x1023_S_d0_1 h_S_)
      (constant S_ .f32 0x3F800000#32))

/-- The ids shifted by 0, 1, 2 positions. -/
def kid0 (ids : IVec S4x1024 32) : IVec S4x1022 32 := extractStridedSlice S4x1022 ![0, 0] ids slices_S4x1024_S4x1022_0_0
def kid1 (ids : IVec S4x1024 32) : IVec S4x1022 32 := extractStridedSlice S4x1022 ![0, 1] ids slices_S4x1024_S4x1022_0_1
def kid2 (ids : IVec S4x1024 32) : IVec S4x1022 32 := extractStridedSlice S4x1022 ![0, 2] ids slices_S4x1024_S4x1022_0_2

/-- 1 at `(b, u, i)` where `s b u = s b i`. -/
def keqM (s : IVec S4x1022 32) : IVec S4x1022x1022 1 :=
  cmpi .eq
    (broadcastInDim S4x1022x1022 ![0, 1, 2] bcast_S4x1022x1_S4x1022x1022_0_1_2
      (broadcastInDim S4x1022x1 ![0, 1] bcast_S4x1022_S4x1022x1_0_1 s))
    (broadcastInDim S4x1022x1022 ![0, 1, 2] bcast_S4x1x1022_S4x1022x1022_0_1_2
      (broadcastInDim S4x1x1022 ![0, 2] bcast_S4x1022_S4x1x1022_0_2 s))

/-- The bigrams starting at `u` and at `i` agree. -/
def kbi (ids : IVec S4x1024 32) : IVec S4x1022x1022 1 := andi (keqM (kid0 ids)) (keqM (kid1 ids))

/-- `u < i`. -/
def klt : IVec S1022x1022 1 :=
  cmpi .slt
    (broadcastInDim S1022x1022 ![0, 1] bcast_S1022x1_S1022x1022_0_1
      (broadcastInDim S1022x1 ![0] bcast_S1022_S1022x1_0 (iotaInDim S1022 32 0)))
    (broadcastInDim S1022x1022 ![0, 1] bcast_S1x1022_S1022x1022_0_1
      (broadcastInDim S1x1022 ![1] bcast_S1022_S1x1022_1 (iotaInDim S1022 32 0)))

/-- The third tokens agree and `u < i`. -/
def ktri (ids : IVec S4x1024 32) : IVec S4x1022x1022 1 :=
  andi (keqM (kid2 ids))
    (broadcastInDim S4x1022x1022 ![0, 1, 2] bcast_S1x1022x1022_S4x1022x1022_0_1_2
      (broadcastInDim S1x1022x1022 ![1, 2] bcast_S1022x1022_S1x1022x1022_1_2 klt))

/-- How many earlier starts of the same bigram were followed by the third token at `i`: a batched matrix product of two
    0/1 matrices. -/
def kdot (ids : IVec S4x1024 32) : FVec F S4x1022x1022 .f32 :=
  Host.dotGeneral dot_S4x1022x1022_S4x1022x1022_S4x1022x1022_2_1_1_2_0_0 none
    (uitofp (F := F) .bf16 (kbi ids)) (uitofp (F := F) .bf16 (ktri ids))

/-- The n-gram weight: the bigrams agree, the count `d` is not above one half, and the third token is not padding. -/
def kw (d : FVec F S4x1022x1022 .f32) (ids : IVec S4x1024 32) : FVec F S4x1022x1022 .f32 :=
  uitofp (F := F) .f32
    (andi
      (andi (kbi ids)
        (noti (cmpf .ogt d (broadcastInDim S4x1022x1022 ![] bcast_S_S4x1022x1022 (constant S_ .f32 0x3F000000#32)))))
      (broadcastInDim S4x1022x1022 ![0, 1, 2] bcast_S4x1x1022_S4x1022x1022_0_1_2
        (broadcastInDim S4x1x1022 ![0, 2] bcast_S4x1022_S4x1x1022_0_2
          (cmpi .ne (kid2 ids) (broadcastInDim S4x1022 ![] bcast_S_S4x1022 (constantI S_ 32 0#32))))))

/-- `g` shifted by two in both axes: `g b (u + 2) (i + 2)`. -/
def kngram (g : FVec F S4x1024x1024 .f32) : FVec F S4x1022x1022 .f32 :=
  extractStridedSlice S4x1022x1022 ![0, 2, 2] g slices_S4x1024x1024_S4x1022x1022_0_2_2

/-- The n-gram loss of an array `n b u i` under the count `d`: its weighted mean. -/
def kngr (n d : FVec F S4x1022x1022 .f32) (ids : IVec S4x1024 32) : FVec F S_ .f32 :=
  Host.divf
    (Host.reduceAdd (mulf (kw d ids) n) (constant S_ .f32 0x00000000#32) reducesTo_S4x1022x1022_S_d0_1_2 h_S_)
    (maximumf (Host.reduceAdd (kw d ids) (constant S_ .f32 0x00000000#32) reducesTo_S4x1022x1022_S_d0_1_2 h_S_)
      (constant S_ .f32 0x3F800000#32))

/-- The three losses scaled by 0.3, 0.8 and 0.5, and their sum. -/
def kfin (a b c : FVec F S_ .f32) : FVec F S4 .f32 :=
  concatenate S4 0
    [⟨S1, broadcastInDim S1 ![] bcast_S_S1 (mulf (constant S_ .f32 0x3E99999A#32) a)⟩,
     ⟨S1, broadcastInDim S1 ![] bcast_S_S1 (mulf (constant S_ .f32 0x3F4CCCCD#32) b)⟩,
     ⟨S1, broadcastInDim S1 ![] bcast_S_S1 (mulf (constant S_ .f32 0x3F000000#32) c)⟩,
     ⟨S1, broadcastInDim S1 ![] bcast_S_S1
        (addf (addf (mulf (constant S_ .f32 0x3E99999A#32) a) (mulf (constant S_ .f32 0x3F4CCCCD#32) b))
          (mulf (constant S_ .f32 0x3F000000#32) c))⟩]
    concatenates_S1_S1_S1_S1_S4_d0

/-- The host tail as one function of the gathered array and the ids. -/
def ktail (g : FVec F S4x1024x1024 .f32) (ids : IVec S4x1024 32) : FVec F S4 .f32 :=
  kfin (ktok g ids) (kcon (kconsec g) ids) (kngr (kngram g) (kdot (F := F) ids) ids)

/-! ## The tail's run -/

set_option maxRecDepth 100000 in
set_option maxHeartbeats 4000000 in
/-- The 146 operations after the region leave, at the result, `ktail` of what the gathered array and the ids held before
    them: each operation's result read at its own buffer, every other buffer unchanged; the composed term and `ktail`
    unfold to the same term. -/
theorem after_tail (W : Valuation τ sig (Elt F)) :
    after (List.flatten [hostOps1 (F := F), hostOps1_1, hostOps1_2, hostOps1_3, hostOps1_4]) W (Proc.devRef .tc main_v106)
      = ktail (W (Proc.devRef .tc main_v1)) (W (Proc.devRef .tc main_arg1)) := by
  simp only [List.flatten_cons, List.flatten_nil, List.append_nil, List.cons_append, List.nil_append]
  after_results_simp
  chain_rfl

open Idealize.ShloMosaic.ValueIdx

/-- The dimension numbers of the consecutive-token loss's gather. -/
abbrev GD : GatherDims S4x1023x1024 S4x1023x1x1 S4x1023x1 := gather_S4x1023x1024_S4x1023x1x1_S4x1023x1_n_2_01_01_2_3_111

/-! ## The gather of the consecutive-token loss, read at an index

Its operand's first two axes are batching axes paired with the first two of the start indices, its last axis is collapsed
and start-indexed, and the index vector is the start indices' last axis: result `(b, q, 0)` reads the operand at
`(b, q, s)`, `s` the start index at `(b, q, 0, 0)` read signed and clamped into `0 … 1023`. -/

theorem gd_axis0 (idx : IVec S4x1023x1x1 32) (b : Fin 4) (q : Fin 1023) :
    (GD.operandIdx (ix3 b q (0 : Fin 1)) idx (0 : Fin 3)).val = b.val := by
  have h1 : GD.start (ix3 b q (0 : Fin 1)) idx (0 : Fin 3) = 0 := rfl
  have h2 : GD.batchCoord (ix3 b q (0 : Fin 1)) (0 : Fin 3) = b.val := rfl
  have h3 : GD.offCoord (ix3 b q (0 : Fin 1)) (0 : Fin 3) = 0 := rfl
  show GD.start _ idx 0 + GD.batchCoord _ 0 + GD.offCoord _ 0 = b.val
  rw [h1, h2, h3, Nat.zero_add, Nat.add_zero]

theorem gd_axis1 (idx : IVec S4x1023x1x1 32) (b : Fin 4) (q : Fin 1023) :
    (GD.operandIdx (ix3 b q (0 : Fin 1)) idx (1 : Fin 3)).val = q.val := by
  have h1 : GD.start (ix3 b q (0 : Fin 1)) idx (1 : Fin 3) = 0 := rfl
  have h2 : GD.batchCoord (ix3 b q (0 : Fin 1)) (1 : Fin 3) = q.val := rfl
  have h3 : GD.offCoord (ix3 b q (0 : Fin 1)) (1 : Fin 3) = 0 := rfl
  show GD.start _ idx 1 + GD.batchCoord _ 1 + GD.offCoord _ 1 = q.val
  rw [h1, h2, h3, Nat.zero_add, Nat.add_zero]

theorem gd_axis2 (idx : IVec S4x1023x1x1 32) (b : Fin 4) (q : Fin 1023) :
    (GD.operandIdx (ix3 b q (0 : Fin 1)) idx (2 : Fin 3)).val = min (idx (ix4 b q (0 : Fin 1) (0 : Fin 1))).toInt.toNat 1023 := by
  have h2 : GD.batchCoord (ix3 b q (0 : Fin 1)) (2 : Fin 3) = 0 := rfl
  have h3 : GD.offCoord (ix3 b q (0 : Fin 1)) (2 : Fin 3) = 0 := rfl
  have h1 : GD.start (ix3 b q (0 : Fin 1)) idx (2 : Fin 3) = min (idx (ix4 b q (0 : Fin 1) (0 : Fin 1))).toInt.toNat 1023 := by
    unfold GatherDims.start
    rw [dif_pos (by decide)]
    show min (idx _).toInt.toNat (1024 - 1) = _
    congr 4
    funext a
    match a with
    | ⟨0, _⟩ => rfl
    | ⟨1, _⟩ => rfl
    | ⟨2, _⟩ => rfl
    | ⟨3, _⟩ => rfl
  show GD.start _ idx 2 + GD.batchCoord _ 2 + GD.offCoord _ 2 = _
  simp only [h1, h2, h3, Nat.add_zero]

/-- The gather at `(b, q, 0)`, for a start index that is `s ≤ 1023` there: the operand at `(b, q, s)`. -/
theorem gather_apply {α : Type} (xs : S4x1023x1024.Idx → α) (idx : IVec S4x1023x1x1 32) (b : Fin 4) (q : Fin 1023)
    (s : Fin 1024) (hs : (idx (ix4 b q (0 : Fin 1) (0 : Fin 1))).toInt.toNat = s.val) :
    Host.gather GD xs idx (ix3 b q (0 : Fin 1)) = xs (ix3 b q s) := by
  unfold Host.gather
  congr 1
  funext a
  match a with
  | ⟨0, _⟩ => exact Fin.ext (gd_axis0 idx b q)
  | ⟨1, _⟩ => exact Fin.ext (gd_axis1 idx b q)
  | ⟨2, _⟩ => exact Fin.ext ((gd_axis2 idx b q).trans (by rw [hs]; show min s.val 1023 = s.val; have := s.isLt; omega))

/-! ## The index array and its range check, read at an index -/

/-- A word made from a number below 1024 reads back, signed, as that number. -/
theorem toInt_ofNat_small (n : Nat) (h : n < 1024) : (BitVec.ofNat 32 n).toInt = (n : Int) := by
  have h1 : (BitVec.ofNat 32 n).toNat = n := by
    rw [BitVec.toNat_ofNat]; exact Nat.mod_eq_of_lt (Nat.lt_of_lt_of_le h (by decide))
  have e : (2 : Nat) ^ 32 = 4294967296 := by decide
  rw [BitVec.toInt_eq_toNat_cond, h1, if_pos (by rw [e]; omega)]

/-- The index array holds `q` at `(b, q, 0)`. -/
theorem kidx_apply (b : Fin 4) (q : Fin 1023) : kidx (ix3 b q (0 : Fin 1)) = BitVec.ofNat 32 q.val := by
  unfold kidx
  rw [broadcastInDim_apply _ bcast_S1x1023x1_S4x1023x1_0_1_2 _ (ix3 b q (0 : Fin 1)) (ix3 (0 : Fin 1) q (0 : Fin 1)) (fun a => match a with
      | ⟨0, _⟩ => by show (0 : Nat) = if (1 : Nat) = 1 then 0 else b.val; rw [if_pos rfl]
      | ⟨1, _⟩ => by show q.val = if (1023 : Nat) = 1 then 0 else q.val; rw [if_neg (by decide)]
      | ⟨2, _⟩ => by show (0 : Nat) = if (1 : Nat) = 1 then 0 else 0; rw [if_pos rfl]),
    broadcastInDim_apply _ bcast_S1023_S1x1023x1_1 _ (ix3 (0 : Fin 1) q (0 : Fin 1)) (ix1 q) (fun a => match a with
      | ⟨0, _⟩ => by show q.val = if (1023 : Nat) = 1 then 0 else q.val; rw [if_neg (by decide)])]
  rfl

/-- The normalised index is still `q`: it is not negative. -/
theorem kidxN_apply (b : Fin 4) (q : Fin 1023) : kidxN (ix4 b q (0 : Fin 1) (0 : Fin 1)) = BitVec.ofNat 32 q.val := by
  unfold kidxN
  rw [shapeCast_apply _ shapeCasts_S4x1023x1_S4x1023x1x1 (ix4 b q (0 : Fin 1) (0 : Fin 1)) (ix3 b q (0 : Fin 1))
    (by rw [Shape.rowMajor_val_three, Shape.rowMajor_val_four]
        show (b.val * 1023 + q.val) * 1 + 0 = ((b.val * 1023 + q.val) * 1 + 0) * 1 + 0
        omega)]
  show Scalar.select (IntOp.cmpi .slt (kidx (ix3 b q (0 : Fin 1))) 0#32) (IntOp.addi (kidx (ix3 b q (0 : Fin 1))) 1024#32)
    (kidx (ix3 b q (0 : Fin 1))) = _
  rw [kidx_apply]
  unfold Scalar.select
  rw [if_neg]
  intro h
  have h' := IntOp.cmpi_slt.mp h
  rw [toInt_ofNat_small _ (by have := q.isLt; omega)] at h'
  have h0 : (0#32 : BitVec 32).toInt = 0 := by decide
  rw [h0] at h'
  omega

/-- The last axis of the index array, of size one, reduces away. -/
theorem reduces_idx : S4x1023x1x1.Reduces [3] S4x1023x1 := by decide

/-- A fold over a one-element index set is one application. -/
theorem fold_fin_one {β : Type} (op : β → β → β) [Std.Commutative op] [Std.Associative op] (b : β) (f : Fin 1 → β) :
    (Finset.univ : Finset (Fin 1)).fold op b f = op (f 0) b := by
  rw [show (Finset.univ : Finset (Fin 1)) = {0} from rfl, Finset.fold_singleton]

/-- The range check passes at every `(b, q, 0)`. -/
theorem kinr_apply (b : Fin 4) (q : Fin 1023) : kinr (ix3 b q (0 : Fin 1)) = 1#1 := by
  unfold kinr
  rw [Host.reduce_eq_fold_single IntOp.andi _ _ reducesTo_S4x1023x1x1_S4x1023x1_d3 reduces_idx h_S_]
  have hl : reduces_idx.lift (ix3 b q (0 : Fin 1)) (0 : Fin 1) = ix4 b q (0 : Fin 1) (0 : Fin 1) := by
    funext a
    match a with
    | ⟨0, _⟩ => rfl
    | ⟨1, _⟩ => rfl
    | ⟨2, _⟩ => rfl
    | ⟨3, _⟩ => rfl
  refine (fold_fin_one IntOp.andi _ _).trans ?_
  show IntOp.andi ((andi (cmpi .sge kidxN _) (cmpi .sle kidxN _)) (reduces_idx.lift (ix3 b q (0 : Fin 1)) (0 : Fin 1))) 1#1 = 1#1
  rw [hl]
  show IntOp.andi (IntOp.andi (IntOp.cmpi .sge (kidxN (ix4 b q (0 : Fin 1) (0 : Fin 1))) 0#32)
    (IntOp.cmpi .sle (kidxN (ix4 b q (0 : Fin 1) (0 : Fin 1))) 1023#32)) 1#1 = 1#1
  rw [kidxN_apply]
  have hq : (BitVec.ofNat 32 q.val).toInt = (q.val : Int) := toInt_ofNat_small _ (by have := q.isLt; omega)
  have h1 : IntOp.cmpi .sge (BitVec.ofNat 32 q.val) 0#32 = 1#1 :=
    IntOp.cmpi_sge.mpr (by rw [hq, show (0#32 : BitVec 32).toInt = 0 by decide]; omega)
  have h2 : IntOp.cmpi .sle (BitVec.ofNat 32 q.val) 1023#32 = 1#1 :=
    IntOp.cmpi_sle.mpr (by rw [hq, show (1023#32 : BitVec 32).toInt = 1023 by decide]; have := q.isLt; omega)
  rw [h1, h2]
  decide

/-! ## The three sub-terms that read the gathered array, at an index -/

/-- The consecutive-token array is the sub-diagonal: the index `q` is in range, so the gather reads position `q` of step
    `q + 1`. -/
theorem kconsec_apply (g : FVec F S4x1024x1024 .f32) (b : Fin 4) (q : Fin 1023) :
    kconsec g (ix2 b q) = g (ix3 b ⟨q.val + 1, by omega⟩ ⟨q.val, by omega⟩) := by
  unfold kconsec
  rw [shapeCast_apply _ shapeCasts_S4x1023x1_S4x1023 (ix2 b q) (ix3 b q (0 : Fin 1))
    (by rw [Shape.rowMajor_val_three, Shape.rowMajor_val_two]
        show (b.val * 1023 + q.val) * 1 + 0 = b.val * 1023 + q.val
        omega)]
  rw [select_apply, kinr_apply, select_one]
  rw [gather_apply _ kidxN b q ⟨q.val, by omega⟩ (by rw [kidxN_apply, toInt_ofNat_small _ (by omega)]; rfl)]
  exact extractStridedSlice_apply _ g slices_S4x1024x1024_S4x1023x1024_0_1_0 _ _ (fun a => match a with
    | ⟨0, _⟩ => by show b.val = 0 + b.val; omega
    | ⟨1, _⟩ => by show q.val + 1 = 1 + q.val; omega
    | ⟨2, _⟩ => by show q.val = 0 + q.val; omega)

theorem kconsec_eq (g : FVec F S4x1024x1024 .f32) :
    kconsec g = fun j => g (ix3 (j 0) ⟨(j 1).val + 1, by have h : (j 1).val < 1023 := (j 1).isLt; omega⟩ ⟨(j 1).val, by have h : (j 1).val < 1023 := (j 1).isLt; omega⟩) := by
  funext j
  obtain ⟨b, q, rfl⟩ : ∃ (b : Fin 4) (q : Fin 1023), j = ix2 b q := ⟨j 0, j 1, eq_ix2 j⟩
  exact kconsec_apply g b q

/-- The n-gram array is the gathered array shifted by two in both axes. -/
theorem kngram_apply (g : FVec F S4x1024x1024 .f32) (b : Fin 4) (u i : Fin 1022) :
    kngram g (ix3 b u i) = g (ix3 b ⟨u.val + 2, by omega⟩ ⟨i.val + 2, by omega⟩) := by
  unfold kngram
  exact extractStridedSlice_apply _ g slices_S4x1024x1024_S4x1022x1022_0_2_2 _ _ (fun a => match a with
    | ⟨0, _⟩ => by show b.val = 0 + b.val; omega
    | ⟨1, _⟩ => by show u.val + 2 = 2 + u.val; omega
    | ⟨2, _⟩ => by show i.val + 2 = 2 + i.val; omega)

theorem kngram_eq (g : FVec F S4x1024x1024 .f32) :
    kngram g = fun j => g (ix3 (j 0) ⟨(j 1).val + 2, by have h : (j 1).val < 1022 := (j 1).isLt; omega⟩ ⟨(j 2).val + 2, by have h : (j 2).val < 1022 := (j 2).isLt; omega⟩) := by
  funext j
  obtain ⟨b, u, i, rfl⟩ : ∃ (b : Fin 4) (u i : Fin 1022), j = ix3 b u i := ⟨j 0, j 1, j 2, eq_ix3 j⟩
  exact kngram_apply g b u i

/-! ## The same tail on the reference's side

Past its three gathers the reference program runs the same operations as the kernel program's tail: each of its stages
below unfolds to the kernel-side stage of the same name over the reference's own gathered arrays. -/

theorem ref_tok (x : FVec F Cert.ReferenceIdeal.S4x1024x32000 .f32) (ids : IVec S4x1024 32) :
    Cert.ReferenceIdeal.ReadP.val_main_v48 (F := F) x ids = ktok (Cert.ReferenceIdeal.ReadP.val_main_v40 x ids) ids := rfl
theorem ref_con (x : FVec F Cert.ReferenceIdeal.S4x1024x32000 .f32) (ids : IVec S4x1024 32) :
    Cert.ReferenceIdeal.ReadP.val_main_v59 (F := F) x ids = kcon (Cert.ReferenceIdeal.ReadP.val_main_v53 x ids) ids := rfl
theorem ref_ngr (x : FVec F Cert.ReferenceIdeal.S4x1024x32000 .f32) (ids : IVec S4x1024 32) :
    Cert.ReferenceIdeal.ReadP.val_main_v110 (F := F) x ids = kngr (Cert.ReferenceIdeal.ReadP.val_main_v105 x ids) (Cert.ReferenceIdeal.ReadP.val_main_v91 ids) ids := rfl
theorem ref_fin (x : FVec F Cert.ReferenceIdeal.S4x1024x32000 .f32) (ids : IVec S4x1024 32) :
    Cert.ReferenceIdeal.ReadP.val_main_v120 (F := F) x ids = kfin (Cert.ReferenceIdeal.ReadP.val_main_v48 x ids) (Cert.ReferenceIdeal.ReadP.val_main_v59 x ids) (Cert.ReferenceIdeal.ReadP.val_main_v110 x ids) := rfl

/-- The bigram count: the kernel program converts the two 0/1 matrices to another float format than the reference before
    multiplying them; an extended real has no format, and the conversion of a bit does not depend on one. -/
theorem kdot_eq (ids : IVec S4x1024 32) : kdot (F := Ideal) ids = Cert.ReferenceIdeal.ReadP.val_main_v91 (F := Ideal) ids := rfl

/-! ## The bridge -/

open Cert.Spec

/-- On the specification's gathered array the sub-diagonal is the consecutive-token array. -/
theorem kconsec_gath (x : SX.Idx → EReal) (ids : SI.Idx → BitVec 32) :
    kconsec (F := Ideal) (gath x ids) = consec x ids := by
  funext j
  obtain ⟨b, q, rfl⟩ : ∃ (b : Fin 4) (q : Fin 1023), j = ix2 b q := ⟨j 0, j 1, eq_ix2 j⟩
  rw [kconsec_apply]
  rfl

/-- On the specification's gathered array the doubly shifted array is the n-gram array. -/
theorem kngram_gath (x : SX.Idx → EReal) (ids : SI.Idx → BitVec 32) :
    kngram (F := Ideal) (gath x ids) = ngram x ids := by
  funext j
  obtain ⟨b, u, i, rfl⟩ : ∃ (b : Fin 4) (u i : Fin 1022), j = ix3 b u i := ⟨j 0, j 1, j 2, eq_ix3 j⟩
  rw [kngram_apply]
  rfl

/-- The kernel program's tail on the specification's gathered array is the reference program's result, given that the
    reference's three gathers are the specification's arrays. -/
theorem tail_bridge_of (x : SX.Idx → EReal) (ids : SI.Idx → BitVec 32)
    (hg : Cert.ReferenceIdeal.ReadP.val_main_v40 (F := Ideal) x ids = gath x ids) (hc : Cert.ReferenceIdeal.ReadP.val_main_v53 (F := Ideal) x ids = consec x ids)
    (hn : Cert.ReferenceIdeal.ReadP.val_main_v105 (F := Ideal) x ids = ngram x ids) :
    ktail (F := Ideal) (gath x ids) ids = Cert.ReferenceIdeal.ReadP.val_main_v120 (F := Ideal) x ids := by
  rw [ref_fin, ref_tok, ref_con, ref_ngr, hg, hc, hn, ← kdot_eq, ← kconsec_gath, ← kngram_gath]
  rfl

/-- The kernel program's tail on the specification's gathered array is the reference program's result, on the admitted
    inputs. -/
theorem tail_bridge {x : SX.Idx → EReal} {ids : SI.Idx → BitVec 32} (h : Dom x ids) :
    ktail (F := Ideal) (gath x ids) ids = Cert.ReferenceIdeal.ReadP.val_main_v120 (F := Ideal) x ids :=
  tail_bridge_of x ids (Cert.RefGath.ref_gath x ids h) (Cert.RefGath.ref_consec x ids h) (Cert.RefGath.ref_ngram x ids h)

end Cert.KTail

end
-- ==== Proof.PreDom.lean ====
/-
  The admitted inputs, read off the printed precondition.

  The precondition is the conjunction of three statements, each an "all" over an array of one-bit words: every logit has
  absolute value strictly below +∞, every token id is at least 0 as a signed word, and every token id is below 32000 as a
  signed word. When the conjunction is 1, every logit is a real number (an extended real whose absolute value is not +∞ is
  neither ⊤ nor ⊥) and every id, read unsigned, is below 32000 (a signed word in [0, 32000) has its sign bit clear, so
  its signed and unsigned values agree).
-/
import proofs.«410189_j28759101014346_2_alg».proof.Pre_finite_inputs
import proofs.«410189_j28759101014346_2_alg».proof.Proof.Gen.Pre_finite_inputs
import proofs.«410189_j28759101014346_2_alg».proof.Proof.Spec
import Idealize.ShloMosaic.Lib.ReduceAll
import Idealize.ShloMosaic.Lib.StableHlo.Predicate
import Idealize.ShloMosaic.Lib.ValueIdx
import Idealize.ShloMosaic.PureOps.Ideal

noncomputable section

namespace Cert.PreDom

open Idealize.ShloMosaic

/-- The word 0x7F800000 read as a 32-bit float is +∞. -/
theorem inf_bits : Ideal.ofBits .f32 0x7F800000#32 = (⊤ : EReal) := by
  simp [Ideal.ofBits, Ideal.ieee]

/-- An extended real whose absolute value `max a (-a)` is strictly below +∞ is a real number: at ⊤ the maximum is ⊤, and
    at ⊥ it is -⊥ = ⊤. -/
theorem real_of_abs_lt (a : EReal) (h : max a (-a) < ⊤) : ∃ r : ℝ, a = (r : EReal) := by
  induction a using EReal.rec with
  | bot => simp at h
  | coe r => exact ⟨r, rfl⟩
  | top => simp at h

/-- The same, from the comparison as it is printed: `|a| < +∞` came out 1. -/
theorem real_of_cmp (a : EReal) (h : Ideal.cmp .olt (max a (-a)) (Ideal.ofBits .f32 0x7F800000#32) = 1#1) :
    ∃ r : ℝ, a = (r : EReal) := by
  rw [inf_bits] at h
  simp only [Ideal.cmp, StableHlo.Predicate.ofBool_eq_one_iff, decide_eq_true_eq] at h
  exact real_of_abs_lt a h

/-- A 32-bit word that is at least 0 and below 32000 as a signed number is below 32000 as an unsigned one: were its
    sign bit set its signed value would be negative. -/
theorem vocab_of_cmp (a : BitVec 32) (h0 : IntOp.cmpi .sge a 0#32 = 1#1) (h1 : IntOp.cmpi .slt a 32000#32 = 1#1) :
    a.toNat < 32000 := by
  have c0 : (0#32 : BitVec 32).toInt = 0 := by decide
  have c1 : (32000#32 : BitVec 32).toInt = 32000 := by decide
  have ha : a.toInt = if 2 * a.toNat < 2 ^ 32 then (a.toNat : Int) else (a.toNat : Int) - 2 ^ 32 := BitVec.toInt_eq_toNat_cond a
  simp only [IntOp.cmpi, StableHlo.Predicate.ofBool_eq_one_iff, BitVec.sle, BitVec.slt, decide_eq_true_eq, c0, c1] at h0 h1
  split at ha <;> omega

/-- The result of an "all" has a single index. -/
instance : Subsingleton Cert.Pre_finite_inputs.S_.Idx := ⟨fun a b => funext fun d => d.elim0⟩

/-- On inputs the printed precondition admits, every logit is real and every token id is a vocabulary position. -/
theorem dom_of_pre [Cert.Pre_finite_inputs.Facts] (x : FVec Ideal Cert.Pre_finite_inputs.S4x1024x32000 .f32) (ids : IVec Cert.Pre_finite_inputs.S4x1024 32)
    (h : Cert.Pre_finite_inputs.fn (F := Ideal) x ids = fun _ => 1#1) : Cert.Spec.Dom x ids := by
  have h0 := congrFun h ValueIdx.ix0
  dsimp only [Cert.Pre_finite_inputs.fn] at h0
  -- the conjunction of the three "all"s, at the one index
  change IntOp.andi (IntOp.andi _ _) _ = 1#1 at h0
  obtain ⟨h12, h3⟩ := IntOp.andi_eq_one.1 h0
  obtain ⟨h1, h2⟩ := IntOp.andi_eq_one.1 h12
  refine ⟨fun i => ?_, fun i => ?_⟩
  · -- every |x i| < +∞
    exact real_of_cmp (x i) (Host.reduce_andi_all _ _ _ _ _ h1 i)
  · -- every 0 ≤ ids i and every ids i < 32000, signed
    exact vocab_of_cmp (ids i) (Host.reduce_andi_all _ _ _ _ _ h2 i) (Host.reduce_andi_all _ _ _ _ _ h3 i)

end Cert.PreDom

end
-- ==== Proof.lean ====
/-
  The certificate of the fused repetition-loss kernel against its jnp reference, over the extended reals.

  Both programs take logits `x : [4, 1024, 32000]` and token ids `ids : [4, 1024]` and return four numbers: a windowed
  token-repetition loss, a consecutive-token loss, an n-gram loss (each a weighted sum of softmax probabilities of
  tokens of the same sequence, divided by a count) and their weighted total. All three read one array,
  `gath b t p = softmax(x[b, t, :])[ids[b, p]]`: the probability, at step `t`, of the token at position `p`.

  The reference forms the whole softmax and gathers from it three times. The kernel never forms it: over 50 tiles of 640
  vocabulary positions it carries, per row, a running maximum `m`, a denominator `l` and one numerator per position,
  rescaling all of them by `exp (m_old - m_new)` whenever the maximum moves and picking the token's position with a
  one-hot matrix product; at the last tile it stores numerator / denominator. On real logits
  `exp (a + b) = exp a * exp b` makes the rescaled sums the plain ones, so the stored quotient is `gath`
  (Online.lean for the recurrence, KPay.lean for the body's arithmetic at an index, KValue.lean for the output array).
  The consecutive-token loss reads the sub-diagonal `gath b (q + 1) q` and the n-gram loss the shifted square
  `gath b (u + 2) (i + 2)`, which the kernel takes from `gath` by a static slice or an in-range gather and the
  reference by two further gathers from the softmax (KTail.lean, RefGath.lean); the n-gram mask's 0/1 matrix product
  is the same sum whichever float format its operands were converted to. Everything after these arrays is the same
  chain of operations in both programs.

  The statement is made under the precondition that every logit is finite and every token id is a vocabulary
  position, `0 ≤ ids < 32000` (PreDom.lean reads it off the printed predicate): outside that range the reference's
  gather wraps or fills while the kernel's one-hot finds no match.

  The three frames: the kernel's (at the word-level instance and at the ideal one, the same text: K/ and KI/) is the
  pipeline's run of the region — the body run once per control case (first tile, middle tile, last tile), the three
  scratch buffers carried between points, the output block idle except at a sequence's last tile — continued by the
  146 host operations after it, none of which writes an argument; the reference's is its run with the result dropped.
-/
import proofs.«410189_j28759101014346_2_alg».proof.Defs
import proofs.«410189_j28759101014346_2_alg».proof.Proof.Gen.Kernel
import proofs.«410189_j28759101014346_2_alg».proof.Proof.Gen.KernelIdeal
import proofs.«410189_j28759101014346_2_alg».proof.Proof.Gen.ReferenceIdeal
import proofs.«410189_j28759101014346_2_alg».proof.Proof.Gen.Pre_finite_inputs
import proofs.«410189_j28759101014346_2_alg».proof.Proof.K.Frame
import proofs.«410189_j28759101014346_2_alg».proof.Proof.KI.Frame
import proofs.«410189_j28759101014346_2_alg».proof.Proof.KValue
import proofs.«410189_j28759101014346_2_alg».proof.Proof.KTail
import proofs.«410189_j28759101014346_2_alg».proof.Proof.RefRun
import proofs.«410189_j28759101014346_2_alg».proof.Proof.RefRead
import proofs.«410189_j28759101014346_2_alg».proof.Proof.PreDom
import proofs.«410189_j28759101014346_2_alg».proof.Proof.Spec
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves both arguments as they were. -/
theorem frame_k : Cert.frame_Kernel := fun m ρ _ => Cert.Kernel.Hand.frame m ρ

/-- The same of its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the same four numbers: the kernel's
    result is its host tail applied to the array the region wrote, which is `gath` of the arguments; the tail of
    `gath` is the reference's last stage; and the reference's run ends at that stage of its own arguments. -/
theorem algebraic : Cert.algebraic_KernelIdeal_ReferenceIdeal := by
  intro m ρ m' ρ' hpre hagree
  refine ⟨fun c => Cert.ReferenceIdeal.ReadP.val_main_v120 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Hand.run_main (F := Ideal) m ρ)
    have hd := Cert.PreDom.dom_of_pre _ _ (hpre c)
    have ha := Cert.KernelIdeal.Hand.args_of_post m (Cert.KernelIdeal.Hand.dats m) (Cert.KernelIdeal.Hand.A_eq m) h c
    refine ⟨?_, ha.1, ha.2⟩
    rw [Cert.KernelIdeal.Hand.result_of_post m _ (Cert.KernelIdeal.Hand.A_eq m) h c]
    unfold Pipeline.afterTail₀
    rw [Cert.KTail.after_tail (F := Ideal)]
    rw [Pipeline.withArrays_of_ne _ c _ _ Cert.KernelIdeal.main_arg1 (by decide)]
    have e1 : Pipeline.withArrays (Cert.KernelIdeal.cfgs 0).spec c (Cert.KernelIdeal.Hand.V0 m c)
        (fun w => (Cert.KernelIdeal.Hand.dats m 0 c).arrAt w (Cert.KernelIdeal.cfgs 0).N) (Proc.devRef .tc Cert.KernelIdeal.main_v1)
          = (Cert.KernelIdeal.Hand.dats m 0 c).arrAt 2 Cert.KernelIdeal.cfg0.N :=
      Pipeline.withArrays_arr Cert.KernelIdeal.spec0 Cert.KernelIdeal.Gen.launch0.win.arr_inj c _ _ 2
    rw [e1, show Cert.KernelIdeal.Hand.V0 m c (Proc.devRef .tc Cert.KernelIdeal.main_arg1) = _ from Cert.KernelIdeal.Hand.V_main_arg1 m c,
      Cert.KernelIdeal.KValue.arrAt_eq_gath m c hd]
    exact Cert.KTail.tail_bridge hd
  · refine (θ_run Cert.ReferenceIdeal.defs _ _).mono (fun r h c => ⟨?_, (h c).2.1, (h c).2.2⟩)
      (Cert.ReferenceIdeal.ValueP.run (F := Ideal) m' ρ')
    rw [(h c).1, Cert.ReferenceIdeal.ReadP.val_main_v120_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
